-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x30 : Shape := ⟨2, ![32, 30]⟩
abbrev S30 : Shape := ⟨1, ![30]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x30 : S_.BroadcastsInDim S32x30 (![] : Fin 0 → Fin S32x30.rank)
  reducesTo_S32x30_S_d0_1 : S32x30.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg5 : FVec F S32x30 .f32) (main_arg6 : FVec F S30 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x30 .f32 := Host.absf main_arg5
  let main_cst_6 : FVec F S_ .f32 := constant S_ .f32 0x7F800000#32
  let main_v20 : FVec F S32x30 .f32 := broadcastInDim S32x30 ![] bcast_S_S32x30 main_cst_6
  let main_v21 : IVec S32x30 1 := cmpf .olt main_v19 main_v20
  let main_c_7 : IVec S_ 1 := constantI S_ 1 1#1
  let main_v22 : IVec S_ 1 := (fun x v => Host.reduce IntOp.andi x v reducesTo_S32x30_S_d0_1 h_S_) main_v21 main_c_7
  let main_v23 : IVec S_ 1 := andi main_v18 main_v22
  let main_v24 : FVec F S30 .f32 := Host.absf main_arg6
  let main_cst_8 : FVec F S_ .f32 := constant S_ .f32 0x7F800000#32
  let main_v25 : FVec F S30 .f32 := broadcastInDim S30 ![] bcast_S_S30 main_cst_8
  let main_v26 : IVec S30 1 := cmpf .olt main_v24 main_v25
  let main_c_9 : IVec S_ 1 := constantI S_ 1 1#1
  let main_v27 : IVec S_ 1 := (fun x v => Host.reduce IntOp.andi x v reducesTo_S30_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x30 .f32) (main_arg6 : FVec F S30 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x30 : Shape := ⟨2, ![32, 30]⟩
abbrev S30 : Shape := ⟨1, ![30]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x32 : Shape := ⟨2, ![100000, 32]⟩
abbrev S4000x128 : Shape := ⟨2, ![4000, 128]⟩
abbrev S4000x1 : Shape := ⟨2, ![4000, 1]⟩
abbrev S4000x32 : Shape := ⟨2, ![4000, 32]⟩
abbrev S3300000x32 : Shape := ⟨2, ![3300000, 32]⟩
abbrev S1x32 : Shape := ⟨2, ![1, 32]⟩
abbrev S100000x30 : Shape := ⟨2, ![100000, 30]⟩
abbrev S4000x30 : Shape := ⟨2, ![4000, 30]⟩
abbrev S3300000x30 : Shape := ⟨2, ![3300000, 30]⟩
abbrev S1x30 : Shape := ⟨2, ![1, 30]⟩
abbrev S4000 : Shape := ⟨1, ![4000]⟩
abbrev S3200000x1 : Shape := ⟨2, ![3200000, 1]⟩
abbrev S3200000x30 : Shape := ⟨2, ![3200000, 30]⟩
abbrev S16x128 : Shape := ⟨2, ![16, 128]⟩
abbrev S6400x30 : Shape := ⟨2, ![6400, 30]⟩
abbrev S6400x1 : Shape := ⟨2, ![6400, 1]⟩
abbrev S8x128 : Shape := ⟨2, ![8, 128]⟩
abbrev S6400 : Shape := ⟨1, ![6400]⟩
abbrev S1 : Shape := ⟨1, ![1]⟩
abbrev S1x1 : Shape := ⟨2, ![1, 1]⟩
abbrev S1x128 : Shape := ⟨2, ![1, 128]⟩
abbrev S7x128 : Shape := ⟨2, ![7, 128]⟩

abbrev nBuf : Space → Nat
  | .hbm => 97
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x30, .f32⟩
  | .hbm, ⟨6, _⟩ => ⟨S30, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x32, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000x32, .f32⟩
  | .hbm, ⟨39, _⟩ => ⟨S_, .f32⟩
  | .hbm, ⟨40, _⟩ => ⟨S100000x32, .f32⟩
  | .hbm, ⟨41, _⟩ => ⟨S3300000x1, .i32⟩
  | .hbm, ⟨42, _⟩ => ⟨S100000x32, .f32⟩
  | .hbm, ⟨43, _⟩ => ⟨S1x32, .f32⟩
  | .hbm, ⟨44, _⟩ => ⟨S100000x30, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x30, .f32⟩
  | .hbm, ⟨54, _⟩ => ⟨S_, .f32⟩
  | .hbm, ⟨55, _⟩ => ⟨S100000x30, .f32⟩
  | .hbm, ⟨56, _⟩ => ⟨S3300000x1, .i32⟩
  | .hbm, ⟨57, _⟩ => ⟨S100000x30, .f32⟩
  | .hbm, ⟨58, _⟩ => ⟨S1x30, .f32⟩
  | .hbm, ⟨59, _⟩ => ⟨S100000x30, .f32⟩
  | .hbm, ⟨60, _⟩ => ⟨S1x30, .f32⟩
  | .hbm, ⟨61, _⟩ => ⟨S30, .f32⟩
  | .hbm, ⟨62, _⟩ => ⟨S30, .f32⟩
  | .hbm, ⟨63, _⟩ => ⟨S_, .f32⟩
  | .hbm, ⟨64, _⟩ => ⟨S30, .f32⟩
  | .hbm, ⟨65, _⟩ => ⟨S30, .f32⟩
  | .hbm, ⟨66, _⟩ => ⟨S30, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x30, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000x30, .f32⟩
  | .hbm, ⟨88, _⟩ => ⟨S3200000x1, .f32⟩
  | .hbm, ⟨89, _⟩ => ⟨S16x128, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S128x32, .f32⟩
  | .local _ .vmem, ⟨3, _⟩ => ⟨S4000x1, .f32⟩
  | .local _ .vmem, ⟨4, _⟩ => ⟨S4000x1, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | .local _ .vmem, ⟨9, _⟩ => ⟨S4000x1, .f32⟩
  | .local _ .vmem, ⟨10, _⟩ => ⟨S4000x1, .f32⟩
  | .local _ .vmem, ⟨11, _⟩ => ⟨S1x32, .f32⟩
  | .local _ .vmem, ⟨12, _⟩ => ⟨S32x30, .f32⟩
  | .local _ .vmem, ⟨13, _⟩ => ⟨S4000x30, .f32⟩
  | .local _ .vmem, ⟨14, _⟩ => ⟨S4000x30, .f32⟩
  | .local _ .vmem, ⟨15, _⟩ => ⟨S4000x30, .f32⟩
  | .local _ .vmem, ⟨16, _⟩ => ⟨S4000x30, .f32⟩
  | .local _ .vmem, ⟨17, _⟩ => ⟨S4000x1, .f32⟩
  | .local _ .vmem, ⟨18, _⟩ => ⟨S4000x1, .f32⟩
  | .local _ .vmem, ⟨19, _⟩ => ⟨S1x30, .f32⟩
  | .local _ .vmem, ⟨20, _⟩ => ⟨S4000x30, .f32⟩
  | .local _ .vmem, ⟨21, _⟩ => ⟨S4000x30, .f32⟩
  | .local _ .vmem, ⟨22, _⟩ => ⟨S1x30, .f32⟩
  | .local _ .vmem, ⟨23, _⟩ => ⟨S6400x30, .f32⟩
  | .local _ .vmem, ⟨24, _⟩ => ⟨S6400x30, .f32⟩
  | .local _ .vmem, ⟨25, _⟩ => ⟨S6400x30, .f32⟩
  | .local _ .vmem, ⟨26, _⟩ => ⟨S6400x30, .f32⟩
  | .local _ .vmem, ⟨27, _⟩ => ⟨S6400x1, .f32⟩
  | .local _ .vmem, ⟨28, _⟩ => ⟨S6400x1, .f32⟩
  | .local _ .vmem, ⟨29, _⟩ => ⟨S8x128, .f32⟩
  | .local _ .vmem, ⟨30, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x30 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x30 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x30 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![2, 250], ![false, false]⟩

def cc3_transform_0 (i : grid3.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S6400x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S6400x30 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S6400x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x30_S32x30_0_0 : ∀ a, (![0, 0] : Fin 2 → Nat) a + S32x30.size a ≤ S32x30.size a
  h_S32x30 : 0 < S32x30.numel
  broadcasts_S4000x1_S4000x30 : S4000x1.Broadcasts S4000x30
  inb_S4000x30_S4000x30_0_0 : ∀ a, (![0, 0] : Fin 2 → Nat) a + S4000x30.size a ≤ S4000x30.size a
  h_S4000x30 : 0 < S4000x30.numel
  bcast_S_S100000x30 : S_.BroadcastsInDim S100000x30 (![] : Fin 0 → Fin S100000x30.rank)
  shapeCasts_S30_S1x30 : S30.ShapeCasts S1x30
  inb_S1x30_S1x30_0_0 : ∀ a, (![0, 0] : Fin 2 → Nat) a + S1x30.size a ≤ S1x30.size a
  h_S1x30 : 0 < S1x30.numel
  shapeCasts_S4000x30_S4000x30 : S4000x30.ShapeCasts S4000x30
  shapeCasts_S1x30_S1x30 : S1x30.ShapeCasts S1x30
  broadcasts_S1x30_S4000x30 : S1x30.Broadcasts S4000x30
  reduces_S4000x30_S4000 : S4000x30.Reduces [1] S4000
  shapeCasts_S4000_S4000x1 : S4000.ShapeCasts S4000x1
  reduces_S4000x30_S30 : S4000x30.Reduces [0] S30
  shapeCasts_S1x30_S30 : S1x30.ShapeCasts S30
  bcast_S_S30 : S_.BroadcastsInDim S30 (![] : Fin 0 → Fin S30.rank)
  reducesTo_S30_S_d0 : S30.ReducesTo [0] S_
  h_S_ : 0 < S_.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  inb_S8x128_S8x128_0_0 : ∀ a, (![0, 0] : Fin 2 → Nat) a + S8x128.size a ≤ S8x128.size a
  h_S8x128 : 0 < S8x128.numel
  inb_S6400x30_S6400x30_0_0 : ∀ a, (![0, 0] : Fin 2 → Nat) a + S6400x30.size a ≤ S6400x30.size a
  h_S6400x30 : 0 < S6400x30.numel
  shapeCasts_S6400x30_S6400x30 : S6400x30.ShapeCasts S6400x30
  reduces_S6400x30_S6400 : S6400x30.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  reduces_S6400x1_S1 : S6400x1.Reduces [0] S1
  shapeCasts_S1_S1x1 : S1.ShapeCasts S1x1
  shapeCasts_S1x1_S1x1 : S1x1.ShapeCasts S1x1
  broadcasts_S1x1_S1x128 : S1x1.Broadcasts S1x128
  concatenates_S1x128_S7x128_S8x128_d0 : Shape.Concatenates [S1x128, S7x128] S8x128 0
  shapeCasts_S8x128_S8x128 : S8x128.ShapeCasts S8x128
  reducesTo_S16x128_S_d0_1 : S16x128.ReducesTo [0, 1] S_
  scatter_S100000_S3300000x1_S3300000_n_0_0_1_wf : ScatterDims.WF S100000 S3300000x1 S3300000 [] [0] [0] 1
  dot_S4000x128_S128x32_S4000x32_1_0_0_1_n_n_wf : DotDims.WF S4000x128 S128x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S4000x32_S32x30_S4000x30_1_0_0_1_n_n_wf : DotDims.WF S4000x32 S32x30 S4000x30 [1] [0] [0] [1] [] []
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  gather_S100000x30_S3200000x1_S3200000x30_1_0_n_n_0_1_130_wf : GatherDims.WF S100000x30 S3200000x1 S3200000x30 [1] [0] [] [0] [] 1 ![1, 30]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .f32 = 32 ∨ (Rect.block (s := S100000x32) S4000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x30.size a ≤ S32x30.size a
  hwx1_3 : ∀ i : grid1.Coords, EltTy.bits .f32 = 32 ∨ (Rect.block (s := S32x30) S32x30.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x30.size a ≤ S100000x30.size a
  hwx1_4 : ∀ i : grid1.Coords, EltTy.bits .f32 = 32 ∨ (Rect.block (s := S100000x30) S4000x30.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x30.size a ≤ S100000x30.size a
  hwx2_0 : ∀ i : grid2.Coords, EltTy.bits .f32 = 32 ∨ (Rect.block (s := S100000x30) S4000x30.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x30.size a ≤ S1x30.size a
  hwx2_2 : ∀ i : grid2.Coords, EltTy.bits .f32 = 32 ∨ (Rect.block (s := S1x30) S1x30.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x30.size a ≤ S100000x30.size a
  hwx2_3 : ∀ i : grid2.Coords, EltTy.bits .f32 = 32 ∨ (Rect.block (s := S100000x30) S4000x30.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x30.size a ≤ S1x30.size a
  hwx2_4 : ∀ i : grid2.Coords, EltTy.bits .f32 = 32 ∨ (Rect.block (s := S1x30) S1x30.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x30.size a ≤ S3200000x30.size a
  hwx3_0 : ∀ i : grid3.Coords, EltTy.bits .f32 = 32 ∨ (Rect.block (s := S3200000x30) S6400x30.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x30.size a ≤ S3200000x30.size a
  hwx3_1 : ∀ i : grid3.Coords, EltTy.bits .f32 = 32 ∨ (Rect.block (s := S3200000x30) S6400x30.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x1.size a ≤ S3200000x1.size a
  hwx3_2 : ∀ i : grid3.Coords, EltTy.bits .f32 = 32 ∨ (Rect.block (s := S3200000x1) S6400x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S16x128.size a
  hwx3_3 : ∀ i : grid3.Coords, EltTy.bits .f32 = 32 ∨ (Rect.block (s := S16x128) S8x128.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S4000x32_S32x30_S4000x30_1_0_0_1_n_n : DotDims S4000x32 S32x30 S4000x30 where
  lhsContracting := [1]
  rhsContracting := [0]
  lhsNonContracting := [0]
  rhsNonContracting := [1]
  lhsBatch := []
  rhsBatch := []
  wf := dot_S4000x32_S32x30_S4000x30_1_0_0_1_n_n_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x30.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x30.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40_0) S4000x30.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40_1) S1x30.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S6400x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S6400x30.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S6400x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S8x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x30 : Shape := ⟨2, ![32, 30]⟩
abbrev S30 : Shape := ⟨1, ![30]⟩
abbrev S1x3200000 : Shape := ⟨2, ![1, 3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x30 : Shape := ⟨2, ![100000, 30]⟩
abbrev S3300000x30 : Shape := ⟨2, ![3300000, 30]⟩
abbrev S1x30 : Shape := ⟨2, ![1, 30]⟩
abbrev S100000x1 : Shape := ⟨2, ![100000, 1]⟩
abbrev S3200000x1 : Shape := ⟨2, ![3200000, 1]⟩
abbrev S3200000x30 : Shape := ⟨2, ![3200000, 30]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x32, .f32⟩
  | 4 => ⟨S32, .f32⟩
  | 5 => ⟨S32x30, .f32⟩
  | 6 => ⟨S30, .f32⟩
  | 7 => ⟨S1x3200000, .i32⟩
  | 8 => ⟨S3200000, .i32⟩
  | 9 => ⟨S1x3200000, .i32⟩
  | 10 => ⟨S3200000, .i32⟩
  | 11 => ⟨S100000x32, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x32, .f32⟩
  | 57 => ⟨S3300000x1, .f32⟩
  | 58 => ⟨S3300000x32, .f32⟩
  | 59 => ⟨S3300000x32, .f32⟩
  | 60 => ⟨S_, .f32⟩
  | 61 => ⟨S100000x32, .f32⟩
  | 62 => ⟨S3300000x1, .i32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x30, .f32⟩
  | 71 => ⟨S100000, .i32⟩
  | 72 => ⟨S3300000, .i32⟩
  | 73 => ⟨S3300000, .i32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x30, .f32⟩
  | 116 => ⟨S3300000x1, .f32⟩
  | 117 => ⟨S3300000x30, .f32⟩
  | 118 => ⟨S3300000x30, .f32⟩
  | 119 => ⟨S_, .f32⟩
  | 120 => ⟨S100000x30, .f32⟩
  | 121 => ⟨S3300000x1, .i32⟩
  | 122 => ⟨S100000x30, .f32⟩
  | 123 => ⟨S1x30, .f32⟩
  | 124 => ⟨S100000x30, .f32⟩
  | 125 => ⟨S100000x30, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x30, .f32⟩
  | 5 => ⟨S100000x30, .f32⟩
  | 6 => ⟨S100000x30, .f32⟩
  | 7 => ⟨S_, .f32⟩
  | 8 => ⟨S100000, .f32⟩
  | 9 => ⟨S100000x1, .f32⟩
  | 10 => ⟨S100000x30, .f32⟩
  | 11 => ⟨S100000x30, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x30, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x30, .f32⟩
  | 30 => ⟨S3200000x30, .f32⟩
  | 31 => ⟨S_, .f32⟩
  | 32 => ⟨S3200000, .f32⟩
  | 33 => ⟨S100000x30, .f32⟩
  | 34 => ⟨S_, .f32⟩
  | 35 => ⟨S100000x30, .f32⟩
  | 36 => ⟨S100000x30, .f32⟩
  | 37 => ⟨S100000x30, .f32⟩
  | 38 => ⟨S_, .f32⟩
  | 39 => ⟨S30, .f32⟩
  | 40 => ⟨S30, .f32⟩
  | 41 => ⟨S_, .f32⟩
  | 42 => ⟨S30, .f32⟩
  | 43 => ⟨S30, .f32⟩
  | 44 => ⟨S30, .f32⟩
  | 45 => ⟨S_, .f32⟩
  | 46 => ⟨S_, .f32⟩
  | 47 => ⟨S_, .f32⟩
  | 48 => ⟨S3200000, .f32⟩
  | 49 => ⟨S3200000, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_25 : Ref sig .tc := ⟨.hbm, 149, rfl⟩
abbrev main_v109 : Ref sig .tc := ⟨.hbm, 150, rfl⟩
abbrev main_v110 : Ref sig .tc := ⟨.hbm, 151, rfl⟩
abbrev main_c_26 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_27 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_29 : Ref sig .tc := ⟨.hbm, 166, rfl⟩
abbrev main_v122 : Ref sig .tc := ⟨.hbm, 167, rfl⟩
abbrev main_v123 : Ref sig .tc := ⟨.hbm, 168, rfl⟩
abbrev main_cst_30 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_31 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_cst_33 : Ref sig .tc := ⟨.hbm, 180, rfl⟩
abbrev main_v132 : Ref sig .tc := ⟨.hbm, 181, rfl⟩
abbrev main_cst_34 : Ref sig .tc := ⟨.hbm, 182, rfl⟩
abbrev main_v133 : Ref sig .tc := ⟨.hbm, 183, rfl⟩
abbrev main_v134 : Ref sig .tc := ⟨.hbm, 184, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  reducesTo_S100000x30_S100000_d1 : S100000x30.ReducesTo [1] S100000
  h_S_ : 0 < S_.numel
  bcast_S100000_S100000x1_0 : S100000.BroadcastsInDim S100000x1 (![0] : Fin 1 → Fin S100000x1.rank)
  bcast_S100000x1_S100000x30_0_1 : S100000x1.BroadcastsInDim S100000x30 (![0, 1] : Fin 2 → Fin S100000x30.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x30_S3200000_d1 : S3200000x30.ReducesTo [1] S3200000
  reducesTo_S100000x30_S30_d0 : S100000x30.ReducesTo [0] S30
  bcast_S_S30 : S_.BroadcastsInDim S30 (![] : Fin 0 → Fin S30.rank)
  reducesTo_S30_S_d0 : S30.ReducesTo [0] S_
  reducesTo_S3200000_S_d0 : S3200000.ReducesTo [0] S_
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x30_S100000x30_1_0_0_1_n_n_wf : DotDims.WF S100000x32 S32x30 S100000x30 [1] [0] [0] [1] [] []
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  gather_S100000x30_S3200000x1_S3200000x30_1_0_n_n_0_1_130_wf : GatherDims.WF S100000x30 S3200000x1 S3200000x30 [1] [0] [] [0] [] 1 ![1, 30]

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x30_S100000x30_1_0_0_1_n_n : DotDims S100000x32 S32x30 S100000x30 where
  lhsContracting := [1]
  rhsContracting := [0]
  lhsNonContracting := [0]
  rhsNonContracting := [1]
  lhsBatch := []
  rhsBatch := []
  wf := dot_S100000x32_S32x30_S100000x30_1_0_0_1_n_n_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf

class Facts : Prop extends Facts₀ where

variable [Facts]
-- ==== Proof.KDefs.lean ====
/- Names shared by the modules that read the kernel program's arrays: the seven argument arrays of a launch memory at
   their literal shapes, and the per-node scale (one over the square root of the node's degree, zero at degree zero) that
   both programs compute from the edge list by the same operations. -/
import proofs.«413779_j11321533792258_3_alg».proof.Proof.Gen.KernelIdeal.Frame
import proofs.«413779_j11321533792258_3_alg».proof.Proof.RefRead
import Idealize.ShloMosaic.Lib.ValueIdx

noncomputable section

namespace Cert.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The node features, 100000 rows of 128. -/
abbrev x0 : (⟨S100000x128, .f32⟩ : BufTy).Contents (Elt Ideal) := m ((c.tc : Thread nD τ).loc main_arg0)
/-- The edge list: row 0 the sources, row 1 the destinations, 3200000 edges. -/
abbrev x1 : (⟨S2x3200000, .i32⟩ : BufTy).Contents (Elt Ideal) := m ((c.tc : Thread nD τ).loc main_arg1)
/-- The per-edge targets. -/
abbrev x2 : (⟨S3200000, .f32⟩ : BufTy).Contents (Elt Ideal) := m ((c.tc : Thread nD τ).loc main_arg2)
/-- The first layer's weights and bias, the second layer's weights and bias. -/
abbrev x3 : (⟨S128x32, .f32⟩ : BufTy).Contents (Elt Ideal) := m ((c.tc : Thread nD τ).loc main_arg3)
abbrev x4 : (⟨S32, .f32⟩ : BufTy).Contents (Elt Ideal) := m ((c.tc : Thread nD τ).loc main_arg4)
abbrev x5 : (⟨S32x30, .f32⟩ : BufTy).Contents (Elt Ideal) := m ((c.tc : Thread nD τ).loc main_arg5)
abbrev x6 : (⟨S30, .f32⟩ : BufTy).Contents (Elt Ideal) := m ((c.tc : Thread nD τ).loc main_arg6)

/-- The scale of node `n`: the reciprocal square root of its degree (self loop counted), zero if the degree is zero. -/
def D (n : Fin 100000) : EReal := Cert.ReferenceIdeal.Read.val_main_v15 (F := Ideal) (x1 m c) (ix1 n)

end Cert.KV

end
-- ==== Proof.ScaleFacts.lean ====
/- The per-node scale is a nonnegative extended real other than plus infinity, whatever the degree is.

   The scale is `select (deg > 0) (rsqrt deg) 0`. If the compare is false the value is the zero word, which denotes 0. If it
   is true then deg is plus infinity, whose reciprocal square root is 0, or a positive real, whose reciprocal square root is
   the positive real 1/√deg. Multiplication by such a number distributes over every finite sum of extended reals. -/
import Idealize.ShloMosaic.PureOps.Ideal
import Idealize.ShloMosaic.PureOps.Ideal.Laws
import Idealize.ShloMosaic.Lib.ValueIdx

noncomputable section

namespace Cert.Scale

open Idealize.ShloMosaic Idealize.ShloMosaic.ValueIdx

/-- The reciprocal square root of an extended real above zero is a nonnegative extended real other than plus infinity. -/
theorem rsqrt_of_pos {x : EReal} (hx : 0 < x) : 0 ≤ Ideal.rsqrt x ∧ Ideal.rsqrt x ≠ ⊤ := by
  induction x using EReal.rec with
  | bot => exact absurd hx (by simp)
  | top => rw [Ideal.rsqrt_top]; exact ⟨le_refl _, EReal.zero_ne_top⟩
  | coe r =>
    have hr : 0 < r := by exact_mod_cast hx
    have h1 : ¬ r < 0 := not_lt.mpr hr.le
    have h2 : ¬ r = 0 := ne_of_gt hr
    have e : Ideal.rsqrt (r : EReal) = (((Real.sqrt r)⁻¹ : ℝ) : EReal) := by
      rw [Ideal.rsqrt_coe, if_neg h1, if_neg h2]
    rw [e]
    exact ⟨by exact_mod_cast (inv_nonneg.mpr (Real.sqrt_nonneg r)), EReal.coe_ne_top _⟩

/-- The scale at one node: the value selected by the compare of the degree with the zero word. -/
theorem scale_nonneg_ne_top (deg : EReal) :
    0 ≤ Scalar.select (FloatOps.cmpf (F := Ideal) (φ := .f32) .ogt deg (Ideal.ofBits .f32 0x00000000#32))
          (Ideal.rsqrt deg) (Ideal.ofBits .f32 0x00000000#32)
    ∧ Scalar.select (FloatOps.cmpf (F := Ideal) (φ := .f32) .ogt deg (Ideal.ofBits .f32 0x00000000#32))
          (Ideal.rsqrt deg) (Ideal.ofBits .f32 0x00000000#32) ≠ ⊤ := by
  rw [Ideal.ofBits_zero_f32, Ideal.cmpf_def]
  by_cases h : (0 : EReal) < deg
  · have e : Ideal.cmp .ogt deg 0 = 1#1 := by simp [Ideal.cmp, h]
    rw [e, select_one]
    exact rsqrt_of_pos h
  · have e : Ideal.cmp .ogt deg 0 = 0#1 := by simp [Ideal.cmp, h]
    rw [e, select_zero]
    exact ⟨le_refl _, EReal.zero_ne_top⟩

end Cert.Scale

end
-- ==== Proof.ScaleAt.lean ====
/- The node scale `D n` — the reciprocal square root of node n's degree, zero at degree zero — is a nonnegative extended real
   other than plus infinity; and the reference, which computes the scale once per layer, computes the same array twice. -/
import proofs.«413779_j11321533792258_3_alg».proof.Proof.KDefs
import proofs.«413779_j11321533792258_3_alg».proof.Proof.ScaleFacts

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (c : Dev nD)

/-- The scale of node n is the value the compare of its degree with zero selects: the degree's reciprocal square root, or zero. -/
theorem D_eq (n : Fin 100000) :
    D m c n = Scalar.select (FloatOps.cmpf (F := Ideal) (φ := .f32) .ogt (val_main_v11 (F := Ideal) (x1 m c) (ix1 n)) (Ideal.ofBits .f32 0x00000000#32))
      (Ideal.rsqrt (val_main_v11 (F := Ideal) (x1 m c) (ix1 n))) (Ideal.ofBits .f32 0x00000000#32) := by
  unfold D
  rw [val_main_v15_apply, val_main_v13_apply, val_main_v14_apply, val_main_v12_apply, val_main_call0_v1_apply,
    val_main_cst_1_apply]
  generalize val_main_v11 (F := Ideal) (x1 m c) (ix1 n) = y
  rw [val_main_call0_v0_apply, val_main_cst_2_apply]
  rfl

theorem D_nonneg (n : Fin 100000) : 0 ≤ D m c n := by rw [D_eq]; exact (Cert.Scale.scale_nonneg_ne_top _).1
theorem D_ne_top (n : Fin 100000) : D m c n ≠ ⊤ := by rw [D_eq]; exact (Cert.Scale.scale_nonneg_ne_top _).2

/-- The reference computes the scale a second time, for its second layer, by the same operations on the edge list. -/
theorem scale_again (x1 : (⟨S2x3200000, .i32⟩ : BufTy).Contents (Elt Ideal)) :
    val_main_v59 (F := Ideal) x1 = val_main_v15 (F := Ideal) x1 := rfl

end Cert.KV

end
-- ==== Proof.Reg0.lean ====
/- The first tiled kernel of the graph convolution, read index by index. Each of its 25 grid points takes a
   block of 4000 rows of the features, the whole weight matrix and the matching 4000 entries of the degree
   scaling column, and stores the block (x · w) scaled row by row. The lemmas here state: the product at an
   index is the sum over the contraction index; the column scaling broadcast along the row reads the row's
   entry; the stored block at a point is the block of one whole-array function of the three arrays the kernel
   is entered with; the 25 blocks cover the 100000 rows; hence the output array after the last point is that
   function: (sum over k of x[n,k] * w[k,j]) * s[n,0]. -/
import proofs.«413779_j11321533792258_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KV.Reg0

open Cert.KernelIdeal Cert.KernelIdeal.Gen

variable (V : (c : Dev nD) → (b : Ref sig .tc) → Buf (Elt Ideal) ((c : Thread nD τ).loc b))

/-- The arrays the kernel is entered with and the array it leaves, each at its literal type. -/
abbrev xArr (c : Dev nD) : S100000x128.Idx → EReal := V c main_arg0
abbrev wArr (c : Dev nD) : S128x32.Idx → EReal := V c main_arg3
abbrev sArr (c : Dev nD) : S100000x1.Idx → EReal := V c main_v15
abbrev outArr (c : Dev nD) : S100000x32.Idx → EReal := (dat0 (F := Ideal) V c).arrAt 3 cfg0.N

/-! ## The block product at an index -/

theorem hz : (![0, 0] : Fin 2 → Nat) = fun _ => 0 := funext fun a => by fin_cases a <;> rfl

theorem lhs_0 (i : S4000x32.Idx) (q : dot_S4000x128_S128x32_S4000x32_1_0_0_1_n_n.contr.Idx) :
    (dot_S4000x128_S128x32_S4000x32_1_0_0_1_n_n.lhsIdx i q 0).val = (i 0).val := by
  unfold DotDims.lhsIdx
  rw [dif_neg (show ¬(0 : Fin S4000x128.rank) ∈ dot_S4000x128_S128x32_S4000x32_1_0_0_1_n_n.lhsBatch by decide), dif_pos (show (0 : Fin S4000x128.rank) ∈ dot_S4000x128_S128x32_S4000x32_1_0_0_1_n_n.lhsNonContracting by decide)]
  rfl
theorem lhs_1 (i : S4000x32.Idx) (q : dot_S4000x128_S128x32_S4000x32_1_0_0_1_n_n.contr.Idx) :
    (dot_S4000x128_S128x32_S4000x32_1_0_0_1_n_n.lhsIdx i q 1).val = (q ⟨0, by decide⟩).val :=
  dot_S4000x128_S128x32_S4000x32_1_0_0_1_n_n.lhsIdx_val_of_single rfl i q
theorem rhs_0 (i : S4000x32.Idx) (q : dot_S4000x128_S128x32_S4000x32_1_0_0_1_n_n.contr.Idx) :
    (dot_S4000x128_S128x32_S4000x32_1_0_0_1_n_n.rhsIdx i q 0).val = (q ⟨0, by decide⟩).val :=
  dot_S4000x128_S128x32_S4000x32_1_0_0_1_n_n.rhsIdx_val_of_single rfl i q
theorem rhs_1 (i : S4000x32.Idx) (q : dot_S4000x128_S128x32_S4000x32_1_0_0_1_n_n.contr.Idx) :
    (dot_S4000x128_S128x32_S4000x32_1_0_0_1_n_n.rhsIdx i q 1).val = (i 1).val := by
  unfold DotDims.rhsIdx
  rw [dif_neg (show ¬(1 : Fin S128x32.rank) ∈ dot_S4000x128_S128x32_S4000x32_1_0_0_1_n_n.rhsBatch by decide), dif_pos (show (1 : Fin S128x32.rank) ∈ dot_S4000x128_S128x32_S4000x32_1_0_0_1_n_n.rhsNonContracting by decide)]
  rfl

/-- The block product into the zero accumulator, at row `p` and column `q`: the sum over the 128 contraction
    indices of the products of the operands' entries. -/
theorem mm_apply (x : FVec Ideal S4000x128 .bf16) (w : FVec Ideal S128x32 .bf16) (p : Fin 4000) (q : Fin 32) :
    (matmul dot_S4000x128_S128x32_S4000x32_1_0_0_1_n_n none x w (constant S4000x32 .f32 0x00000000#32) : FVec Ideal S4000x32 .f32) (ix2 p q)
      = ∑ k : Fin 128, x (ix2 p k) * w (ix2 k q) := by
  refine (Ideal.matmul_constant_zero_apply dot_S4000x128_S128x32_S4000x32_1_0_0_1_n_n none x w (ix2 p q)).trans ?_
  rw [← Equiv.sum_comp (ValueIdx.contrEquiv1 dot_S4000x128_S128x32_S4000x32_1_0_0_1_n_n 128 rfl rfl).symm]
  refine Finset.sum_congr rfl fun k _ => ?_
  have hk := ValueIdx.contrEquiv1_symm_val dot_S4000x128_S128x32_S4000x32_1_0_0_1_n_n 128 rfl rfl k
  have el : dot_S4000x128_S128x32_S4000x32_1_0_0_1_n_n.lhsIdx (ix2 p q) ((ValueIdx.contrEquiv1 dot_S4000x128_S128x32_S4000x32_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x32_S4000x32_1_0_0_1_n_n.rhsIdx (ix2 p q) ((ValueIdx.contrEquiv1 dot_S4000x128_S128x32_S4000x32_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The column of scalings broadcast along the rows -/

/-- A `[4000, 1]` column broadcast to `[4000, 32]` reads, at `(p, q)`, the column's entry of row `p`. -/
theorem bcast_col_apply (v : S4000x1.Idx → EReal) (h : S4000x1.Broadcasts S4000x32) (p : Fin 4000) (q : Fin 32) :
    broadcastTo S4000x32 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The stored block at an index -/

/-- What the body stores, at row `p` and column `q` of the block: the product's entry times the row's scaling. -/
theorem pay_apply (x : Vec Ideal S4000x128 .f32) (w : Vec Ideal S128x32 .f32) (s : Vec Ideal S4000x1 .f32) (p : Fin 4000) (q : Fin 32) :
    (k0_pay1 x w s : FVec Ideal S4000x32 .f32) (ix2 p q) = (∑ k : Fin 128, x (ix2 p k) * w (ix2 k q)) * s (ix2 p (0 : Fin 1)) := by
  unfold k0_pay1
  refine (mulf_apply _ _ (ix2 p q)).trans ?_
  refine congrArg₂ (· * ·) ((mm_apply _ _ p q).trans rfl) ?_
  rw [shapeCast_self]
  exact bcast_col_apply s _ p q

/-! ## The whole-array function the blocks are cut from -/

/-- Row `n`, column `j` of the result: the row of the product, scaled by the row's entry of the column. -/
def rowFn (c : Dev nD) (n : Fin 100000) (j : Fin 32) : EReal :=
  (∑ k : Fin 128, xArr V c (ix2 n k) * wArr V c (ix2 k j)) * sArr V c (ix2 n (0 : Fin 1))

/-- The same as one function of the array's index. -/
def G (c : Dev nD) : S100000x32.Idx → EReal := fun i => rowFn V c (i 0) (i 1)

theorem G_ix2 (c : Dev nD) (n : Fin 100000) (j : Fin 32) : G V c (ix2 n j) = rowFn V c n j := rfl

/-! ## Where each window's block sits, decided over the 25 grid points -/

/-- The row blocks of the features, of the scaling column and of the result move with the grid point; the
    weights' window is the whole matrix at every point; every block column is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `4000 t + p` of the features. -/
theorem xblk_apply (c : Dev nD) (t : Fin cfg0.N) (p : Fin 4000) (k : Fin 128) (n : Fin 100000)
    (hn : n.val = t.val * 4000 + p.val) :
    (iblk0 V c 0 t : Vec Ideal S4000x128 .f32) (ix2 p k) = xArr V c (ix2 n k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 4000 + 1 * p.val = n.val; rw [e0, hn]; omega
  | ⟨1, _⟩ => show win0_0.index t 1 * 128 + 1 * k.val = k.val; rw [e1]; omega

/-- The weights' block at every point is the weight matrix. -/
theorem wblk_apply (c : Dev nD) (t : Fin cfg0.N) (k : Fin 128) (q : Fin 32) :
    (iblk0 V c 1 t : Vec Ideal S128x32 .f32) (ix2 k q) = wArr V c (ix2 k q) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 128 + 1 * k.val = k.val; rw [e0]; omega
  | ⟨1, _⟩ => show win0_1.index t 1 * 32 + 1 * q.val = q.val; rw [e1]; omega

/-- Row `p` of the scaling column's block at point `t` is row `4000 t + p` of the column. -/
theorem sblk_apply (c : Dev nD) (t : Fin cfg0.N) (p : Fin 4000) (n : Fin 100000)
    (hn : n.val = t.val * 4000 + p.val) :
    (iblk0 V c 2 t : Vec Ideal S4000x1 .f32) (ix2 p (0 : Fin 1)) = sArr V c (ix2 n (0 : Fin 1)) := by
  obtain ⟨-, -, -, -, e0, e1, -⟩ := idx_facts t
  unfold iblk0
  rw [View.read_apply]
  show V c main_v15 _ = V c main_v15 _
  congr 1
  funext a
  apply Fin.ext
  match a with
  | ⟨0, _⟩ => show win0_2.index t 0 * 4000 + 1 * p.val = n.val; rw [e0, hn]; omega
  | ⟨1, _⟩ => show win0_2.index t 1 * 1 + 1 * 0 = 0; rw [e1]

/-- Entry `(p, q)` of the result's block at point `t` is entry `(4000 t + p, q)` of the result. -/
theorem oblk_emb (t : Fin cfg0.N) (p : Fin 4000) (q : Fin 32) (n : Fin 100000)
    (hn : n.val = t.val * 4000 + p.val) :
    ((cfg0.win 3).blk t).view.emb (ix2 p q) = (ix2 n q : S100000x32.Idx) := by
  obtain ⟨-, -, -, -, -, -, e0, e1⟩ := idx_facts t
  funext a
  apply Fin.ext
  match a with
  | ⟨0, _⟩ => show win0_3.index t 0 * 4000 + 1 * p.val = n.val; rw [e0, hn]; omega
  | ⟨1, _⟩ => show win0_3.index t 1 * 32 + 1 * q.val = q.val; rw [e1]; omega

/-! ## What a point writes back -/

/-- The block the body stores at point `t`, at `(p, q)`: the whole-array function at `(4000 t + p, q)`. -/
theorem stored_apply (c : Dev nD) (t : Fin cfg0.N) (p : Fin 4000) (q : Fin 32) (n : Fin 100000)
    (hn : n.val = t.val * 4000 + p.val) :
    (k0_pay1 (iblk0 V c 0 t) (iblk0 V c 1 t) (iblk0 V c 2 t) : FVec Ideal S4000x32 .f32) (ix2 p q) = rowFn V c n q := by
  refine (pay_apply (iblk0 V c 0 t) (iblk0 V c 1 t) (iblk0 V c 2 t) p q).trans ?_
  unfold rowFn
  refine congrArg₂ (· * ·) (Finset.sum_congr rfl fun k _ => ?_) (sblk_apply V c t p n hn)
  exact congrArg₂ (· * ·) (xblk_apply V c t p k n hn) (wblk_apply V c t k q)

/-- The same at an index of the block: the whole-array function where the block's rectangle puts the index. -/
theorem stored_eq (c : Dev nD) (t : Fin cfg0.N) (y : S4000x32.Idx) :
    (k0_pay1 (iblk0 V c 0 t) (iblk0 V c 1 t) (iblk0 V c 2 t) : FVec Ideal S4000x32 .f32) y
      = G V c (((cfg0.win 3).blk t).view.emb y) := by
  obtain ⟨p, q, rfl⟩ : ∃ (p : Fin 4000) (q : Fin 32), y = ix2 p q := ⟨y 0, y 1, eq_ix2 y⟩
  have ht : t.val < 25 := lt_of_lt_of_eq t.isLt N_0
  have hp : p.val < 4000 := p.isLt
  have hn : (⟨t.val * 4000 + p.val, by omega⟩ : Fin 100000).val = t.val * 4000 + p.val := rfl
  rw [oblk_emb t p q _ hn, G_ix2]
  exact stored_apply V c t p q _ hn

/-- What point `t` writes back is block `t` of the whole-array function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x32) hz, View.ld_unit_zero (S := S4000x1) hz]
  funext y
  exact stored_eq V c t y

/-! ## The 25 blocks cover the array -/

/-- An index of the array is in point `t`'s block iff each coordinate is in the block's range on its axis. -/
theorem mem_blk (t : Fin cfg0.N) (i : S100000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole main_v16).slice (win0_3.rect t)).set ↔ _
  rw [View.set_slice_whole, Rect.mem_set_unit]
  exact Iff.rfl

/-- Row `r` lies in the block of point `r / 4000`, and every point writes its block back. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  have htv : t.val = (i 0).val / 4000 := rfl
  obtain ⟨-, -, -, -, -, -, e0, e1⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; rw [e0, htv]; omega
  | ⟨1, _⟩ => show win0_3.index t (1 : Fin 2) * 32 ≤ (i 1).val ∧ (i 1).val < win0_3.index t (1 : Fin 2) * 32 + 32; rw [e1]; omega

/-! ## The array after the last point -/

/-- The result array ends holding the whole-array function. -/
theorem final (c : Dev nD) : (dat0 V c).arrAt 3 cfg0.N = G V c :=
  (dat0 V c).arrAt_eq_of_cover 3 (G V c) (fun t _ => flushed_eq V c t) cover

/-- Index by index: the result at `(n, j)` is the sum over `k` of `x[n,k] * w[k,j]`, times `s[n,0]`. -/
theorem reg0_arr (c : Dev nD) (n : Fin 100000) (j : Fin 32) :
    outArr V c (ix2 n j)
      = (∑ k : Fin 128, xArr V c (ix2 n k) * wArr V c (ix2 k j)) * sArr V c (ix2 n 0) :=
  congrFun (final V c) (ix2 n j)

end Cert.KV.Reg0

end
-- ==== Proof.HostA.lean ====
/- The buffers of the two-layer graph convolution's main program at the entries of its first three kernel regions.
   The host operations between the launch and those entries compute, from the edge list alone, the concatenated
   index vectors (sources followed by 0 … 99999, destinations followed by 0 … 99999) and the per-node scale; they
   gather the rows of a region's output at the normalised sources and add them up at the destinations; and they
   reshape the bias vectors to rows. Each lemma states what one buffer holds at a region's entry: an argument array
   as launched, the scale column equal to the reference's scale stage, the aggregated rows as a scatter-add of a
   gather whose index columns are the reference's own stages, a bias row equal to the bias vector. -/
import proofs.«413779_j11321533792258_3_alg».proof.Proof.KDefs
import Idealize.ShloMosaic.Lib.ValueLayout
import Idealize.ShloMosaic.Lib.Pipeline.Value

set_option maxRecDepth 16384

noncomputable section

namespace Cert.KV.HostA

open Idealize.ShloMosaic Idealize.ShloMosaic.TcCoe Idealize.SL.Sem Idealize.ShloMosaic.ValueIdx
open Cert.KernelIdeal Cert.KernelIdeal.Gen

/-- A vector cast to a column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A line of host operations leaves a buffer that none of them writes as it was. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Each line of host operations, from any contents `V` of the buffers and over any float family

The two programs build the index vectors and the scale by the same operations, so what a line leaves in a buffer is
the reference's stage of the edge list as a term. -/

section Lines

variable {F : FTy → Type} [FloatOps F]

/-- The first line leaves the sources followed by 0 … 99999 in `main_v5`. -/
theorem ops0_v5 (V : Valuation τ sig (Elt F)) :
    (StableHlo.after hostOps0 V (Proc.devRef .tc main_v5) : (⟨S3300000, .i32⟩ : BufTy).Contents (Elt F))
      = Cert.ReferenceIdeal.Read.val_main_v6 (F := F) (V (Proc.devRef .tc main_arg1)) := by
  after_results
  rfl

/-- The first line leaves the destinations followed by 0 … 99999 in `main_v6`. -/
theorem ops0_v6 (V : Valuation τ sig (Elt F)) :
    (StableHlo.after hostOps0 V (Proc.devRef .tc main_v6) : (⟨S3300000, .i32⟩ : BufTy).Contents (Elt F))
      = Cert.ReferenceIdeal.Read.val_main_v7 (F := F) (V (Proc.devRef .tc main_arg1)) := by
  after_results
  rfl

/-- The first line leaves the test "the degree is positive" in `main_v12`. -/
theorem ops0_v12 (V : Valuation τ sig (Elt F)) :
    (StableHlo.after hostOps0 V (Proc.devRef .tc main_v12) : (⟨S100000, .i1⟩ : BufTy).Contents (Elt F))
      = Cert.ReferenceIdeal.Read.val_main_v13 (F := F) (V (Proc.devRef .tc main_arg1)) := by
  after_results
  rfl

/-- The first line leaves the reciprocal square root of the degree in `main_v13`. -/
theorem ops0_v13 (V : Valuation τ sig (Elt F)) :
    (StableHlo.after hostOps0 V (Proc.devRef .tc main_v13) : (⟨S100000, .f32⟩ : BufTy).Contents (Elt F))
      = Cert.ReferenceIdeal.Read.val_main_v14 (F := F) (V (Proc.devRef .tc main_arg1)) := by
  after_results
  rfl

/-- The first line leaves the scalar zero in `main_cst_2`. -/
theorem ops0_cst_2 (V : Valuation τ sig (Elt F)) :
    (StableHlo.after hostOps0 V (Proc.devRef .tc main_cst_2) : (⟨S_, .f32⟩ : BufTy).Contents (Elt F))
      = Cert.ReferenceIdeal.Read.val_main_cst_2 (F := F) := by
  after_results
  rfl

/-- The selection line leaves the scale in `main_v14`: the reciprocal square root where the degree is positive, zero elsewhere. -/
theorem ops0_1_v14 (V : Valuation τ sig (Elt F)) (x1 : (⟨S2x3200000, .i32⟩ : BufTy).Contents (Elt F))
    (h12 : (V (Proc.devRef .tc main_v12) : (⟨S100000, .i1⟩ : BufTy).Contents (Elt F)) = Cert.ReferenceIdeal.Read.val_main_v13 (F := F) x1)
    (h13 : (V (Proc.devRef .tc main_v13) : (⟨S100000, .f32⟩ : BufTy).Contents (Elt F)) = Cert.ReferenceIdeal.Read.val_main_v14 (F := F) x1)
    (hc : (V (Proc.devRef .tc main_cst_2) : (⟨S_, .f32⟩ : BufTy).Contents (Elt F)) = Cert.ReferenceIdeal.Read.val_main_cst_2 (F := F)) :
    (StableHlo.after hostOps0_1 V (Proc.devRef .tc main_v14) : (⟨S100000, .f32⟩ : BufTy).Contents (Elt F))
      = Cert.ReferenceIdeal.Read.val_main_v15 (F := F) x1 := by
  have e : (StableHlo.after hostOps0_1 V (Proc.devRef .tc main_v14) : (⟨S100000, .f32⟩ : BufTy).Contents (Elt F))
      = select (V (Proc.devRef .tc main_v12) : (⟨S100000, .i1⟩ : BufTy).Contents (Elt F))
          (V (Proc.devRef .tc main_v13) : (⟨S100000, .f32⟩ : BufTy).Contents (Elt F))
          (broadcastInDim S100000 ![] bcast_S_S100000
            (id (V (Proc.devRef .tc main_cst_2) : (⟨S_, .f32⟩ : BufTy).Contents (Elt F)))) := by
    after_results
    rfl
  rw [e, h12, h13, hc]
  rfl

/-- The reshaping line leaves `main_v14` as a column in `main_v15`. -/
theorem ops0_2_v15 (V : Valuation τ sig (Elt F)) :
    (StableHlo.after hostOps0_2 V (Proc.devRef .tc main_v15) : (⟨S100000x1, .f32⟩ : BufTy).Contents (Elt F))
      = shapeCast S100000x1 (V (Proc.devRef .tc main_v14) : (⟨S100000, .f32⟩ : BufTy).Contents (Elt F))
          shapeCasts_S100000_S100000x1 := by
  after_results
  rfl

/-- The first layer's aggregation line: the rows of `main_v16` gathered at the normalised sources and added up at the
    destinations, from zero. -/
theorem ops1_v26 (V : Valuation τ sig (Elt F)) (x1 : (⟨S2x3200000, .i32⟩ : BufTy).Contents (Elt F))
    (h5 : (V (Proc.devRef .tc main_v5) : (⟨S3300000, .i32⟩ : BufTy).Contents (Elt F)) = Cert.ReferenceIdeal.Read.val_main_v6 (F := F) x1)
    (h6 : (V (Proc.devRef .tc main_v6) : (⟨S3300000, .i32⟩ : BufTy).Contents (Elt F)) = Cert.ReferenceIdeal.Read.val_main_v7 (F := F) x1) :
    (StableHlo.after hostOps1 V (Proc.devRef .tc main_v26) : (⟨S100000x32, .f32⟩ : BufTy).Contents (Elt F))
      = Host.scatterAdd scatter_S100000x32_S3300000x1_S3300000x32_1_0_0_1
          (Cert.ReferenceIdeal.Read.val_main_v41 (F := F)) (Cert.ReferenceIdeal.Read.val_main_v42 (F := F) x1)
          (Host.gather gather_S100000x32_S3300000x1_S3300000x32_1_0_n_n_0_1_132
            (V (Proc.devRef .tc main_v16) : (⟨S100000x32, .f32⟩ : BufTy).Contents (Elt F))
            (Cert.ReferenceIdeal.Read.val_main_v36 (F := F) x1)) := by
  have e : (StableHlo.after hostOps1 V (Proc.devRef .tc main_v26) : (⟨S100000x32, .f32⟩ : BufTy).Contents (Elt F))
      = Host.scatterAdd scatter_S100000x32_S3300000x1_S3300000x32_1_0_0_1
          (broadcastInDim S100000x32 ![] bcast_S_S100000x32 (constant S_ .f32 0x00000000#32))
          (broadcastInDim S3300000x1 ![0] bcast_S3300000_S3300000x1_0
            (V (Proc.devRef .tc main_v6) : (⟨S3300000, .i32⟩ : BufTy).Contents (Elt F)))
          (Host.gather gather_S100000x32_S3300000x1_S3300000x32_1_0_n_n_0_1_132
            (V (Proc.devRef .tc main_v16) : (⟨S100000x32, .f32⟩ : BufTy).Contents (Elt F))
            (broadcastInDim S3300000x1 ![0] bcast_S3300000_S3300000x1_0
              (select
                (cmpi .slt (V (Proc.devRef .tc main_v5) : (⟨S3300000, .i32⟩ : BufTy).Contents (Elt F))
                  (broadcastInDim S3300000 ![] bcast_S_S3300000 (constantI S_ 32 0#32)))
                (addi (V (Proc.devRef .tc main_v5) : (⟨S3300000, .i32⟩ : BufTy).Contents (Elt F))
                  (broadcastInDim S3300000 ![] bcast_S_S3300000 (constantI S_ 32 100000#32)))
                (V (Proc.devRef .tc main_v5) : (⟨S3300000, .i32⟩ : BufTy).Contents (Elt F))))) := by
    after_results
  rw [e, h5, h6]
  rfl

/-- The first layer's bias as a row. -/
theorem ops1_v27 (V : Valuation τ sig (Elt F)) :
    (StableHlo.after hostOps1 V (Proc.devRef .tc main_v27) : (⟨S1x32, .f32⟩ : BufTy).Contents (Elt F))
      = shapeCast S1x32 (V (Proc.devRef .tc main_arg4) : (⟨S32, .f32⟩ : BufTy).Contents (Elt F)) shapeCasts_S32_S1x32 := by
  after_results
  rfl

/-- The second layer's aggregation line: the rows of `main_v28` gathered at the normalised sources and added up at the
    destinations, from zero. -/
theorem ops2_v38 (V : Valuation τ sig (Elt F)) (x1 : (⟨S2x3200000, .i32⟩ : BufTy).Contents (Elt F))
    (h5 : (V (Proc.devRef .tc main_v5) : (⟨S3300000, .i32⟩ : BufTy).Contents (Elt F)) = Cert.ReferenceIdeal.Read.val_main_v6 (F := F) x1)
    (h6 : (V (Proc.devRef .tc main_v6) : (⟨S3300000, .i32⟩ : BufTy).Contents (Elt F)) = Cert.ReferenceIdeal.Read.val_main_v7 (F := F) x1) :
    (StableHlo.after hostOps2 V (Proc.devRef .tc main_v38) : (⟨S100000x30, .f32⟩ : BufTy).Contents (Elt F))
      = Host.scatterAdd scatter_S100000x30_S3300000x1_S3300000x30_1_0_0_1
          (Cert.ReferenceIdeal.Read.val_main_v85 (F := F)) (Cert.ReferenceIdeal.Read.val_main_v86 (F := F) x1)
          (Host.gather gather_S100000x30_S3300000x1_S3300000x30_1_0_n_n_0_1_130
            (V (Proc.devRef .tc main_v28) : (⟨S100000x30, .f32⟩ : BufTy).Contents (Elt F))
            (Cert.ReferenceIdeal.Read.val_main_v80 (F := F) x1)) := by
  have e : (StableHlo.after hostOps2 V (Proc.devRef .tc main_v38) : (⟨S100000x30, .f32⟩ : BufTy).Contents (Elt F))
      = Host.scatterAdd scatter_S100000x30_S3300000x1_S3300000x30_1_0_0_1
          (broadcastInDim S100000x30 ![] bcast_S_S100000x30 (constant S_ .f32 0x00000000#32))
          (broadcastInDim S3300000x1 ![0] bcast_S3300000_S3300000x1_0
            (V (Proc.devRef .tc main_v6) : (⟨S3300000, .i32⟩ : BufTy).Contents (Elt F)))
          (Host.gather gather_S100000x30_S3300000x1_S3300000x30_1_0_n_n_0_1_130
            (V (Proc.devRef .tc main_v28) : (⟨S100000x30, .f32⟩ : BufTy).Contents (Elt F))
            (broadcastInDim S3300000x1 ![0] bcast_S3300000_S3300000x1_0
              (select
                (cmpi .slt (V (Proc.devRef .tc main_v5) : (⟨S3300000, .i32⟩ : BufTy).Contents (Elt F))
                  (broadcastInDim S3300000 ![] bcast_S_S3300000 (constantI S_ 32 0#32)))
                (addi (V (Proc.devRef .tc main_v5) : (⟨S3300000, .i32⟩ : BufTy).Contents (Elt F))
                  (broadcastInDim S3300000 ![] bcast_S_S3300000 (constantI S_ 32 100000#32)))
                (V (Proc.devRef .tc main_v5) : (⟨S3300000, .i32⟩ : BufTy).Contents (Elt F))))) := by
    after_results
  rw [e, h5, h6]
  rfl

/-- The second layer's bias as a row. -/
theorem ops2_v39 (V : Valuation τ sig (Elt F)) :
    (StableHlo.after hostOps2 V (Proc.devRef .tc main_v39) : (⟨S1x30, .f32⟩ : BufTy).Contents (Elt F))
      = shapeCast S1x30 (V (Proc.devRef .tc main_arg6) : (⟨S30, .f32⟩ : BufTy).Contents (Elt F)) shapeCasts_S30_S1x30 := by
  after_results
  rfl

end Lines

variable (m : (ℓ : Loc nD τ sig) → Buf (Elt Ideal) ℓ) (ρ : Dev nD → PrngReg) (c : Dev nD)

/-! ## The argument arrays: no host line and no region writes one -/

theorem W3_arg0 : W3 m ρ c (Proc.devRef .tc main_arg0) = x0 m c :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = x0 m c := rfl

theorem W3_arg3 : W3 m ρ c (Proc.devRef .tc main_arg3) = x3 m c :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = x3 m c := rfl

theorem W4_arg4 : W4 m ρ c (Proc.devRef .tc main_arg4) = x4 m c :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = x4 m c := rfl

theorem W5_arg5 : W5 m ρ c (Proc.devRef .tc main_arg5) = x5 m c :=
  calc W5 m ρ c (Proc.devRef .tc main_arg5)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = x5 m c := rfl

theorem W6_arg6 : W6 m ρ c (Proc.devRef .tc main_arg6) = x6 m c :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = x6 m c := rfl

/-! ## The index vectors and the scale, computed once before the first region and kept to the third region's entry -/

theorem W1_v5 : (W1 m ρ c (Proc.devRef .tc main_v5) : (⟨S3300000, .i32⟩ : BufTy).Contents (Elt Ideal))
    = Cert.ReferenceIdeal.Read.val_main_v6 (F := Ideal) (x1 m c) := ops0_v5 (F := Ideal) (W0 m ρ c)

theorem W1_v6 : (W1 m ρ c (Proc.devRef .tc main_v6) : (⟨S3300000, .i32⟩ : BufTy).Contents (Elt Ideal))
    = Cert.ReferenceIdeal.Read.val_main_v7 (F := Ideal) (x1 m c) := ops0_v6 (F := Ideal) (W0 m ρ c)

theorem W4_v5 : (W4 m ρ c (Proc.devRef .tc main_v5) : (⟨S3300000, .i32⟩ : BufTy).Contents (Elt Ideal))
    = Cert.ReferenceIdeal.Read.val_main_v6 (F := Ideal) (x1 m c) :=
  calc W4 m ρ c (Proc.devRef .tc main_v5)
    _ = W3 m ρ c (Proc.devRef .tc main_v5) := W4_of_ne m ρ c main_v5 (by decide)
    _ = W2 m ρ c (Proc.devRef .tc main_v5) := by host_keeps hostOps0_2
    _ = W1 m ρ c (Proc.devRef .tc main_v5) := by host_keeps hostOps0_1
    _ = _ := W1_v5 m ρ c

theorem W4_v6 : (W4 m ρ c (Proc.devRef .tc main_v6) : (⟨S3300000, .i32⟩ : BufTy).Contents (Elt Ideal))
    = Cert.ReferenceIdeal.Read.val_main_v7 (F := Ideal) (x1 m c) :=
  calc W4 m ρ c (Proc.devRef .tc main_v6)
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = _ := W1_v6 m ρ c

theorem W6_v5 : (W6 m ρ c (Proc.devRef .tc main_v5) : (⟨S3300000, .i32⟩ : BufTy).Contents (Elt Ideal))
    = Cert.ReferenceIdeal.Read.val_main_v6 (F := Ideal) (x1 m c) :=
  calc W6 m ρ c (Proc.devRef .tc main_v5)
    _ = W5 m ρ c (Proc.devRef .tc main_v5) := W6_of_ne m ρ c main_v5 (by decide)
    _ = W4 m ρ c (Proc.devRef .tc main_v5) := by host_keeps hostOps1
    _ = _ := W4_v5 m ρ c

theorem W6_v6 : (W6 m ρ c (Proc.devRef .tc main_v6) : (⟨S3300000, .i32⟩ : BufTy).Contents (Elt Ideal))
    = Cert.ReferenceIdeal.Read.val_main_v7 (F := Ideal) (x1 m c) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = _ := W4_v6 m ρ c

/-- The scale vector before it is reshaped: the reference's scale stage of the edge list. -/
theorem W2_v14 : (W2 m ρ c (Proc.devRef .tc main_v14) : (⟨S100000, .f32⟩ : BufTy).Contents (Elt Ideal))
    = Cert.ReferenceIdeal.Read.val_main_v15 (F := Ideal) (x1 m c) :=
  ops0_1_v14 (F := Ideal) (W1 m ρ c) (x1 m c) (ops0_v12 (F := Ideal) (W0 m ρ c)) (ops0_v13 (F := Ideal) (W0 m ρ c))
    (ops0_cst_2 (F := Ideal) (W0 m ρ c))

/-- The scale column at the first region's entry. -/
theorem W3_v15_eq : (W3 m ρ c (Proc.devRef .tc main_v15) : S100000x1.Idx → EReal)
    = shapeCast S100000x1 (Cert.ReferenceIdeal.Read.val_main_v15 (F := Ideal) (x1 m c)) shapeCasts_S100000_S100000x1 :=
  (ops0_2_v15 (F := Ideal) (W2 m ρ c)).trans (congrArg (fun v => shapeCast S100000x1 v shapeCasts_S100000_S100000x1) (W2_v14 m ρ c))

/-- The first region reads the scale column and does not write it; the line after it does not either. -/
theorem W5_v15_eq : W5 m ρ c (Proc.devRef .tc main_v15) = W3 m ρ c (Proc.devRef .tc main_v15) :=
  calc W5 m ρ c (Proc.devRef .tc main_v15)
    _ = W4 m ρ c (Proc.devRef .tc main_v15) := by host_keeps hostOps1
    _ = W3 m ρ c (Proc.devRef .tc main_v15) :=
        (W4_arr m ρ c 2).trans (((dat0 (V3 m ρ) c).arrAt_in 2 rfl _).trans (A_eq0 (V3 m ρ) c 2))

/-- The same for the second region and the line after it. -/
theorem W7_v15_eq : W7 m ρ c (Proc.devRef .tc main_v15) = W5 m ρ c (Proc.devRef .tc main_v15) :=
  calc W7 m ρ c (Proc.devRef .tc main_v15)
    _ = W6 m ρ c (Proc.devRef .tc main_v15) := by host_keeps hostOps2
    _ = W5 m ρ c (Proc.devRef .tc main_v15) :=
        (W6_arr m ρ c 1).trans (((dat1 (V5 m ρ) c).arrAt_in 1 rfl _).trans (A_eq1 (V5 m ρ) c 1))

/-! ## At the first region's entry -/

theorem W3_v15 (n : Fin 100000) :
    (W3 m ρ c (Proc.devRef .tc main_v15) : S100000x1.Idx → EReal) (ix2 n 0) = D m c n :=
  (congrFun (W3_v15_eq m ρ c) (ix2 n 0)).trans
    (shapeCast_a_a1_apply (Cert.ReferenceIdeal.Read.val_main_v15 (F := Ideal) (x1 m c)) shapeCasts_S100000_S100000x1 n 0)

/-! ## At the second region's entry -/

theorem W5_v26 :
    (W5 m ρ c (Proc.devRef .tc main_v26) : S100000x32.Idx → EReal)
      = Host.scatterAdd (F := Ideal) (φ := .f32) scatter_S100000x32_S3300000x1_S3300000x32_1_0_0_1
          (Cert.ReferenceIdeal.Read.val_main_v41 (F := Ideal))
          (Cert.ReferenceIdeal.Read.val_main_v42 (F := Ideal) (x1 m c))
          (Host.gather gather_S100000x32_S3300000x1_S3300000x32_1_0_n_n_0_1_132
            (W4 m ρ c (Proc.devRef .tc main_v16) : S100000x32.Idx → EReal)
            (Cert.ReferenceIdeal.Read.val_main_v36 (F := Ideal) (x1 m c))) :=
  ops1_v26 (F := Ideal) (W4 m ρ c) (x1 m c) (W4_v5 m ρ c) (W4_v6 m ρ c)

theorem W5_v15 (n : Fin 100000) :
    (W5 m ρ c (Proc.devRef .tc main_v15) : S100000x1.Idx → EReal) (ix2 n 0) = D m c n :=
  (congrFun (W5_v15_eq m ρ c) (ix2 n 0)).trans (W3_v15 m ρ c n)

theorem W5_v27 (k : Fin 32) :
    (W5 m ρ c (Proc.devRef .tc main_v27) : S1x32.Idx → EReal) (ix2 0 k) = x4 m c (ix1 k) :=
  (congrFun (ops1_v27 (F := Ideal) (W4 m ρ c)) (ix2 0 k)).trans
    ((shapeCast_a_1a_apply _ shapeCasts_S32_S1x32 0 k).trans (congrFun (W4_arg4 m ρ c) (ix1 k)))

/-! ## At the third region's entry -/

theorem W7_v38 :
    (W7 m ρ c (Proc.devRef .tc main_v38) : S100000x30.Idx → EReal)
      = Host.scatterAdd (F := Ideal) (φ := .f32) scatter_S100000x30_S3300000x1_S3300000x30_1_0_0_1
          (Cert.ReferenceIdeal.Read.val_main_v85 (F := Ideal))
          (Cert.ReferenceIdeal.Read.val_main_v86 (F := Ideal) (x1 m c))
          (Host.gather gather_S100000x30_S3300000x1_S3300000x30_1_0_n_n_0_1_130
            (W6 m ρ c (Proc.devRef .tc main_v28) : S100000x30.Idx → EReal)
            (Cert.ReferenceIdeal.Read.val_main_v80 (F := Ideal) (x1 m c))) :=
  ops2_v38 (F := Ideal) (W6 m ρ c) (x1 m c) (W6_v5 m ρ c) (W6_v6 m ρ c)

theorem W7_v15 (n : Fin 100000) :
    (W7 m ρ c (Proc.devRef .tc main_v15) : S100000x1.Idx → EReal) (ix2 n 0) = D m c n :=
  (congrFun (W7_v15_eq m ρ c) (ix2 n 0)).trans (W5_v15 m ρ c n)

theorem W7_v39 (q : Fin 30) :
    (W7 m ρ c (Proc.devRef .tc main_v39) : S1x30.Idx → EReal) (ix2 0 q) = x6 m c (ix1 q) :=
  (congrFun (ops2_v39 (F := Ideal) (W6 m ρ c)) (ix2 0 q)).trans
    ((shapeCast_a_1a_apply _ shapeCasts_S30_S1x30 0 q).trans (congrFun (W6_arg6 m ρ c) (ix1 q)))

end Cert.KV.HostA

end
-- ==== Proof.Chain1.lean ====
/- The first kernel against the reference's first matrix product.

   The first kernel leaves, in row n and column j of its output, the product (x · W1)(n, j) — the reference's first matrix
   product — times the scale of node n. -/
import proofs.«413779_j11321533792258_3_alg».proof.Proof.ScaleAt
import proofs.«413779_j11321533792258_3_alg».proof.Proof.Reg0
import proofs.«413779_j11321533792258_3_alg».proof.Proof.HostA

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The first kernel's output array, at the boundary after it. -/
abbrev P1 : S100000x32.Idx → EReal := W4 m ρ c (Proc.devRef .tc main_v16)

theorem P1_eq (n : Fin 100000) (j : Fin 32) :
    P1 m ρ c (ix2 n j) = val_main_v4 (F := Ideal) (x0 m c) (x3 m c) (ix2 n j) * D m c n := by
  have h := Reg0.reg0_arr (V3 m ρ) c n j
  have e : P1 m ρ c = Reg0.outArr (V3 m ρ) c := W4_arr m ρ c 3
  rw [e, h, val_main_v4_apply]
  have e0 : Reg0.xArr (V3 m ρ) c = x0 m c := HostA.W3_arg0 m ρ c
  have e3 : Reg0.wArr (V3 m ρ) c = x3 m c := HostA.W3_arg3 m ρ c
  have es : Reg0.sArr (V3 m ρ) c (ix2 n 0) = D m c n := HostA.W3_v15 m ρ c n
  rw [e0, e3, es]
  refine congrArg (· * D m c n) (Finset.sum_congr rfl fun k _ => ?_)
  have el : lidx_main_v4 (ix2 n j) k = ix2 n k := funext fun a => Fin.ext (by match a with | ⟨0, _⟩ => rfl | ⟨1, _⟩ => rfl)
  have er : ridx_main_v4 (ix2 n j) k = ix2 k j := funext fun a => Fin.ext (by match a with | ⟨0, _⟩ => rfl | ⟨1, _⟩ => rfl)
  rw [el, er]

end Cert.KV

end
-- ==== Proof.LibScatterRows.lean ====
/-
  A scatter-add of whole rows into a rank-two table, read at an index.

  The operand is a table [N, C], the scatter indices a column [R, 1] holding one row number per update row, the updates a
  table [R, C]. Update element (e, q) lands at operand element (idx e, q), where idx e is read as a signed integer and is
  NOT clamped: it lands only when 0 ≤ idx e < N, and is dropped otherwise. So operand element (n, j) receives exactly the
  update elements (e, j) over the rows e whose index is n, and the scatter-add's value there is the operand's plus the sum
  of those.
-/
import Idealize.ShloMosaic.PureOps.ShapeOps
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- Any element of a list known to be a singleton is that singleton's element. -/
private theorem getElem_singleton_of_eq {β : Type} {l : List β} {b : β} (h : l = [b]) (k : Nat) (hk : k < l.length) :
    l[k] = b := by
  subst h
  have : k = 0 := by simpa using hk
  subst this; rfl

section
variable {N C R w : Nat} (d : ScatterDims ⟨2, ![N, C]⟩ ⟨2, ![R, 1]⟩ ⟨2, ![R, C]⟩)

/-- On the scattered axis the window starts at row e's index, read signed. -/
theorem start_zero (hsd : d.scatterDimsToOperandDims = [0]) (huw : d.updateWindowDims = [1]) (hivd : d.indexVectorDim = 1)
    (idx : IVec ⟨2, ![R, 1]⟩ w) (e : Fin R) (q : Fin C) :
    d.start (ix2 e q) idx 0 = (idx (ix2 e 0)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_singleton_of_eq hus]
    rfl
  | ⟨1, _⟩ =>
    unfold ScatterDims.siIdx
    rw [dif_pos (by rw [hivd])]
    apply Fin.ext
    show List.idxOf (0 : Fin 2) d.scatterDimsToOperandDims = 0
    rw [hsd]; simp

/-- The other axis is not scattered: its window starts at 0. -/
theorem start_one (hsd : d.scatterDimsToOperandDims = [0]) (idx : IVec ⟨2, ![R, 1]⟩ w) (e : Fin R) (q : Fin C) :
    d.start (ix2 e q) idx 1 = 0 := by
  have hm : (1 : Fin 2) ∉ d.scatterDimsToOperandDims := by rw [hsd]; simp
  unfold ScatterDims.start
  rw [dif_neg hm]

/-- The scattered axis is an inserted one: its window coordinate is 0. -/
theorem window_zero (hiw : d.insertedWindowDims = [0]) (e : Fin R) (q : Fin C) : d.window (ix2 e q) 0 = 0 := by
  have hk : (0 : Fin 2) ∉ d.sKept := by
    have hs : d.sKept = [1] := by
      show Shape.kept _ d.insertedWindowDims = [1]
      rw [hiw]; rfl
    rw [hs]; simp
  unfold ScatterDims.window
  rw [dif_neg hk]

/-- The other axis carries the update's column. -/
theorem window_one (hiw : d.insertedWindowDims = [0]) (huw : d.updateWindowDims = [1]) (e : Fin R) (q : Fin C) :
    d.window (ix2 e q) 1 = q.val := by
  have hk : (1 : Fin 2) ∈ d.sKept := by
    have hs : d.sKept = [1] := by
      show Shape.kept _ d.insertedWindowDims = [1]
      rw [hiw]; rfl
    rw [hs]; exact List.mem_singleton.mpr rfl
  unfold ScatterDims.window
  rw [dif_pos hk, getElem_singleton_of_eq huw]
  rfl

end

/-- Update element (e, q) lands at operand element (n, j) exactly when row e's index, read signed, is n and the columns agree. -/
theorem scatter_rows_resultIdx {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (idx : IVec ⟨2, ![R, 1]⟩ w) (e : Fin R) (q : Fin C) (n : Fin N) (j : Fin C) :
    d.resultIdx? (ix2 e q) idx = some (ix2 n j) ↔ (idx (ix2 e 0)).toInt = (n.val : Int) ∧ q = j := by
  have hs0 := start_zero d hsd huw hivd idx e q
  have hs1 := start_one d hsd idx e q
  have hw0 := window_zero d hiw e q
  have hw1 := window_one d hiw huw e q
  unfold ScatterDims.resultIdx?
  split
  · rename_i h
    rw [Option.some.injEq]
    constructor
    · intro hf
      have h0 := congrArg Fin.val (congrFun hf 0)
      have h1 := congrArg Fin.val (congrFun hf 1)
      have hh0 := (h 0).1
      simp only [hs0, hw0] at h0 hh0
      simp only [hs1, hw1] at h1
      refine ⟨?_, Fin.ext ?_⟩
      · have : ((idx (ix2 e 0)).toInt + ((0 : Nat) : Int)).toNat = n.val := h0
        omega
      · have : ((0 : Int) + (q.val : Int)).toNat = j.val := h1
        omega
    · rintro ⟨hS, hq⟩
      funext a
      match a with
      | ⟨0, _⟩ =>
        apply Fin.ext
        show (d.start (ix2 e q) idx 0 + (d.window (ix2 e q) 0 : Int)).toNat = n.val
        rw [hs0, hw0, hS]; omega
      | ⟨1, _⟩ =>
        apply Fin.ext
        show (d.start (ix2 e q) idx 1 + (d.window (ix2 e q) 1 : Int)).toNat = j.val
        rw [hs1, hw1, hq]; omega
  · rename_i h
    constructor
    · intro hf; cases hf
    · rintro ⟨hS, hq⟩
      exfalso
      apply h
      intro a
      match a with
      | ⟨0, _⟩ =>
        show 0 ≤ d.start (ix2 e q) idx 0 + (d.window (ix2 e q) 0 : Int) ∧ d.start (ix2 e q) idx 0 + (d.window (ix2 e q) 0 : Int) < (N : Int)
        rw [hs0, hw0, hS]
        have := n.isLt
        omega
      | ⟨1, _⟩ =>
        show 0 ≤ d.start (ix2 e q) idx 1 + (d.window (ix2 e q) 1 : Int) ∧ d.start (ix2 e q) idx 1 + (d.window (ix2 e q) 1 : Int) < (C : Int)
        rw [hs1, hw1]
        have := q.isLt
        omega

/-- The scatter-add of rows read at (n, j): the operand's element plus the sum of the updates' column j over the rows whose
    index is n. -/
theorem scatterAdd_rows_apply {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![R, 1]⟩ w) (upd : (⟨2, ![R, C]⟩ : Shape).Idx → EReal)
    (n : Fin N) (j : Fin C) :
    Host.scatterAdd (F := Ideal) (φ := .f32) d x idx upd (ix2 n j)
      = x (ix2 n j) + ∑ e ∈ Finset.univ.filter (fun e : Fin R => (idx (ix2 e 0)).toInt = (n.val : Int)), upd (ix2 e j) := by
  -- which update elements land at (n, j)
  have hP : ∀ i : (⟨2, ![R, C]⟩ : Shape).Idx,
      d.resultIdx? i idx = some (ix2 n j) ↔ (idx (ix2 (i 0 : Fin R) 0)).toInt = (n.val : Int) ∧ (i 1 : Fin C) = j := by
    intro i
    obtain ⟨e, q, rfl⟩ : ∃ (e : Fin R) (q : Fin C), i = ix2 e q := ⟨i 0, i 1, eq_ix2 i⟩
    exact scatter_rows_resultIdx d huw hiw hsd hivd idx e q n j
  have hback : ∀ i : (⟨2, ![R, C]⟩ : Shape).Idx, (i 1 : Fin C) = j → ix2 (i 0 : Fin R) j = i := fun i h1 => by
    funext b; match b with
    | ⟨0, _⟩ => rfl
    | ⟨1, _⟩ => exact h1.symm
  unfold Host.scatterAdd
  rw [Ideal.hostScatterAdd_def]
  unfold Ideal.hostScatterAdd
  congr 1
  -- the landing update elements are (e, j) over the rows e whose index is n: re-index the sum by the row
  refine Finset.sum_bij' (fun i _ => (i 0 : Fin R)) (fun e _ => ix2 e j)
    (fun i hi => Finset.mem_filter.2 ⟨Finset.mem_univ _, ((hP i).1 (Finset.mem_filter.1 hi).2).1⟩)
    (fun e he => Finset.mem_filter.2 ⟨Finset.mem_univ _, (hP (ix2 e j)).2 ⟨(Finset.mem_filter.1 he).2, rfl⟩⟩)
    (fun i hi => hback i ((hP i).1 (Finset.mem_filter.1 hi).2).2) (fun _ _ => rfl) ?_
  intro i hi
  exact (congrArg upd (hback i ((hP i).1 (Finset.mem_filter.1 hi).2).2)).symm

end Idealize.ShloMosaic.ScatterRows

end
-- ==== Proof.LibGatherTable.lean ====
/-
  A gather of whole rows, or of whole columns, of a rank-two table, read at an index.

  The operation takes one start index per result row (or column), read as a signed integer and clamped into the table's
  range on the gathered axis; the other axis is copied whole. So result element (r, c) of a row gather is the table's
  element (clamp(idx r), c), and result element (c, r) of a column gather is the table's element (c, clamp(idx r)).
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- Any element of a list known to be a singleton is that singleton's element. -/
theorem getElem_of_eq_singleton {β : Type} {l : List β} {b : β} (h : l = [b]) (k : Nat) (hk : k < l.length) : l[k] = b := by
  subst h
  have : k = 0 := by simpa using hk
  subst this; rfl

/-- ROWS. Table [N, C], start indices the column [R, 1], result [R, C]: the gathered axis 0 is collapsed and start-indexed,
    axis 1 is the one offset axis, no batching, the index vector on axis 1 of the start indices. Element (r, c) of the
    result is the table's at (idx r clamped into [0, N - 1], c). -/
theorem gather_rows_apply {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r 0)).toInt.toNat (N - 1), by omega⟩ c) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = min (idx (ix2 r 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.zero_add, Nat.add_zero]
    rw [getElem_of_eq_singleton hoff]
    rfl

/-- COLUMNS. Table [C, N], start indices the column [R, 1], result [C, R]: the gathered axis 1 is collapsed and
    start-indexed, axis 0 is the one offset axis, no batching, the index vector on axis 1 of the start indices. Element
    (c, r) of the result is the table's at (c, idx r clamped into [0, N - 1]). -/
theorem gather_cols_apply {N C R w : Nat} (d : GatherDims ⟨2, ![C, N]⟩ ⟨2, ![R, 1]⟩ ⟨2, ![C, R]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![R, 1]⟩ w) (c : Fin C) (r : Fin R) (hN : 0 < N) :
    Host.gather d x idx (ix2 c r) = x (ix2 c ⟨min (idx (ix2 r 0)).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 c r) idx 0 + d.batchCoord (ix2 c r) 0 + d.offCoord (ix2 c r) 0 = c.val
    rw [GatherDims.batchCoord_eq_zero _ _ _ (hb 0)]
    unfold GatherDims.start GatherDims.offCoord
    rw [dif_neg hm, dif_pos hk]
    simp only [Nat.zero_add, Nat.add_zero]
    rw [getElem_of_eq_singleton hoff]
    rfl
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c r) idx 1 + d.batchCoord (ix2 c r) 1 + d.offCoord (ix2 c r) 1 = min (idx (ix2 r 0)).toInt.toNat (N - 1)
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [1] := by
        show Shape.kept _ d.offsetDims = [1]
        rw [hoff]; rfl
      rw [getElem_of_eq_singleton hbd]
      rfl
    | ⟨1, _⟩ =>
      unfold GatherDims.siIdx
      rw [dif_pos (by rw [hivd])]
      apply Fin.ext
      show List.idxOf (1 : Fin 2) d.startIndexMap = 0
      rw [hsim]; simp

end Idealize.ShloMosaic.GatherTable

end
-- ==== Proof.AggScale.lean ====
/-
  Scaling commutes with a gather-then-segment-sum, for a nonnegative finite per-row factor.

  A table H with N rows is scaled row by row by a factor d (row n by d n), its rows are gathered at source positions, the
  gathered rows are summed into segments by destination position, and segment n is scaled by d n once more. The same value
  is reached by gathering the unscaled rows, scaling gathered row e by d(src e) · d(dst e), and summing into segments: an
  update reaches segment n only when its destination, read as a signed integer, IS n; then it is in range, so neither the
  normalisation "add N when negative" nor the gather's clamp changes it, and d(dst e) = d n on every term of segment n's
  sum. Last, (∑ t e) · d n = ∑ (t e · d n), since d n is a nonnegative extended real other than +∞.
-/
import proofs.«413779_j11321533792258_3_alg».proof.Proof.LibScatterRows
import proofs.«413779_j11321533792258_3_alg».proof.Proof.LibGatherTable
import Idealize.ShloMosaic.Lib.StableHlo.Predicate
import Mathlib.Data.EReal.Operations

noncomputable section

open scoped BigOperators

namespace Cert.Agg

open Idealize.ShloMosaic Idealize.ShloMosaic.ValueIdx

/-- The rank-one index built from a coordinate, in its two spellings. -/
theorem ofFin_eq_ix1 {n : Nat} (k : Fin n) : Shape.Idx.ofFin k = ix1 k := by
  funext a
  match a with
  | ⟨0, _⟩ => exact Fin.ext rfl

/-- Row p of a one-column table, in its two spellings. -/
theorem ixP_eq_ix2 {n : Nat} (p : Fin n) : StableHlo.Predicate.ixP p = ix2 p (0 : Fin 1) := by
  funext b
  match b with
  | ⟨0, _⟩ => rfl
  | ⟨1, _⟩ => rfl

/-- A take from a rank-one table: position e reads the table at e's start index, read signed and clamped into the table. -/
theorem take_apply {N R w : Nat} (dg : GatherDims ⟨1, ![N]⟩ ⟨2, ![R, 1]⟩ ⟨1, ![R]⟩) (hgcoll : dg.collapsedSliceDims = [0])
    (hgob : dg.operandBatchingDims = []) (hgsim : dg.startIndexMap = [0]) (hgivd : dg.indexVectorDim = 1)
    (x : (⟨1, ![N]⟩ : Shape).Idx → EReal) (idx : IVec ⟨2, ![R, 1]⟩ w) (e : Fin R) (hN : 0 < N) :
    Host.gather dg x idx (ix1 e) = x (ix1 ⟨min (idx (ix2 e 0)).toInt.toNat (N - 1), by omega⟩) := by
  have h := StableHlo.Predicate.gather_take dg hgcoll hgob hgsim hgivd x idx e hN
  simp only [ofFin_eq_ix1, ixP_eq_ix2] at h
  exact h

/-- A word whose signed value is a natural number is not negative, so "add N when negative" leaves it as it is. -/
theorem norm_of_toInt_eq {N : Nat} (x : BitVec 32) (n : Nat) (hx : x.toInt = (n : Int)) :
    Scalar.select (IntOp.cmpi .slt x 0#32) (IntOp.addi x (BitVec.ofNat 32 N)) x = x := by
  have hslt : x.slt 0#32 = false := by
    have hnot : ¬ (x.toInt < (0#32 : BitVec 32).toInt) := by
      rw [hx, BitVec.toInt_zero]; omega
    unfold BitVec.slt
    exact decide_eq_false hnot
  show Scalar.select (BitVec.ofBool (x.slt 0#32)) _ _ = _
  rw [hslt]
  exact select_zero _ _

/-- A finite sum times a nonnegative extended real other than +∞ is the sum of the products. -/
theorem sum_mul_of_nonneg_ne_top {ι : Type} (s : Finset ι) (t : ι → EReal) {x : EReal} (h0 : 0 ≤ x) (ht : x ≠ ⊤) :
    (∑ e ∈ s, t e) * x = ∑ e ∈ s, t e * x := by
  classical
  induction s using Finset.induction_on with
  | empty => simp
  | insert a s ha ih =>
    rw [Finset.sum_insert ha, Finset.sum_insert ha, EReal.right_distrib_of_nonneg_of_ne_top h0 ht, ih]

/-- Pre-scaling the table's rows by d, gathering, summing into segments and post-scaling segment n by d n equals gathering
    the unscaled rows, scaling gathered row e by d(src e) · d(dst e) and summing into segments. -/
theorem agg_scale {N C R : Nat} (hN : 0 < N) (hN31 : N < 2 ^ 31)
    (dS : ScatterDims ⟨2, ![N, C]⟩ ⟨2, ![R, 1]⟩ ⟨2, ![R, C]⟩) (huw : dS.updateWindowDims = [1])
    (hiw : dS.insertedWindowDims = [0]) (hsd : dS.scatterDimsToOperandDims = [0]) (hivd : dS.indexVectorDim = 1)
    (dG : GatherDims ⟨2, ![N, C]⟩ ⟨2, ![R, 1]⟩ ⟨2, ![R, C]⟩) (hGoff : dG.offsetDims = [1])
    (hGcoll : dG.collapsedSliceDims = [0]) (hGob : dG.operandBatchingDims = []) (hGsim : dG.startIndexMap = [0])
    (hGivd : dG.indexVectorDim = 1)
    (dg : GatherDims ⟨1, ![N]⟩ ⟨2, ![R, 1]⟩ ⟨1, ![R]⟩) (hgcoll : dg.collapsedSliceDims = [0])
    (hgob : dg.operandBatchingDims = []) (hgsim : dg.startIndexMap = [0]) (hgivd : dg.indexVectorDim = 1)
    (H T z : (⟨2, ![N, C]⟩ : Shape).Idx → EReal) (d : (⟨1, ![N]⟩ : Shape).Idx → EReal)
    (hd0 : ∀ n : Fin N, 0 ≤ d (ix1 n)) (hdt : ∀ n : Fin N, d (ix1 n) ≠ ⊤)
    (hT : ∀ (n : Fin N) (j : Fin C), T (ix2 n j) = H (ix2 n j) * d (ix1 n)) (hz : ∀ i, z i = 0)
    (iD nS nD : IVec ⟨2, ![R, 1]⟩ 32)
    (hnD : ∀ e : Fin R, nD (ix2 e 0) = Scalar.select (IntOp.cmpi .slt (iD (ix2 e 0)) 0#32)
      (IntOp.addi (iD (ix2 e 0)) (BitVec.ofNat 32 N)) (iD (ix2 e 0)))
    (M : (⟨2, ![R, C]⟩ : Shape).Idx → EReal)
    (hM : ∀ (e : Fin R) (j : Fin C), M (ix2 e j)
      = Host.gather dG H nS (ix2 e j) * (Host.gather dg d nS (ix1 e) * Host.gather dg d nD (ix1 e)))
    (n : Fin N) (j : Fin C) :
    Host.scatterAdd (F := Ideal) (φ := .f32) dS z iD (Host.gather dG T nS) (ix2 n j) * d (ix1 n)
      = Host.scatterAdd (F := Ideal) (φ := .f32) dS z iD M (ix2 n j) := by
  have hL := ScatterRows.scatterAdd_rows_apply dS huw hiw hsd hivd z iD (Host.gather dG T nS) n j
  have hR := ScatterRows.scatterAdd_rows_apply dS huw hiw hsd hivd z iD M n j
  rw [hL, hR, hz, zero_add, zero_add, sum_mul_of_nonneg_ne_top _ _ (hd0 n) (hdt n)]
  refine Finset.sum_congr rfl ?_
  intro e he
  -- a row that lands in segment n has destination n, read signed: its normalised destination is the same word
  have he' : (iD (ix2 e 0)).toInt = (n.val : Int) := (Finset.mem_filter.1 he).2
  have hnDe : nD (ix2 e 0) = iD (ix2 e 0) := (hnD e).trans (norm_of_toInt_eq _ n.val he')
  have hclamp : min (nD (ix2 e 0)).toInt.toNat (N - 1) = n.val := by
    rw [hnDe, he']
    have := n.isLt
    omega
  have hs : min (nS (ix2 e 0)).toInt.toNat (N - 1) < N := by omega
  have h1 : Host.gather dG T nS (ix2 e j) = H (ix2 ⟨_, hs⟩ j) * d (ix1 ⟨_, hs⟩) :=
    (GatherTable.gather_rows_apply dG hGoff hGcoll hGob hGsim hGivd T nS e j hN).trans (hT ⟨_, hs⟩ j)
  have h2 : Host.gather dG H nS (ix2 e j) = H (ix2 ⟨_, hs⟩ j) :=
    GatherTable.gather_rows_apply dG hGoff hGcoll hGob hGsim hGivd H nS e j hN
  have h3 : Host.gather dg d nS (ix1 e) = d (ix1 ⟨_, hs⟩) := take_apply dg hgcoll hgob hgsim hgivd d nS e hN
  have h4 : Host.gather dg d nD (ix1 e) = d (ix1 n) :=
    (take_apply dg hgcoll hgob hgsim hgivd d nD e hN).trans (congrArg (fun k : Fin N => d (ix1 k)) (Fin.ext hclamp))
  rw [hM e j, h1, h2, h3, h4, mul_assoc]

end Cert.Agg

end
-- ==== Proof.AggInst.lean ====
/- The aggregation lemma at the two layers of this program.

   For a table T whose row n is the layer's product row times the scale of n: the segment sums of T's gathered rows, times the
   scale of the segment's node, are the reference's segment sums of the gathered product rows scaled edge by edge with the
   product of the endpoints' scales. The reference's stages are read at an index by their generated lemmas. -/
import proofs.«413779_j11321533792258_3_alg».proof.Proof.ScaleAt
import proofs.«413779_j11321533792258_3_alg».proof.Proof.AggScale

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

/-- The reference normalises the source column once for the scale's gather and once for the rows' gather: the same column. -/
theorem src_col_1 {F : FTy → Type} [FloatOps F] (x1 : (⟨S2x3200000, .i32⟩ : BufTy).Contents (Elt F)) :
    val_main_v21 (F := F) x1 = val_main_v36 (F := F) x1 := rfl
/-- The same for the second layer. -/
theorem src_col_2 {F : FTy → Type} [FloatOps F] (x1 : (⟨S2x3200000, .i32⟩ : BufTy).Contents (Elt F)) :
    val_main_v65 (F := F) x1 = val_main_v80 (F := F) x1 := rfl

variable (m : (ℓ : Loc nD τ sig) → Buf (Elt Ideal) ℓ) (c : Dev nD)

/-- The first layer: 32 columns, the product x · W1. -/
theorem agg1_key (T : S100000x32.Idx → EReal)
    (hT : ∀ (n : Fin 100000) (j : Fin 32), T (ix2 n j) = val_main_v4 (F := Ideal) (x0 m c) (x3 m c) (ix2 n j) * D m c n)
    (n : Fin 100000) (j : Fin 32) :
    Host.scatterAdd (F := Ideal) (φ := .f32) Cert.ReferenceIdeal.scatter_S100000x32_S3300000x1_S3300000x32_1_0_0_1 (val_main_v41 (F := Ideal)) (val_main_v42 (F := Ideal) (x1 m c))
        (Host.gather Cert.ReferenceIdeal.gather_S100000x32_S3300000x1_S3300000x32_1_0_n_n_0_1_132 T (val_main_v36 (F := Ideal) (x1 m c))) (ix2 n j) * D m c n
      = val_main_v43 (F := Ideal) (x0 m c) (x1 m c) (x3 m c) (ix2 n j) :=
  Cert.Agg.agg_scale (N := 100000) (C := 32) (R := 3300000) (by decide) (by decide)
    Cert.ReferenceIdeal.scatter_S100000x32_S3300000x1_S3300000x32_1_0_0_1 rfl rfl rfl rfl
    Cert.ReferenceIdeal.gather_S100000x32_S3300000x1_S3300000x32_1_0_n_n_0_1_132 rfl rfl rfl rfl rfl
    Cert.ReferenceIdeal.gather_S100000_S3300000x1_S3300000_n_0_n_n_0_1_1 rfl rfl rfl rfl
    (val_main_v4 (F := Ideal) (x0 m c) (x3 m c)) T (val_main_v41 (F := Ideal)) (val_main_v15 (F := Ideal) (x1 m c))
    (fun n => D_nonneg m c n) (fun n => D_ne_top m c n) hT
    (fun i => by rw [val_main_v41_apply, val_main_cst_8_apply]; exact Ideal.ofBits_zero_f32)
    (val_main_v42 (F := Ideal) (x1 m c)) (val_main_v36 (F := Ideal) (x1 m c)) (val_main_v28 (F := Ideal) (x1 m c))
    (fun e => by
      rw [val_main_v28_apply, val_main_v27_apply, val_main_v24_apply, val_main_v26_apply, val_main_v42_apply,
        val_main_v23_apply, val_main_v25_apply, val_main_c_4_apply, val_main_c_5_apply])
    (val_main_v40 (F := Ideal) (x0 m c) (x1 m c) (x3 m c))
    (fun e j => by
      rw [val_main_v40_apply, val_main_v39_apply, val_main_v38_apply, val_main_v30_apply]
      have i1 : idx_main_v38 (idx_main_v39 (ix2 e j)) = ix1 e := funext fun a => Fin.ext (by match a with | ⟨0, _⟩ => rfl)
      rw [i1]
      unfold val_main_v37 val_main_v22 val_main_v29
      rw [src_col_1]
      generalize Host.gather Cert.ReferenceIdeal.gather_S100000x32_S3300000x1_S3300000x32_1_0_n_n_0_1_132 (val_main_v4 (F := Ideal) (x0 m c) (x3 m c)) (val_main_v36 (F := Ideal) (x1 m c)) (ix2 e j) = a
      generalize Host.gather Cert.ReferenceIdeal.gather_S100000_S3300000x1_S3300000_n_0_n_n_0_1_1 (val_main_v15 (F := Ideal) (x1 m c)) (val_main_v36 (F := Ideal) (x1 m c)) (ix1 e) = b
      generalize Host.gather Cert.ReferenceIdeal.gather_S100000_S3300000x1_S3300000_n_0_n_n_0_1_1 (val_main_v15 (F := Ideal) (x1 m c)) (val_main_v28 (F := Ideal) (x1 m c)) (ix1 e) = d
      rfl)
    n j

/-- The second layer: 30 columns, the product relu(first layer) · W2. -/
theorem agg2_key (T : S100000x30.Idx → EReal)
    (hT : ∀ (n : Fin 100000) (j : Fin 30), T (ix2 n j) = val_main_v48 (F := Ideal) (x0 m c) (x1 m c) (x3 m c) (x4 m c) (x5 m c) (ix2 n j) * D m c n)
    (n : Fin 100000) (j : Fin 30) :
    Host.scatterAdd (F := Ideal) (φ := .f32) Cert.ReferenceIdeal.scatter_S100000x30_S3300000x1_S3300000x30_1_0_0_1 (val_main_v85 (F := Ideal)) (val_main_v86 (F := Ideal) (x1 m c))
        (Host.gather Cert.ReferenceIdeal.gather_S100000x30_S3300000x1_S3300000x30_1_0_n_n_0_1_130 T (val_main_v80 (F := Ideal) (x1 m c))) (ix2 n j) * D m c n
      = val_main_v87 (F := Ideal) (x0 m c) (x1 m c) (x3 m c) (x4 m c) (x5 m c) (ix2 n j) :=
  Cert.Agg.agg_scale (N := 100000) (C := 30) (R := 3300000) (by decide) (by decide)
    Cert.ReferenceIdeal.scatter_S100000x30_S3300000x1_S3300000x30_1_0_0_1 rfl rfl rfl rfl
    Cert.ReferenceIdeal.gather_S100000x30_S3300000x1_S3300000x30_1_0_n_n_0_1_130 rfl rfl rfl rfl rfl
    Cert.ReferenceIdeal.gather_S100000_S3300000x1_S3300000_n_0_n_n_0_1_1 rfl rfl rfl rfl
    (val_main_v48 (F := Ideal) (x0 m c) (x1 m c) (x3 m c) (x4 m c) (x5 m c)) T (val_main_v85 (F := Ideal)) (val_main_v15 (F := Ideal) (x1 m c))
    (fun n => D_nonneg m c n) (fun n => D_ne_top m c n) hT
    (fun i => by rw [val_main_v85_apply, val_main_cst_19_apply]; exact Ideal.ofBits_zero_f32)
    (val_main_v86 (F := Ideal) (x1 m c)) (val_main_v80 (F := Ideal) (x1 m c)) (val_main_v72 (F := Ideal) (x1 m c))
    (fun e => by
      rw [val_main_v72_apply, val_main_v71_apply, val_main_v68_apply, val_main_v70_apply, val_main_v86_apply,
        val_main_v67_apply, val_main_v69_apply, val_main_c_15_apply, val_main_c_16_apply])
    (val_main_v84 (F := Ideal) (x0 m c) (x1 m c) (x3 m c) (x4 m c) (x5 m c))
    (fun e j => by
      rw [val_main_v84_apply, val_main_v83_apply, val_main_v82_apply, val_main_v74_apply]
      have i1 : idx_main_v82 (idx_main_v83 (ix2 e j)) = ix1 e := funext fun a => Fin.ext (by match a with | ⟨0, _⟩ => rfl)
      rw [i1]
      unfold val_main_v81 val_main_v66 val_main_v73
      rw [src_col_2, scale_again]
      generalize Host.gather Cert.ReferenceIdeal.gather_S100000x30_S3300000x1_S3300000x30_1_0_n_n_0_1_130 (val_main_v48 (F := Ideal) (x0 m c) (x1 m c) (x3 m c) (x4 m c) (x5 m c)) (val_main_v80 (F := Ideal) (x1 m c)) (ix2 e j) = a
      generalize Host.gather Cert.ReferenceIdeal.gather_S100000_S3300000x1_S3300000_n_0_n_n_0_1_1 (val_main_v15 (F := Ideal) (x1 m c)) (val_main_v80 (F := Ideal) (x1 m c)) (ix1 e) = b
      generalize Host.gather Cert.ReferenceIdeal.gather_S100000_S3300000x1_S3300000_n_0_n_n_0_1_1 (val_main_v15 (F := Ideal) (x1 m c)) (val_main_v72 (F := Ideal) (x1 m c)) (ix1 e) = d
      rfl)
    n j

end Cert.KV

end
-- ==== Proof.Reg1.lean ====
/- The second tiled kernel of the graph convolution, read index by index. Each of its 25 grid points takes a
   block of 4000 rows of the aggregated features, the matching 4000 entries of the degree scaling column, the
   bias row and the whole second weight matrix; it forms h = max(a · s + b, 0) row by row and stores the block
   (h · w) scaled row by row again. The lemmas here state: the product at an index is the sum over the
   contraction index; the column and the row broadcasts read the entry of their row and of their column; the
   stored block at a point is the block of one whole-array function of the four arrays the kernel is entered
   with; the 25 blocks cover the 100000 rows; hence the output array after the last point is that function:
   (sum over k of max(a[n,k] * s[n,0] + b[0,k], 0) * w[k,j]) * s[n,0]. -/
import proofs.«413779_j11321533792258_3_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KV.Reg1

open Cert.KernelIdeal Cert.KernelIdeal.Gen

variable (V : (c : Dev nD) → (b : Ref sig .tc) → Buf (Elt Ideal) ((c : Thread nD τ).loc b))

/-- The arrays the kernel is entered with and the array it leaves, each at its literal type. -/
abbrev aArr (c : Dev nD) : S100000x32.Idx → EReal := V c main_v26
abbrev sArr (c : Dev nD) : S100000x1.Idx → EReal := V c main_v15
abbrev bArr (c : Dev nD) : S1x32.Idx → EReal := V c main_v27
abbrev wArr (c : Dev nD) : S32x30.Idx → EReal := V c main_arg5
abbrev outArr (c : Dev nD) : S100000x30.Idx → EReal := (dat1 (F := Ideal) V c).arrAt 4 cfg1.N

/-! ## The block product at an index -/

theorem hz : (![0, 0] : Fin 2 → Nat) = fun _ => 0 := funext fun a => by fin_cases a <;> rfl

theorem lhs_0 (i : S4000x30.Idx) (q : dot_S4000x32_S32x30_S4000x30_1_0_0_1_n_n.contr.Idx) :
    (dot_S4000x32_S32x30_S4000x30_1_0_0_1_n_n.lhsIdx i q 0).val = (i 0).val := by
  unfold DotDims.lhsIdx
  rw [dif_neg (show ¬(0 : Fin S4000x32.rank) ∈ dot_S4000x32_S32x30_S4000x30_1_0_0_1_n_n.lhsBatch by decide), dif_pos (show (0 : Fin S4000x32.rank) ∈ dot_S4000x32_S32x30_S4000x30_1_0_0_1_n_n.lhsNonContracting by decide)]
  rfl
theorem lhs_1 (i : S4000x30.Idx) (q : dot_S4000x32_S32x30_S4000x30_1_0_0_1_n_n.contr.Idx) :
    (dot_S4000x32_S32x30_S4000x30_1_0_0_1_n_n.lhsIdx i q 1).val = (q ⟨0, by decide⟩).val :=
  dot_S4000x32_S32x30_S4000x30_1_0_0_1_n_n.lhsIdx_val_of_single rfl i q
theorem rhs_0 (i : S4000x30.Idx) (q : dot_S4000x32_S32x30_S4000x30_1_0_0_1_n_n.contr.Idx) :
    (dot_S4000x32_S32x30_S4000x30_1_0_0_1_n_n.rhsIdx i q 0).val = (q ⟨0, by decide⟩).val :=
  dot_S4000x32_S32x30_S4000x30_1_0_0_1_n_n.rhsIdx_val_of_single rfl i q
theorem rhs_1 (i : S4000x30.Idx) (q : dot_S4000x32_S32x30_S4000x30_1_0_0_1_n_n.contr.Idx) :
    (dot_S4000x32_S32x30_S4000x30_1_0_0_1_n_n.rhsIdx i q 1).val = (i 1).val := by
  unfold DotDims.rhsIdx
  rw [dif_neg (show ¬(1 : Fin S32x30.rank) ∈ dot_S4000x32_S32x30_S4000x30_1_0_0_1_n_n.rhsBatch by decide), dif_pos (show (1 : Fin S32x30.rank) ∈ dot_S4000x32_S32x30_S4000x30_1_0_0_1_n_n.rhsNonContracting by decide)]
  rfl

/-- The block product into the zero accumulator, at row `p` and column `q`: the sum over the 32 contraction
    indices of the products of the operands' entries. -/
theorem mm_apply (x : FVec Ideal S4000x32 .bf16) (w : FVec Ideal S32x30 .bf16) (p : Fin 4000) (q : Fin 30) :
    (matmul dot_S4000x32_S32x30_S4000x30_1_0_0_1_n_n none x w (constant S4000x30 .f32 0x00000000#32) : FVec Ideal S4000x30 .f32) (ix2 p q)
      = ∑ k : Fin 32, x (ix2 p k) * w (ix2 k q) := by
  refine (Ideal.matmul_constant_zero_apply dot_S4000x32_S32x30_S4000x30_1_0_0_1_n_n none x w (ix2 p q)).trans ?_
  rw [← Equiv.sum_comp (ValueIdx.contrEquiv1 dot_S4000x32_S32x30_S4000x30_1_0_0_1_n_n 32 rfl rfl).symm]
  refine Finset.sum_congr rfl fun k _ => ?_
  have hk := ValueIdx.contrEquiv1_symm_val dot_S4000x32_S32x30_S4000x30_1_0_0_1_n_n 32 rfl rfl k
  have el : dot_S4000x32_S32x30_S4000x30_1_0_0_1_n_n.lhsIdx (ix2 p q) ((ValueIdx.contrEquiv1 dot_S4000x32_S32x30_S4000x30_1_0_0_1_n_n 32 rfl rfl).symm k) = ix2 p k := funext fun a => Fin.ext (by
    match a with
    | ⟨0, _⟩ => exact lhs_0 _ _
    | ⟨1, _⟩ => exact (lhs_1 _ _).trans hk)
  have er : dot_S4000x32_S32x30_S4000x30_1_0_0_1_n_n.rhsIdx (ix2 p q) ((ValueIdx.contrEquiv1 dot_S4000x32_S32x30_S4000x30_1_0_0_1_n_n 32 rfl rfl).symm k) = ix2 k q := funext fun a => Fin.ext (by
    match a with
    | ⟨0, _⟩ => exact (rhs_0 _ _).trans hk
    | ⟨1, _⟩ => exact rhs_1 _ _)
  rw [el, er]

/-! ## The column of scalings broadcast along the rows -/

/-- A `[4000, 1]` column broadcast to `[4000, m]` reads, at `(p, q)`, the column's entry of row `p`. -/
theorem bcast_col_apply {m : ℕ} (v : S4000x1.Idx → EReal) (h : S4000x1.Broadcasts ⟨2, ![4000, m]⟩) (p : Fin 4000) (q : Fin m) :
    broadcastTo ⟨2, ![4000, m]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The stored block at an index -/

/-- The hidden layer's block at `(p, k)`: the aggregate scaled by its row's entry, plus the bias of column `k`,
    cut below at zero. -/
theorem hid_apply (a : Vec Ideal S4000x32 .f32) (s : Vec Ideal S4000x1 .f32) (b : Vec Ideal S1x32 .f32) (p : Fin 4000) (k : Fin 32) :
    (maximumf (addf (mulf (shapeCast S4000x32 a shapeCasts_S4000x32_S4000x32)
          (broadcastTo S4000x32 (shapeCast S4000x1 s shapeCasts_S4000x1_S4000x1) broadcasts_S4000x1_S4000x32))
        (broadcastTo S4000x32 (shapeCast S1x32 b shapeCasts_S1x32_S1x32) broadcasts_S1x32_S4000x32))
      (broadcast S4000x32 (Scalar.ofBits (F := Ideal) .f32 0x00000000#32)) : FVec Ideal S4000x32 .f32) (ix2 p k)
      = max (a (ix2 p k) * s (ix2 p (0 : Fin 1)) + b (ix2 (0 : Fin 1) k)) 0 := by
  rw [shapeCast_self, shapeCast_self, shapeCast_self]
  refine (maximumf_apply _ _ (ix2 p k)).trans ?_
  refine congrArg₂ max ?_ Ideal.ofBits_zero_f32
  refine (addf_apply _ _ (ix2 p k)).trans ?_
  refine congrArg₂ (· + ·) ?_ (broadcastTo_1b_ab_apply b _ p k)
  refine (mulf_apply _ _ (ix2 p k)).trans ?_
  exact congrArg (a (ix2 p k) * ·) (bcast_col_apply s _ p k)

/-- What the body stores, at row `p` and column `q` of the block: the hidden layer's row times the weights'
    column, times the row's scaling. -/
theorem pay_apply (a : Vec Ideal S4000x32 .f32) (s : Vec Ideal S4000x1 .f32) (b : Vec Ideal S1x32 .f32) (w : Vec Ideal S32x30 .f32)
    (s' : Vec Ideal S4000x1 .f32) (p : Fin 4000) (q : Fin 30) :
    (k1_pay1 a s b w s' : FVec Ideal S4000x30 .f32) (ix2 p q)
      = (∑ k : Fin 32, max (a (ix2 p k) * s (ix2 p (0 : Fin 1)) + b (ix2 (0 : Fin 1) k)) 0 * w (ix2 k q)) * s' (ix2 p (0 : Fin 1)) := by
  unfold k1_pay1
  refine (mulf_apply _ _ (ix2 p q)).trans ?_
  refine congrArg₂ (· * ·) ?_ ?_
  · refine (mm_apply _ _ p q).trans ?_
    refine Finset.sum_congr rfl fun k _ => ?_
    exact congrArg₂ (· * ·) (hid_apply a s b p k) rfl
  · rw [shapeCast_self]
    exact bcast_col_apply s' _ p q

/-! ## The whole-array function the blocks are cut from -/

/-- Row `n`, column `j` of the result: the hidden layer's row times the weights' column, scaled by the row's
    entry of the column of scalings. -/
def rowFn (c : Dev nD) (n : Fin 100000) (j : Fin 30) : EReal :=
  (∑ k : Fin 32, max (aArr V c (ix2 n k) * sArr V c (ix2 n (0 : Fin 1)) + bArr V c (ix2 (0 : Fin 1) k)) 0 * wArr V c (ix2 k j))
    * sArr V c (ix2 n (0 : Fin 1))

/-- The same as one function of the array's index. -/
def G (c : Dev nD) : S100000x30.Idx → EReal := fun i => rowFn V c (i 0) (i 1)

theorem G_ix2 (c : Dev nD) (n : Fin 100000) (j : Fin 30) : G V c (ix2 n j) = rowFn V c n j := rfl

/-! ## Where each window's block sits, decided over the 25 grid points -/

/-- The row blocks of the aggregate, of the scaling column and of the result move with the grid point; the
    bias row's and the weights' windows are the whole arrays at every point; every block column is 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregate's block at point `t` is row `4000 t + p` of the aggregate. -/
theorem ablk_apply (c : Dev nD) (t : Fin cfg1.N) (p : Fin 4000) (k : Fin 32) (n : Fin 100000)
    (hn : n.val = t.val * 4000 + p.val) :
    (iblk1 V c 0 t : Vec Ideal S4000x32 .f32) (ix2 p k) = aArr V c (ix2 n k) := by
  obtain ⟨e0, e1, -⟩ := idx_facts t
  unfold iblk1
  rw [View.read_apply]
  show V c main_v26 _ = V c main_v26 _
  congr 1
  funext a
  apply Fin.ext
  match a with
  | ⟨0, _⟩ => show win1_0.index t 0 * 4000 + 1 * p.val = n.val; rw [e0, hn]; omega
  | ⟨1, _⟩ => show win1_0.index t 1 * 32 + 1 * k.val = k.val; rw [e1]; omega

/-- Row `p` of the scaling column's block at point `t` is row `4000 t + p` of the column. -/
theorem sblk_apply (c : Dev nD) (t : Fin cfg1.N) (p : Fin 4000) (n : Fin 100000)
    (hn : n.val = t.val * 4000 + p.val) :
    (iblk1 V c 1 t : Vec Ideal S4000x1 .f32) (ix2 p (0 : Fin 1)) = sArr V c (ix2 n (0 : Fin 1)) := by
  obtain ⟨-, -, e0, e1, -⟩ := idx_facts t
  unfold iblk1
  rw [View.read_apply]
  show V c main_v15 _ = V c main_v15 _
  congr 1
  funext a
  apply Fin.ext
  match a with
  | ⟨0, _⟩ => show win1_1.index t 0 * 4000 + 1 * p.val = n.val; rw [e0, hn]; omega
  | ⟨1, _⟩ => show win1_1.index t 1 * 1 + 1 * 0 = 0; rw [e1]

/-- The bias row's block at every point is the bias row. -/
theorem bblk_apply (c : Dev nD) (t : Fin cfg1.N) (k : Fin 32) :
    (iblk1 V c 2 t : Vec Ideal S1x32 .f32) (ix2 (0 : Fin 1) k) = bArr V c (ix2 (0 : Fin 1) k) := by
  obtain ⟨-, -, -, -, e0, e1, -⟩ := idx_facts t
  unfold iblk1
  rw [View.read_apply]
  show V c main_v27 _ = V c main_v27 _
  congr 1
  funext a
  apply Fin.ext
  match a with
  | ⟨0, _⟩ => show win1_2.index t 0 * 1 + 1 * 0 = 0; rw [e0]
  | ⟨1, _⟩ => show win1_2.index t 1 * 32 + 1 * k.val = k.val; rw [e1]; omega

/-- The weights' block at every point is the weight matrix. -/
theorem wblk_apply (c : Dev nD) (t : Fin cfg1.N) (k : Fin 32) (q : Fin 30) :
    (iblk1 V c 3 t : Vec Ideal S32x30 .f32) (ix2 k q) = wArr V c (ix2 k q) := by
  obtain ⟨-, -, -, -, -, -, e0, e1, -⟩ := idx_facts t
  unfold iblk1
  rw [View.read_apply]
  show V c main_arg5 _ = V c main_arg5 _
  congr 1
  funext a
  apply Fin.ext
  match a with
  | ⟨0, _⟩ => show win1_3.index t 0 * 32 + 1 * k.val = k.val; rw [e0]; omega
  | ⟨1, _⟩ => show win1_3.index t 1 * 30 + 1 * q.val = q.val; rw [e1]; omega

/-- Entry `(p, q)` of the result's block at point `t` is entry `(4000 t + p, q)` of the result. -/
theorem oblk_emb (t : Fin cfg1.N) (p : Fin 4000) (q : Fin 30) (n : Fin 100000)
    (hn : n.val = t.val * 4000 + p.val) :
    ((cfg1.win 4).blk t).view.emb (ix2 p q) = (ix2 n q : S100000x30.Idx) := by
  obtain ⟨-, -, -, -, -, -, -, -, e0, e1⟩ := idx_facts t
  funext a
  apply Fin.ext
  match a with
  | ⟨0, _⟩ => show win1_4.index t 0 * 4000 + 1 * p.val = n.val; rw [e0, hn]; omega
  | ⟨1, _⟩ => show win1_4.index t 1 * 30 + 1 * q.val = q.val; rw [e1]; omega

/-! ## What a point writes back -/

/-- The block the body stores at point `t`, at `(p, q)`: the whole-array function at `(4000 t + p, q)`. -/
theorem stored_apply (c : Dev nD) (t : Fin cfg1.N) (p : Fin 4000) (q : Fin 30) (n : Fin 100000)
    (hn : n.val = t.val * 4000 + p.val) :
    (k1_pay1 (iblk1 V c 0 t) (iblk1 V c 1 t) (iblk1 V c 2 t) (iblk1 V c 3 t) (iblk1 V c 1 t) : FVec Ideal S4000x30 .f32) (ix2 p q)
      = rowFn V c n q := by
  refine (pay_apply (iblk1 V c 0 t) (iblk1 V c 1 t) (iblk1 V c 2 t) (iblk1 V c 3 t) (iblk1 V c 1 t) p q).trans ?_
  unfold rowFn
  refine congrArg₂ (· * ·) (Finset.sum_congr rfl fun k _ => ?_) (sblk_apply V c t p n hn)
  refine congrArg₂ (· * ·) (congrArg (max · 0) ?_) (wblk_apply V c t k q)
  exact congrArg₂ (· + ·) (congrArg₂ (· * ·) (ablk_apply V c t p k n hn) (sblk_apply V c t p n hn)) (bblk_apply V c t k)

/-- The same at an index of the block: the whole-array function where the block's rectangle puts the index. -/
theorem stored_eq (c : Dev nD) (t : Fin cfg1.N) (y : S4000x30.Idx) :
    (k1_pay1 (iblk1 V c 0 t) (iblk1 V c 1 t) (iblk1 V c 2 t) (iblk1 V c 3 t) (iblk1 V c 1 t) : FVec Ideal S4000x30 .f32) y
      = G V c (((cfg1.win 4).blk t).view.emb y) := by
  obtain ⟨p, q, rfl⟩ : ∃ (p : Fin 4000) (q : Fin 30), y = ix2 p q := ⟨y 0, y 1, eq_ix2 y⟩
  have ht : t.val < 25 := lt_of_lt_of_eq t.isLt N_1
  have hp : p.val < 4000 := p.isLt
  have hn : (⟨t.val * 4000 + p.val, by omega⟩ : Fin 100000).val = t.val * 4000 + p.val := rfl
  rw [oblk_emb t p q _ hn, G_ix2]
  exact stored_apply V c t p q _ hn

/-- What point `t` writes back is block `t` of the whole-array function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S4000x32) hz, View.ld_unit_zero (S := S4000x1) hz, View.ld_unit_zero (S := S1x32) hz, View.ld_unit_zero (S := S32x30) hz]
  funext y
  exact stored_eq V c t y

/-! ## The 25 blocks cover the array -/

/-- An index of the array is in point `t`'s block iff each coordinate is in the block's range on its axis. -/
theorem mem_blk (t : Fin cfg1.N) (i : S100000x30.Idx) :
    i ∈ ((cfg1.win 4).blk t).view.set ↔ ∀ a : Fin 2, win1_4.index t a * S4000x30.size a ≤ (i a).val ∧ (i a).val < win1_4.index t a * S4000x30.size a + S4000x30.size a := by
  show i ∈ ((View.whole main_v28).slice (win1_4.rect t)).set ↔ _
  rw [View.set_slice_whole, Rect.mem_set_unit]
  exact Iff.rfl

/-- Row `r` lies in the block of point `r / 4000`, and every point writes its block back. -/
theorem cover (i : S100000x30.Idx) :
    ∃ t : Fin cfg1.N, (cfg1.win 4).flush t = true ∧ i ∈ ((cfg1.win 4).blk t).view.set := by
  have hi0 : (i 0).val < 100000 := (i 0).isLt
  have hi1 : (i 1).val < 30 := (i 1).isLt
  have hN : cfg1.N = 25 := N_1
  let t : Fin cfg1.N := ⟨(i 0).val / 4000, by rw [hN]; omega⟩
  have htv : t.val = (i 0).val / 4000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; rw [e0, htv]; omega
  | ⟨1, _⟩ => show win1_4.index t (1 : Fin 2) * 30 ≤ (i 1).val ∧ (i 1).val < win1_4.index t (1 : Fin 2) * 30 + 30; rw [e1]; omega

/-! ## The array after the last point -/

/-- The result array ends holding the whole-array function. -/
theorem final (c : Dev nD) : (dat1 V c).arrAt 4 cfg1.N = G V c :=
  (dat1 V c).arrAt_eq_of_cover 4 (G V c) (fun t _ => flushed_eq V c t) cover

/-- Index by index: the result at `(n, j)` is the sum over `k` of `max(a[n,k] * s[n,0] + b[0,k], 0) * w[k,j]`,
    times `s[n,0]`. -/
theorem reg1_arr (c : Dev nD) (n : Fin 100000) (j : Fin 30) :
    outArr V c (ix2 n j)
      = (∑ k : Fin 32, max (aArr V c (ix2 n k) * sArr V c (ix2 n 0) + bArr V c (ix2 0 k)) 0 * wArr V c (ix2 k j))
          * sArr V c (ix2 n 0) :=
  congrFun (final V c) (ix2 n j)

end Cert.KV.Reg1

end
-- ==== Proof.Chain2.lean ====
/- Both graph-convolution layers, kernel against reference.

   The first aggregation, scaled by the node scale, is the reference's first convolution without its bias (the aggregation
   lemma at 32 columns); so the second kernel's output is the reference's second matrix product times the scale; the second
   aggregation, scaled, plus the bias is the reference's array of logits. -/
import proofs.«413779_j11321533792258_3_alg».proof.Proof.Chain1
import proofs.«413779_j11321533792258_3_alg».proof.Proof.AggInst
import proofs.«413779_j11321533792258_3_alg».proof.Proof.Reg1

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The first aggregation: the segment sums of the gathered pre-scaled rows. -/
abbrev A1 : S100000x32.Idx → EReal := W5 m ρ c (Proc.devRef .tc main_v26)

theorem A1_eq (n : Fin 100000) (j : Fin 32) :
    A1 m ρ c (ix2 n j) * D m c n = val_main_v43 (F := Ideal) (x0 m c) (x1 m c) (x3 m c) (ix2 n j) := by
  have hW : A1 m ρ c = Host.scatterAdd (F := Ideal) (φ := .f32) Cert.ReferenceIdeal.scatter_S100000x32_S3300000x1_S3300000x32_1_0_0_1
      (val_main_v41 (F := Ideal)) (val_main_v42 (F := Ideal) (x1 m c))
      (Host.gather Cert.ReferenceIdeal.gather_S100000x32_S3300000x1_S3300000x32_1_0_n_n_0_1_132 (P1 m ρ c) (val_main_v36 (F := Ideal) (x1 m c))) :=
    HostA.W5_v26 m ρ c
  rw [hW]
  exact agg1_key m c (P1 m ρ c) (fun n j => P1_eq m ρ c n j) n j

/-- The second kernel's output array, at the boundary after it. -/
abbrev P2 : S100000x30.Idx → EReal := W6 m ρ c (Proc.devRef .tc main_v28)

theorem P2_eq (n : Fin 100000) (j : Fin 30) :
    P2 m ρ c (ix2 n j) = val_main_v48 (F := Ideal) (x0 m c) (x1 m c) (x3 m c) (x4 m c) (x5 m c) (ix2 n j) * D m c n := by
  have h := Reg1.reg1_arr (V5 m ρ) c n j
  have e : P2 m ρ c = Reg1.outArr (V5 m ρ) c := W6_arr m ρ c 4
  rw [e, h, val_main_v48_apply]
  have es : Reg1.sArr (V5 m ρ) c (ix2 n 0) = D m c n := HostA.W5_v15 m ρ c n
  have ew : Reg1.wArr (V5 m ρ) c = x5 m c := HostA.W5_arg5 m ρ c
  rw [es, ew]
  refine congrArg (· * D m c n) (Finset.sum_congr rfl fun k _ => ?_)
  have el : lidx_main_v48 (ix2 n j) k = ix2 n k := funext fun a => Fin.ext (by match a with | ⟨0, _⟩ => rfl | ⟨1, _⟩ => rfl)
  have er : ridx_main_v48 (ix2 n j) k = ix2 k j := funext fun a => Fin.ext (by match a with | ⟨0, _⟩ => rfl | ⟨1, _⟩ => rfl)
  rw [el, er]
  refine congrArg (· * x5 m c (ix2 k j)) ?_
  have ea : Reg1.aArr (V5 m ρ) c (ix2 n k) * D m c n = val_main_v43 (F := Ideal) (x0 m c) (x1 m c) (x3 m c) (ix2 n k) := A1_eq m ρ c n k
  have eb : Reg1.bArr (V5 m ρ) c (ix2 0 k) = x4 m c (ix1 k) := HostA.W5_v27 m ρ c k
  rw [ea, eb, val_main_v47_apply, val_main_v46_apply, val_main_v45_apply, val_main_v44_apply, val_main_call1_v0_apply, val_main_call1_cst_apply]
  generalize val_main_v43 (F := Ideal) (x0 m c) (x1 m c) (x3 m c) (ix2 n k) = y
  have i44 : idx_main_v44 (idx_main_v45 (ix2 n k)) = ix1 k := funext fun a => Fin.ext (by match a with | ⟨0, _⟩ => rfl)
  rw [show FloatOps.ofBits (F := Ideal) .f32 0x00000000#32 = (0 : EReal) from Ideal.ofBits_zero_f32, i44]
  rfl

/-- The second aggregation. -/
abbrev A2 : S100000x30.Idx → EReal := W7 m ρ c (Proc.devRef .tc main_v38)

theorem A2_eq (n : Fin 100000) (j : Fin 30) :
    A2 m ρ c (ix2 n j) * D m c n = val_main_v87 (F := Ideal) (x0 m c) (x1 m c) (x3 m c) (x4 m c) (x5 m c) (ix2 n j) := by
  have hW : A2 m ρ c = Host.scatterAdd (F := Ideal) (φ := .f32) Cert.ReferenceIdeal.scatter_S100000x30_S3300000x1_S3300000x30_1_0_0_1
      (val_main_v85 (F := Ideal)) (val_main_v86 (F := Ideal) (x1 m c))
      (Host.gather Cert.ReferenceIdeal.gather_S100000x30_S3300000x1_S3300000x30_1_0_n_n_0_1_130 (P2 m ρ c) (val_main_v80 (F := Ideal) (x1 m c))) :=
    HostA.W7_v38 m ρ c
  rw [hW]
  exact agg2_key m c (P2 m ρ c) (fun n j => P2_eq m ρ c n j) n j

/-- The logits of node n, as the third kernel forms them from its three input arrays, are the reference's. -/
theorem logits_eq (n : Fin 100000) (q : Fin 30) :
    A2 m ρ c (ix2 n q) * D m c n + x6 m c (ix1 q)
      = val_main_v90 (F := Ideal) (x0 m c) (x1 m c) (x3 m c) (x4 m c) (x5 m c) (x6 m c) (ix2 n q) := by
  rw [A2_eq, val_main_v90_apply, val_main_v89_apply, val_main_v88_apply]
  generalize val_main_v87 (F := Ideal) (x0 m c) (x1 m c) (x3 m c) (x4 m c) (x5 m c) (ix2 n q) = y
  have i88 : idx_main_v88 (idx_main_v89 (ix2 n q)) = ix1 q := funext fun a => Fin.ext (by match a with | ⟨0, _⟩ => rfl)
  rw [i88]
  rfl

end Cert.KV

end
-- ==== Proof.SoftDef.lean ====
/- The row softmax and the regulariser's summand, over the extended reals, for a row of thirty logits.

   The row's maximum is the fold of `max` from minus infinity; each entry is exp (logit − maximum); the softmax entry is that
   over the row's sum of them; the summand is log (1 − entry²). Both programs compute exactly these, the kernel block by
   block on the vector unit and the reference over the whole array. -/
import Idealize.ShloMosaic.PureOps.Ideal

noncomputable section

namespace Cert.Soft

open Idealize.ShloMosaic

/-- The row's maximum: `max` folded over the thirty logits from minus infinity. -/
def mx (l : Fin 30 → EReal) : EReal := (Finset.univ : Finset (Fin 30)).fold max (Ideal.ofBits .f32 0xFF800000#32) l
/-- exp (logit − row maximum). -/
def ex (l : Fin 30 → EReal) (q : Fin 30) : EReal := Ideal.exp (l q - mx l)
/-- The softmax entry. -/
def fx (l : Fin 30 → EReal) (q : Fin 30) : EReal := Ideal.div (ex l q) (∑ r : Fin 30, ex l r)
/-- log (1 − entry²). -/
def nfx (l : Fin 30 → EReal) (q : Fin 30) : EReal := Ideal.log (Ideal.ofBits .f32 0x3F800000#32 - fx l q * fx l q)

end Cert.Soft

end
-- ==== Proof.Reg2.lean ====
/- The third kernel of the graph convolution as functions of the arrays it is entered with.

   Row n of the logits is the n-th row of the aggregated features times the n-th scale, plus the bias row. The kernel's
   first result is the row softmax of the logits; its second result is the column sums, over all hundred thousand
   rows, of log (1 − softmax²).

   One run of the body leaves, in both of its control cases, the softmax of the block's 4000 rows in the first result
   block, and in the second the old accumulator plus the block's column sums of log (1 − softmax²); where the reset is
   taken the old accumulator is the zero row. Over the grid's twenty-five points the accumulator therefore holds the
   column sums of the blocks so far, and after the last point the sum over every row. -/
import proofs.«413779_j11321533792258_3_alg».proof.Proof.Gen.KernelIdeal.Frame
import Idealize.ShloMosaic.Lib.Pipeline.Value
import Idealize.ShloMosaic.Lib.Tactic
import proofs.«413779_j11321533792258_3_alg».proof.Proof.SoftDef
import Idealize.ShloMosaic.Lib.ValueIdx
import Idealize.ShloMosaic.Lib.ValueLayout
import Idealize.ShloMosaic.PureOps.Ideal.Laws

set_option maxRecDepth 16384

noncomputable section

namespace Cert.KV.Reg2

open Idealize.ShloMosaic Idealize.ShloMosaic.TcCoe Idealize.ShloMosaic.Tactic Idealize.SL.Sem
open Cert.KernelIdeal Cert.KernelIdeal.Gen
open Idealize.ShloMosaic.ValueIdx

variable {F : FTy → Type} [FloatOps F]

theorem hz : (![0, 0] : Fin 2 → Nat) = fun _ => 0 := funext fun a => by fin_cases a <;> rfl

/-- Without the reset, the softmax block left is the softmax payload of the three blocks read. -/
theorem out_B_3 (c : Dev nD) (i : grid2.Coords) (a1 : Memref sig .tc .vmem S4000x30 .f32) (h1 : a1.IsWhole)
    (a2 : Memref sig .tc .vmem S4000x1 .f32) (h2 : a2.IsWhole) (a3 : Memref sig .tc .vmem S1x30 .f32) (h3 : a3.IsWhole)
    (a4 : Memref sig .tc .vmem S4000x30 .f32) (h4 : a4.IsWhole) (a5 : Memref sig .tc .vmem S1x30 .f32) (h5 : a5.IsWhole)
    (hc : ¬cond2_0 i) (x0 : Vec F S4000x30 .f32) (x1 : Vec F S4000x1 .f32) (x2 : Vec F S1x30 .f32) (xo : Vec F S1x30 .f32) :
    out2_B_3 c i a1 h1 a2 h2 a3 h3 a4 h4 a5 h5 hc x0 x1 x2 xo = k2_pay2 x0 x1 x2 := by
  unfold out2_B_3
  rw [View.read_writes_eq_canon _ _ _ (cover2_B_3 c i a1 h1 a2 h2 a3 h3 a4 h4 a5 h5 hc x0 x1 x2 xo)]
  unfold kernelRun2_B
  dsimp only
  sl_unfold_words
  rw [View.canon_unit_zero hz]
  simp only [View.readAt_eq_ld, h1.read_unread, h2.read_unread, h3.read_unread, h5.read_unread,
    View.ld_unit_zero (S := S4000x30) hz, View.ld_unit_zero (S := S4000x1) hz, View.ld_unit_zero (S := S1x30) hz]

/-- Without the reset, the accumulator block left is the update payload over the accumulator found. -/
theorem out_B_4 (c : Dev nD) (i : grid2.Coords) (a1 : Memref sig .tc .vmem S4000x30 .f32) (h1 : a1.IsWhole)
    (a2 : Memref sig .tc .vmem S4000x1 .f32) (h2 : a2.IsWhole) (a3 : Memref sig .tc .vmem S1x30 .f32) (h3 : a3.IsWhole)
    (a4 : Memref sig .tc .vmem S4000x30 .f32) (h4 : a4.IsWhole) (a5 : Memref sig .tc .vmem S1x30 .f32) (h5 : a5.IsWhole)
    (hc : ¬cond2_0 i) (x0 : Vec F S4000x30 .f32) (x1 : Vec F S4000x1 .f32) (x2 : Vec F S1x30 .f32) (xo : Vec F S1x30 .f32) :
    out2_B_4 c i a1 h1 a2 h2 a3 h3 a4 h4 a5 h5 hc x0 x1 x2 xo = k2_pay3 x0 x1 x2 xo := by
  unfold out2_B_4
  rw [View.read_writes_eq_canon _ _ _ (cover2_B_4 c i a1 h1 a2 h2 a3 h3 a4 h4 a5 h5 hc x0 x1 x2 xo)]
  unfold kernelRun2_B
  dsimp only
  sl_unfold_words
  rw [View.canon_unit_zero hz]
  simp only [View.readAt_eq_ld, h1.read_unread, h2.read_unread, h3.read_unread, h5.read_unread,
    View.ld_unit_zero (S := S4000x30) hz, View.ld_unit_zero (S := S4000x1) hz, View.ld_unit_zero (S := S1x30) hz]

/-- With the reset, the softmax block left is the same payload. -/
theorem out_A_3 (c : Dev nD) (i : grid2.Coords) (a1 : Memref sig .tc .vmem S4000x30 .f32) (h1 : a1.IsWhole)
    (a2 : Memref sig .tc .vmem S4000x1 .f32) (h2 : a2.IsWhole) (a3 : Memref sig .tc .vmem S1x30 .f32) (h3 : a3.IsWhole)
    (a4 : Memref sig .tc .vmem S4000x30 .f32) (h4 : a4.IsWhole) (a5 : Memref sig .tc .vmem S1x30 .f32) (h5 : a5.IsWhole)
    (hc : cond2_0 i) (x0 : Vec F S4000x30 .f32) (x1 : Vec F S4000x1 .f32) (x2 : Vec F S1x30 .f32) :
    out2_A_3 c i a1 h1 a2 h2 a3 h3 a4 h4 a5 h5 hc x0 x1 x2 = k2_pay2 x0 x1 x2 := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_unit_zero hz]
  simp only [View.readAt_eq_ld, h1.read_unread, h2.read_unread, h3.read_unread,
    View.ld_unit_zero (S := S4000x30) hz, View.ld_unit_zero (S := S4000x1) hz, View.ld_unit_zero (S := S1x30) hz]

/-- With the reset, the accumulator block left is the update payload over the zero row. -/
theorem out_A_4 (c : Dev nD) (i : grid2.Coords) (a1 : Memref sig .tc .vmem S4000x30 .f32) (h1 : a1.IsWhole)
    (a2 : Memref sig .tc .vmem S4000x1 .f32) (h2 : a2.IsWhole) (a3 : Memref sig .tc .vmem S1x30 .f32) (h3 : a3.IsWhole)
    (a4 : Memref sig .tc .vmem S4000x30 .f32) (h4 : a4.IsWhole) (a5 : Memref sig .tc .vmem S1x30 .f32) (h5 : a5.IsWhole)
    (hc : cond2_0 i) (x0 : Vec F S4000x30 .f32) (x1 : Vec F S4000x1 .f32) (x2 : Vec F S1x30 .f32) :
    out2_A_4 c i a1 h1 a2 h2 a3 h3 a4 h4 a5 h5 hc x0 x1 x2 = k2_pay3 x0 x1 x2 (k2_pay1 (F := F)) := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x30) hz, View.readCov_unit_zero (S := S1x30) _ hz]
  simp only [View.readAt_eq_ld, h1.read_unread, h2.read_unread, h3.read_unread,
    View.ld_unit_zero (S := S4000x30) hz, View.ld_unit_zero (S := S4000x1) hz, View.ld_unit_zero (S := S1x30) hz]

/-! ## The payloads at the extended reals, entry by entry -/

section Entries

variable {α : Type}

/-- A column of 4000 entries kept as a [4000,1] block reads its row. -/
theorem col_cast_apply (x : S4000.Idx → α) (r : Fin 4000) (u : Fin 1) :
    shapeCast S4000x1 x shapeCasts_S4000_S4000x1 (ix2 r u) = x (ix1 r) :=
  shapeCast_apply x _ _ _ (by
    have hu : u.val = 0 := by omega
    rw [Shape.rowMajor_val_one, Shape.rowMajor_val_two]
    show r.val = r.val * 1 + u.val
    omega)

/-- A [4000,1] column broadcast along the thirty lanes reads its row's one entry. -/
theorem col_bcast_apply (x : S4000x1.Idx → α) (r : Fin 4000) (q : Fin 30) :
    broadcastTo S4000x30 x broadcasts_S4000x1_S4000x30 (ix2 r q) = x (ix2 r (0 : Fin 1)) := by
  refine broadcastTo_apply x _ (ix2 r q) (ix2 r (0 : Fin 1)) fun ax => ?_
  match ax with
  | ⟨0, _⟩ =>
    show r.val = if (4000 : ℕ) = 1 then 0 else r.val
    exact (if_neg (by decide)).symm
  | ⟨1, _⟩ =>
    show (0 : ℕ) = if (1 : ℕ) = 1 then 0 else q.val
    exact (if_pos rfl).symm

/-- A row of thirty entries kept as a [1,30] block reads its lane. -/
theorem row_cast_apply (x : S30.Idx → α) (u : Fin 1) (q : Fin 30) :
    shapeCast S1x30 x shapeCasts_S30_S1x30 (ix2 u q) = x (ix1 q) :=
  shapeCast_a_1a_apply x _ u q

/-- The index over row r with lane k put back. -/
theorem lift_lane (r : Fin 4000) (k : Fin 30) : reduces_S4000x30_S4000.lift (ix1 r) k = ix2 r k := by
  funext c; apply Fin.ext
  match c with
  | ⟨0, _⟩ => rfl
  | ⟨1, _⟩ => rfl

/-- The index over lane q with row k put back. -/
theorem lift_row (q : Fin 30) (k : Fin 4000) : reduces_S4000x30_S30.lift (ix1 q) k = ix2 k q := by
  funext c; apply Fin.ext
  match c with
  | ⟨0, _⟩ => rfl
  | ⟨1, _⟩ => rfl

end Entries

/-- The logits block: features times the scale column, plus the bias row. -/
def lg (v3 : Vec Ideal S4000x30 .f32) (v5 : Vec Ideal S4000x1 .f32) (v9 : Vec Ideal S1x30 .f32) : FVec Ideal S4000x30 .f32 :=
  addf (mulf (shapeCast S4000x30 v3 shapeCasts_S4000x30_S4000x30)
      (broadcastTo S4000x30 (shapeCast S4000x1 v5 shapeCasts_S4000x1_S4000x1) broadcasts_S4000x1_S4000x30))
    (broadcastTo S4000x30 (shapeCast S1x30 v9 shapeCasts_S1x30_S1x30) broadcasts_S1x30_S4000x30)

/-- A per-row quantity repeated along the thirty lanes. -/
def keep (x : FVec Ideal S4000 .f32) : FVec Ideal S4000x30 .f32 :=
  broadcastTo S4000x30 (shapeCast S4000x1 x shapeCasts_S4000_S4000x1) broadcasts_S4000x1_S4000x30

/-- Each row's maximum. -/
def rowMax (l : FVec Ideal S4000x30 .f32) : FVec Ideal S4000 .f32 :=
  multiReduction .maximumf [1] S4000 l 0xFF800000#32 reduces_S4000x30_S4000 (.inl rfl) rfl

/-- Each row's sum. -/
def rowSum (e : FVec Ideal S4000x30 .f32) : FVec Ideal S4000 .f32 :=
  multiReduction .add [1] S4000 e 0x00000000#32 reduces_S4000x30_S4000 (.inl rfl) rfl

/-- Each lane's sum over the 4000 rows. -/
def colSum (e : FVec Ideal S4000x30 .f32) : FVec Ideal S30 .f32 :=
  multiReduction .add [0] S30 e 0x00000000#32 reduces_S4000x30_S30 (.inl rfl) rfl

/-- exp (logit − row maximum). -/
def exb (l : FVec Ideal S4000x30 .f32) : FVec Ideal S4000x30 .f32 := exp (subf l (keep (rowMax l)))

/-- An entry over its row's sum. -/
def smb (e : FVec Ideal S4000x30 .f32) : FVec Ideal S4000x30 .f32 := divf e (keep (rowSum e))

/-- log (1 − entry²). -/
def nfb (s : FVec Ideal S4000x30 .f32) : FVec Ideal S4000x30 .f32 :=
  log (subf (broadcast S4000x30 (Scalar.ofBits .f32 0x3F800000#32)) (mulf s s))

theorem pay2_eq (v3 : Vec Ideal S4000x30 .f32) (v5 : Vec Ideal S4000x1 .f32) (v9 : Vec Ideal S1x30 .f32) :
    k2_pay2 (F := Ideal) v3 v5 v9 = smb (exb (lg v3 v5 v9)) := rfl

theorem pay3_eq (v3 : Vec Ideal S4000x30 .f32) (v5 : Vec Ideal S4000x1 .f32) (v9 : Vec Ideal S1x30 .f32) (v27 : Vec Ideal S1x30 .f32) :
    k2_pay3 (F := Ideal) v3 v5 v9 v27
      = addf (shapeCast S1x30 v27 shapeCasts_S1x30_S1x30)
          (shapeCast S1x30 (colSum (nfb (k2_pay2 (F := Ideal) v3 v5 v9))) shapeCasts_S30_S1x30) := rfl

/-- Row r of a block, as thirty entries. -/
def rowOf (l : FVec Ideal S4000x30 .f32) (r : Fin 4000) : Fin 30 → EReal := fun q => l (ix2 r q)

theorem keep_apply (x : FVec Ideal S4000 .f32) (r : Fin 4000) (q : Fin 30) : keep x (ix2 r q) = x (ix1 r) :=
  (col_bcast_apply _ r q).trans (col_cast_apply x r 0)

theorem rowMax_apply (l : FVec Ideal S4000x30 .f32) (r : Fin 4000) :
    rowMax l (ix1 r) = (Finset.univ : Finset (Fin 30)).fold max (Ideal.ofBits .f32 0xFF800000#32) (rowOf l r) := by
  refine (Ideal.multiReduction_maximumf_single l 0xFF800000#32 reduces_S4000x30_S4000 (.inl rfl) rfl (ix1 r)).trans ?_
  refine congrArg (fun f => (Finset.univ : Finset (Fin 30)).fold max (Ideal.ofBits .f32 0xFF800000#32) f) ?_
  funext k
  exact congrArg l (lift_lane r k)

theorem rowSum_apply (e : FVec Ideal S4000x30 .f32) (r : Fin 4000) :
    rowSum e (ix1 r) = ∑ q : Fin 30, rowOf e r q := by
  refine (Ideal.multiReduction_add_single e 0x00000000#32 reduces_S4000x30_S4000 (.inl rfl) rfl (ix1 r)).trans ?_
  exact Finset.sum_congr rfl fun k _ => congrArg e (lift_lane r k)

theorem colSum_apply (e : FVec Ideal S4000x30 .f32) (q : Fin 30) :
    colSum e (ix1 q) = ∑ r : Fin 4000, e (ix2 r q) := by
  refine (Ideal.multiReduction_add_single e 0x00000000#32 reduces_S4000x30_S30 (.inl rfl) rfl (ix1 q)).trans ?_
  exact Finset.sum_congr rfl fun k _ => congrArg e (lift_row q k)

theorem lg_apply (v3 : Vec Ideal S4000x30 .f32) (v5 : Vec Ideal S4000x1 .f32) (v9 : Vec Ideal S1x30 .f32) (r : Fin 4000) (q : Fin 30) :
    lg v3 v5 v9 (ix2 r q) = (v3 (ix2 r q) : EReal) * (v5 (ix2 r (0 : Fin 1)) : EReal) + (v9 (ix2 (0 : Fin 1) q) : EReal) := by
  unfold lg
  rw [shapeCast_self, shapeCast_self, shapeCast_self]
  show v3 (ix2 r q) * broadcastTo S4000x30 v5 broadcasts_S4000x1_S4000x30 (ix2 r q)
      + broadcastTo S4000x30 v9 broadcasts_S1x30_S4000x30 (ix2 r q) = _
  rw [col_bcast_apply v5 r q, broadcastTo_1b_ab_apply v9 _ r q]

theorem exb_apply (l : FVec Ideal S4000x30 .f32) (r : Fin 4000) (q : Fin 30) :
    exb l (ix2 r q) = Cert.Soft.ex (rowOf l r) q := by
  show Ideal.exp (l (ix2 r q) - keep (rowMax l) (ix2 r q)) = _
  rw [keep_apply, rowMax_apply]
  rfl

theorem smb_apply (e : FVec Ideal S4000x30 .f32) (r : Fin 4000) (q : Fin 30) :
    smb e (ix2 r q) = Ideal.div (rowOf e r q) (∑ q' : Fin 30, rowOf e r q') := by
  show Ideal.div (e (ix2 r q)) (keep (rowSum e) (ix2 r q)) = _
  rw [keep_apply, rowSum_apply]
  rfl

theorem nfb_apply (s : FVec Ideal S4000x30 .f32) (r : Fin 4000) (q : Fin 30) :
    nfb s (ix2 r q) = Ideal.log (Ideal.ofBits .f32 0x3F800000#32 - s (ix2 r q) * s (ix2 r q)) := rfl

/-- Row r of the logits block. -/
def lrow (v3 : Vec Ideal S4000x30 .f32) (v5 : Vec Ideal S4000x1 .f32) (v9 : Vec Ideal S1x30 .f32) (r : Fin 4000) : Fin 30 → EReal :=
  fun q => (v3 (ix2 r q) : EReal) * (v5 (ix2 r (0 : Fin 1)) : EReal) + (v9 (ix2 (0 : Fin 1) q) : EReal)

theorem rowOf_lg (v3 : Vec Ideal S4000x30 .f32) (v5 : Vec Ideal S4000x1 .f32) (v9 : Vec Ideal S1x30 .f32) (r : Fin 4000) :
    rowOf (lg v3 v5 v9) r = lrow v3 v5 v9 r := funext fun q => lg_apply v3 v5 v9 r q

theorem rowOf_exb (l : FVec Ideal S4000x30 .f32) (r : Fin 4000) : rowOf (exb l) r = Cert.Soft.ex (rowOf l r) :=
  funext fun q => exb_apply l r q

/-- The softmax payload, entry by entry: the softmax of the row of logits. -/
theorem pay2_entry (v3 : Vec Ideal S4000x30 .f32) (v5 : Vec Ideal S4000x1 .f32) (v9 : Vec Ideal S1x30 .f32) (r : Fin 4000) (q : Fin 30) :
    k2_pay2 (F := Ideal) v3 v5 v9 (ix2 r q) = Cert.Soft.fx (lrow v3 v5 v9 r) q := by
  refine (congrFun (pay2_eq v3 v5 v9) (ix2 r q)).trans ?_
  refine (smb_apply (exb (lg v3 v5 v9)) r q).trans ?_
  rw [rowOf_exb, rowOf_lg]
  rfl

/-- The accumulator payload, lane by lane: the old accumulator plus the block's column sum of log (1 − softmax²). -/
theorem pay3_entry (v3 : Vec Ideal S4000x30 .f32) (v5 : Vec Ideal S4000x1 .f32) (v9 : Vec Ideal S1x30 .f32) (v27 : Vec Ideal S1x30 .f32) (q : Fin 30) :
    k2_pay3 (F := Ideal) v3 v5 v9 v27 (ix2 (0 : Fin 1) q)
      = (v27 (ix2 (0 : Fin 1) q) : EReal) + ∑ r : Fin 4000, Cert.Soft.nfx (lrow v3 v5 v9 r) q := by
  refine (congrFun (pay3_eq v3 v5 v9 v27) (ix2 (0 : Fin 1) q)).trans ?_
  rw [shapeCast_self]
  show (v27 (ix2 (0 : Fin 1) q) : EReal)
      + shapeCast S1x30 (colSum (nfb (k2_pay2 (F := Ideal) v3 v5 v9))) shapeCasts_S30_S1x30 (ix2 (0 : Fin 1) q) = _
  rw [row_cast_apply, colSum_apply]
  refine congrArg (fun z => (v27 (ix2 (0 : Fin 1) q) : EReal) + z) (Finset.sum_congr rfl fun r _ => ?_)
  rw [nfb_apply, pay2_entry]
  rfl

/-- The zero row the reset stores. -/
theorem pay1_entry (q : Fin 30) : (k2_pay1 (F := Ideal)) (ix2 (0 : Fin 1) q) = (0 : EReal) :=
  Ideal.ofBits_zero_f32

/-! ## The kernel over the whole grid -/

section Grid

variable (V : (c : Dev nD) → (b : Ref sig .tc) → Buf (Elt Ideal) ((c : Thread nD τ).loc b))

/-- The three arrays the kernel reads, as the region finds them: the aggregated features, the scale column, the bias row. -/
abbrev aggArr (c : Dev nD) : S100000x30.Idx → EReal := V c main_v38
abbrev sclArr (c : Dev nD) : S100000x1.Idx → EReal := V c main_v15
abbrev biasArr (c : Dev nD) : S1x30.Idx → EReal := V c main_v39
/-- The two arrays the kernel writes, after its last point. -/
abbrev fxArr (c : Dev nD) : S100000x30.Idx → EReal := (dat2 (F := Ideal) V c).arrAt 3 cfg2.N
abbrev accArr (c : Dev nD) : S1x30.Idx → EReal := (dat2 (F := Ideal) V c).arrAt 4 cfg2.N

/-- Row n of the logits: aggregated features times the row's scale, plus the bias. -/
def logitsRow (c : Dev nD) (n : Fin 100000) : Fin 30 → EReal := fun q =>
  aggArr V c (ix2 n q) * sclArr V c (ix2 n 0) + biasArr V c (ix2 0 q)

/-- The three blocks point t reads. -/
abbrev xb (c : Dev nD) (t : Fin cfg2.N) : Vec Ideal S4000x30 .f32 := iblk2 V c 0 t
abbrev sb (c : Dev nD) (t : Fin cfg2.N) : Vec Ideal S4000x1 .f32 := iblk2 V c 1 t
abbrev bb (c : Dev nD) (t : Fin cfg2.N) : Vec Ideal S1x30 .f32 := iblk2 V c 2 t

theorem N25 : cfg2.N = 25 := N_2

/-- Row r of block t is row 4000 t + r of the array. -/
def rowIx (t : Fin cfg2.N) (r : Fin 4000) : Fin 100000 :=
  ⟨4000 * t.val + r.val, by have := lt_of_lt_of_eq t.isLt N25; have := r.isLt; omega⟩

/-- The block index maps, decided over the grid: the row blocks move with the point, the bias and the accumulator stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

theorem xb_apply (c : Dev nD) (t : Fin cfg2.N) (r : Fin 4000) (q : Fin 30) :
    xb V c t (ix2 r q) = aggArr V c (ix2 (rowIx t r) q) := by
  obtain ⟨e0, e1, -⟩ := idx_facts t
  show (iblk2 V c 0 t : Vec Ideal S4000x30 .f32) (ix2 r q) = _
  unfold iblk2
  rw [View.read_apply]
  show V c main_v38 _ = V c main_v38 _
  congr 1
  funext a
  apply Fin.ext
  match a with
  | ⟨0, _⟩ => show win2_0.index t 0 * 4000 + 1 * r.val = 4000 * t.val + r.val; rw [e0]; omega
  | ⟨1, _⟩ => show win2_0.index t 1 * 30 + 1 * q.val = q.val; rw [e1]; omega

theorem sb_apply (c : Dev nD) (t : Fin cfg2.N) (r : Fin 4000) :
    sb V c t (ix2 r (0 : Fin 1)) = sclArr V c (ix2 (rowIx t r) (0 : Fin 1)) := by
  obtain ⟨-, -, e0, e1, -⟩ := idx_facts t
  show (iblk2 V c 1 t : Vec Ideal S4000x1 .f32) (ix2 r (0 : Fin 1)) = _
  unfold iblk2
  rw [View.read_apply]
  show V c main_v15 _ = V c main_v15 _
  congr 1
  funext a
  apply Fin.ext
  match a with
  | ⟨0, _⟩ => show win2_1.index t 0 * 4000 + 1 * r.val = 4000 * t.val + r.val; rw [e0]; omega
  | ⟨1, _⟩ => show win2_1.index t 1 * 1 + 1 * 0 = 0; rw [e1]

theorem bb_apply (c : Dev nD) (t : Fin cfg2.N) (q : Fin 30) :
    bb V c t (ix2 (0 : Fin 1) q) = biasArr V c (ix2 (0 : Fin 1) q) := by
  obtain ⟨-, -, -, -, e0, e1, -⟩ := idx_facts t
  show (iblk2 V c 2 t : Vec Ideal S1x30 .f32) (ix2 (0 : Fin 1) q) = _
  unfold iblk2
  rw [View.read_apply]
  show V c main_v39 _ = V c main_v39 _
  congr 1
  funext a
  apply Fin.ext
  match a with
  | ⟨0, _⟩ => show win2_2.index t 0 * 1 + 1 * 0 = 0; rw [e0]
  | ⟨1, _⟩ => show win2_2.index t 1 * 30 + 1 * q.val = q.val; rw [e1]; omega

/-- Row r of the logits of block t is row 4000 t + r of the logits. -/
theorem lrow_blk (c : Dev nD) (t : Fin cfg2.N) (r : Fin 4000) :
    lrow (xb V c t) (sb V c t) (bb V c t) r = logitsRow V c (rowIx t r) := by
  funext q
  show xb V c t (ix2 r q) * sb V c t (ix2 r (0 : Fin 1)) + bb V c t (ix2 (0 : Fin 1) q)
    = aggArr V c (ix2 (rowIx t r) q) * sclArr V c (ix2 (rowIx t r) (0 : Fin 1)) + biasArr V c (ix2 (0 : Fin 1) q)
  rw [xb_apply, sb_apply, bb_apply]

/-- After every point the softmax block is the softmax payload of that point's blocks. -/
theorem outs_fst (c : Dev nD) (t : Fin cfg2.N) :
    (outsAt2 V c t.val t.isLt).1 = k2_pay2 (F := Ideal) (xb V c t) (sb V c t) (bb V c t) := by
  by_cases h0 : t.val % 25 = 0
  · rw [outsAt2_A V c t h0]
    dsimp only
    exact out_A_3 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)
  · rw [outsAt2_B V c t h0]
    dsimp only
    exact out_B_3 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t)
      (outsAt2 V c (t.val - 1) (Nat.lt_of_le_of_lt (Nat.sub_le _ _) t.isLt)).2

/-- Block s's column sum of log (1 − softmax²), at lane q (zero past the grid). -/
def blkSum (c : Dev nD) (q : Fin 30) (s : ℕ) : EReal :=
  if h : s < cfg2.N then ∑ r : Fin 4000, Cert.Soft.nfx (logitsRow V c (rowIx ⟨s, h⟩ r)) q else 0

/-- After point n the accumulator holds the column sums of the blocks up to n. -/
theorem acc_eq (c : Dev nD) : ∀ (n : ℕ) (h : n < cfg2.N) (q : Fin 30),
    (outsAt2 V c n h).2 (ix2 (0 : Fin 1) q) = ∑ s ∈ Finset.range (n + 1), blkSum V c q s
  | 0, h, q => by
    rw [outsAt2_A V c ⟨0, h⟩ rfl]
    dsimp only
    refine (congrFun (out_A_4 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩) (iblk2 V c 2 ⟨0, h⟩)) (ix2 (0 : Fin 1) q)).trans ?_
    refine (pay3_entry (xb V c ⟨0, h⟩) (sb V c ⟨0, h⟩) (bb V c ⟨0, h⟩) (k2_pay1 (F := Ideal)) q).trans ?_
    rw [pay1_entry, zero_add, Finset.sum_range_one]
    unfold blkSum
    rw [dif_pos h]
    exact Finset.sum_congr rfl fun r _ => by rw [lrow_blk]
  | n + 1, h, q => by
    have hN : cfg2.N = 25 := N25
    have hB : ¬(⟨n + 1, h⟩ : Fin cfg2.N).val % 25 = 0 := by dsimp only; omega
    rw [outsAt2_B V c ⟨n + 1, h⟩ hB]
    dsimp only
    refine (congrFun (out_B_4 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩)
      (outsAt2 V c n (Nat.lt_of_succ_lt h)).2) (ix2 (0 : Fin 1) q)).trans ?_
    refine (pay3_entry (xb V c ⟨n + 1, h⟩) (sb V c ⟨n + 1, h⟩) (bb V c ⟨n + 1, h⟩) (outsAt2 V c n (Nat.lt_of_succ_lt h)).2 q).trans ?_
    rw [acc_eq c n (Nat.lt_of_succ_lt h) q, Finset.sum_range_succ _ (n + 1)]
    refine congrArg (fun z => (∑ s ∈ Finset.range (n + 1), blkSum V c q s) + z) ?_
    unfold blkSum
    rw [dif_pos h]
    exact Finset.sum_congr rfl fun r _ => by rw [lrow_blk]

/-- A sum over the hundred thousand rows, block by block. -/
theorem sum_blocks {M : Type} [AddCommMonoid M] (g : Fin 100000 → M) :
    ∑ n : Fin 100000, g n = ∑ s : Fin 25, ∑ r : Fin 4000, g ⟨4000 * s.val + r.val, by have := s.isLt; have := r.isLt; omega⟩ := by
  have e := Equiv.sum_comp (finProdFinEquiv (m := 25) (n := 4000)) (g : Fin (25 * 4000) → M)
  rw [← e, Fintype.sum_prod_type]
  refine Finset.sum_congr rfl fun s _ => Finset.sum_congr rfl fun r _ => congrArg g (Fin.ext ?_)
  show r.val + 4000 * s.val = 4000 * s.val + r.val
  omega

/-- All twenty-five block sums together are the sum over every row. -/
theorem total_sum (c : Dev nD) (q : Fin 30) :
    ∑ s ∈ Finset.range 25, blkSum V c q s = ∑ n : Fin 100000, Cert.Soft.nfx (logitsRow V c n) q := by
  rw [sum_blocks (fun n => Cert.Soft.nfx (logitsRow V c n) q), Finset.sum_range]
  refine Finset.sum_congr rfl fun s _ => ?_
  have hs : s.val < cfg2.N := lt_of_lt_of_eq s.isLt N25.symm
  unfold blkSum
  rw [dif_pos hs]
  rfl

/-- The softmax array, entry by entry. -/
abbrev G3 (c : Dev nD) : S100000x30.Idx → EReal := fun i => Cert.Soft.fx (logitsRow V c (i 0)) (i 1)

/-- The column sums, lane by lane. -/
abbrev G4 (c : Dev nD) : S1x30.Idx → EReal := fun i => ∑ n : Fin 100000, Cert.Soft.nfx (logitsRow V c n) (i 1)

/-- The extents of the two result blocks, decided over the grid: whole blocks at every point. -/
theorem xsize_facts : ∀ t : Fin cfg2.N, win2_3.xsize (grid2.coords t) (0 : Fin 2) = 4000 ∧ win2_3.xsize (grid2.coords t) (1 : Fin 2) = 30
    ∧ win2_4.xsize (grid2.coords t) (0 : Fin 2) = 1 ∧ win2_4.xsize (grid2.coords t) (1 : Fin 2) = 30 :=
  (by decide +kernel : ∀ t : Fin grid2.N, _)

/-- What point t writes back of the softmax is block t of the softmax array. -/
theorem flushed3_eq (c : Dev nD) (t : Fin cfg2.N) (hf : (cfg2.win 3).flush t = true) :
    (dat2 V c).flushed 3 t = ((cfg2.win 3).blk t).view.read (Elt Ideal) (G3 V c) := by
  show (cfg2.win 3).cut (grid2.coords t) ((dat2 V c).after 3 t) = _
  rw [after2_3, outs_fst]
  obtain ⟨-, -, -, -, -, -, e0, e1, -⟩ := idx_facts t
  obtain ⟨x0, x1, -⟩ := xsize_facts t
  funext j
  have hj0 : (j 0).val < 4000 := lt_of_lt_of_eq (j 0).isLt x0
  have hj1 : (j 1).val < 30 := lt_of_lt_of_eq (j 1).isLt x1
  rw [View.read_apply]
  have hx : (cfg2.win 3).xinj (grid2.coords t) j = ix2 (⟨(j 0).val, hj0⟩ : Fin 4000) (⟨(j 1).val, hj1⟩ : Fin 30) := by
    funext a
    match a with
    | ⟨0, _⟩ => rfl
    | ⟨1, _⟩ => rfl
  refine (congrArg (k2_pay2 (F := Ideal) (xb V c t) (sb V c t) (bb V c t)) hx).trans ?_
  rw [pay2_entry, lrow_blk]
  show _ = Cert.Soft.fx (logitsRow V c ((((cfg2.win 3).blk t).view.emb j) 0)) ((((cfg2.win 3).blk t).view.emb j) 1)
  congr 1
  · congr 1
    apply Fin.ext
    show 4000 * t.val + (j 0).val = win2_3.index t 0 * 4000 + 1 * (j 0).val
    rw [e0]; omega
  · apply Fin.ext
    show (j 1).val = win2_3.index t 1 * 30 + 1 * (j 1).val
    rw [e1]; omega

/-- An index of the softmax array is in point t's block iff its row is one of the block's 4000. -/
theorem mem_blk3 (t : Fin cfg2.N) (i : S100000x30.Idx) :
    i ∈ ((cfg2.win 3).blk t).view.set ↔ ∀ a : Fin 2, win2_3.index t a * S4000x30.size a ≤ (i a).val ∧ (i a).val < win2_3.index t a * S4000x30.size a + S4000x30.size a := by
  show i ∈ ((View.whole main_v40_0).slice (win2_3.rect t)).set ↔ _
  rw [View.set_slice_whole, Rect.mem_set_unit]
  exact Iff.rfl

/-- The softmax array after the run. -/
theorem final3 (c : Dev nD) : fxArr V c = G3 V c :=
  (dat2 V c).arrAt_eq_of_cover 3 (G3 V c) (flushed3_eq V c) fun i => by
    have hi0 : (i 0).val < 100000 := (i 0).isLt
    have hi1 : (i 1).val < 30 := (i 1).isLt
    have hN : cfg2.N = 25 := N25
    refine ⟨⟨(i 0).val / 4000, by omega⟩, flush2_3 _, (mem_blk3 _ i).mpr fun a => ?_⟩
    obtain ⟨-, -, -, -, -, -, e0, e1, -⟩ := idx_facts ⟨(i 0).val / 4000, by omega⟩
    match a with
    | ⟨0, _⟩ =>
      show win2_3.index _ 0 * 4000 ≤ (i 0).val ∧ (i 0).val < win2_3.index _ 0 * 4000 + 4000
      rw [e0]; dsimp only; omega
    | ⟨1, _⟩ =>
      show win2_3.index _ 1 * 30 ≤ (i 1).val ∧ (i 1).val < win2_3.index _ 1 * 30 + 30
      rw [e1]; omega

theorem reg2_fx (c : Dev nD) (n : Fin 100000) (j : Fin 30) :
    fxArr V c (ix2 n j) = Cert.Soft.fx (logitsRow V c n) j :=
  congrFun (final3 V c) (ix2 n j)

end Grid

section GridSum

variable (V : (c : Dev nD) → (b : Ref sig .tc) → Buf (Elt Ideal) ((c : Thread nD τ).loc b))

/-- The column sums read at an index whose lane is q. -/
theorem G4_apply (c : Dev nD) (i : S1x30.Idx) (q : Fin 30) (h : (i 1).val = q.val) :
    G4 V c i = ∑ n : Fin 100000, Cert.Soft.nfx (logitsRow V c n) q :=
  Finset.sum_congr rfl fun n _ => congrArg (Cert.Soft.nfx (logitsRow V c n)) (Fin.ext h)

/-- The one write-back of the accumulator, after the last point, writes the sum over every row. -/
theorem flushed4_eq (c : Dev nD) (t : Fin cfg2.N) (hf : (cfg2.win 4).flush t = true) :
    (dat2 V c).flushed 4 t = ((cfg2.win 4).blk t).view.read (Elt Ideal) (G4 V c) := by
  have hN : cfg2.N = 25 := N25
  have h24 : t.val = 24 := by have := (flush2_4 t).mp hf; have := t.isLt; omega
  show (cfg2.win 4).cut (grid2.coords t) ((dat2 V c).after 4 t) = _
  rw [after2_4]
  obtain ⟨-, -, -, -, -, -, -, -, e0, e1⟩ := idx_facts t
  obtain ⟨-, -, x0, x1⟩ := xsize_facts t
  funext j
  have hj0 : (j 0).val < 1 := lt_of_lt_of_eq (j 0).isLt x0
  have hj1 : (j 1).val < 30 := lt_of_lt_of_eq (j 1).isLt x1
  rw [View.read_apply, cast_eq]
  have hx : (cfg2.win 4).xinj (grid2.coords t) j = ix2 (0 : Fin 1) (⟨(j 1).val, hj1⟩ : Fin 30) := by
    funext a
    match a with
    | ⟨0, _⟩ => exact Fin.ext (show (j 0).val = 0 by omega)
    | ⟨1, _⟩ => rfl
  refine (congrArg (outsAt2 V c t.val t.isLt).2 hx).trans ?_
  rw [acc_eq V c t.val t.isLt, h24, total_sum]
  refine (G4_apply V c _ (⟨(j 1).val, hj1⟩ : Fin 30) ?_).symm
  show win2_4.index t 1 * 30 + 1 * (j 1).val = (j 1).val
  rw [e1]; omega

/-- Every index of the accumulator's one block is in the block the last point writes back. -/
theorem mem_blk4 (t : Fin cfg2.N) (i : S1x30.Idx) :
    i ∈ ((cfg2.win 4).blk t).view.set ↔ ∀ a : Fin 2, win2_4.index t a * S1x30.size a ≤ (i a).val ∧ (i a).val < win2_4.index t a * S1x30.size a + S1x30.size a := by
  show i ∈ ((View.whole main_v40_1).slice (win2_4.rect t)).set ↔ _
  rw [View.set_slice_whole, Rect.mem_set_unit]
  exact Iff.rfl

/-- The accumulator array after the run. -/
theorem final4 (c : Dev nD) : accArr V c = G4 V c :=
  (dat2 V c).arrAt_eq_of_cover 4 (G4 V c) (flushed4_eq V c) fun i => by
    have hi0 : (i 0).val < 1 := (i 0).isLt
    have hi1 : (i 1).val < 30 := (i 1).isLt
    have hN : cfg2.N = 25 := N25
    refine ⟨⟨24, by omega⟩, (flush2_4 _).mpr rfl, (mem_blk4 _ i).mpr fun a => ?_⟩
    obtain ⟨-, -, -, -, -, -, -, -, e0, e1⟩ := idx_facts ⟨24, by omega⟩
    match a with
    | ⟨0, _⟩ =>
      show win2_4.index _ 0 * 1 ≤ (i 0).val ∧ (i 0).val < win2_4.index _ 0 * 1 + 1
      rw [e0]; omega
    | ⟨1, _⟩ =>
      show win2_4.index _ 1 * 30 ≤ (i 1).val ∧ (i 1).val < win2_4.index _ 1 * 30 + 30
      rw [e1]; omega

theorem reg2_sum (c : Dev nD) (j : Fin 30) :
    accArr V c (ix2 0 j) = ∑ n : Fin 100000, Cert.Soft.nfx (logitsRow V c n) j :=
  congrFun (final4 V c) (ix2 0 j)

end GridSum

end Cert.KV.Reg2

end
-- ==== Proof.RefSoft.lean ====
/- The reference program's row softmax and the regulariser's column sums, read at an index, over the extended reals.

   For every node n and class j the reference's softmax entry at (n, j) is the softmax entry of row n of its logits, and its
   column sum at j is the sum over the nodes n of log (1 − entry²) at (n, j). The reference takes each row's maximum as a fold of
   the maximum from minus infinity and then once more the maximum of that with minus infinity, which changes nothing; it
   subtracts the maximum, exponentiates, sums each row from zero and divides. -/
import proofs.«413779_j11321533792258_3_alg».proof.Proof.RefRead
import proofs.«413779_j11321533792258_3_alg».proof.Proof.SoftDef
import Idealize.ShloMosaic.PureOps.Reduce
import Idealize.ShloMosaic.PureOps.Ideal.Laws
import Idealize.ShloMosaic.Lib.ValueIdx

noncomputable section

namespace Cert.RefSoft

open Cert.ReferenceIdeal Cert.ReferenceIdeal.Read Idealize.ShloMosaic Idealize.ShloMosaic.ValueIdx

/-- The word of minus infinity denotes the least extended real. -/
theorem ofBits_negInf : Ideal.ofBits .f32 0xFF800000#32 = (⊥ : EReal) := by
  simp [Ideal.ofBits, Ideal.ieee]

/-- Row n's index with column k put back on the dropped axis is (n, k). -/
theorem lift_row (h : S100000x30.Reduces [1] S100000) (n : Fin 100000) (k : Fin (S100000x30.size 1)) :
    h.lift (ix1 n) k = ix2 n (⟨k.val, k.isLt⟩ : Fin 30) := by
  funext c; apply Fin.ext
  match c with
  | ⟨0, _⟩ => rfl
  | ⟨1, _⟩ => rfl

/-- A maximum-reduce of a [100000, 30] array along its rows from minus infinity, at row n, is that row's maximum. -/
theorem rowMax_apply (y : (⟨S100000x30, .f32⟩ : BufTy).Contents (Elt Ideal)) (h' : S100000x30.ReducesTo [1] S100000)
    (hu : 0 < S_.numel) (n : Fin 100000) :
    Host.reduce (FloatOps.maximumf (F := Ideal) (φ := .f32)) y (val_main_cst_20 (F := Ideal)) h' hu (ix1 n) = Cert.Soft.mx (fun q => y (ix2 n q)) := by
  have h : S100000x30.Reduces [1] S100000 := by decide
  have e := Host.reduce_eq_fold_single (α := EReal) (max : EReal → EReal → EReal) y (val_main_cst_20 (F := Ideal)) h' h hu (ix1 n)
  refine e.trans ?_
  have hf : (y ∘ h.lift (ix1 n)) = fun q : Fin 30 => y (ix2 n q) := funext fun k => congrArg y (lift_row h n k)
  exact congrArg (fun f => Finset.fold max (Ideal.ofBits .f32 0xFF800000#32) f (Finset.univ : Finset (Fin 30))) hf

/-- The maximum of minus infinity and x is x. -/
theorem max_negInf (x : EReal) : FloatOps.maximumf (F := Ideal) (φ := .f32) (FloatOps.ofBits .f32 0xFF800000#32) x = x := by
  show max (Ideal.ofBits .f32 0xFF800000#32) x = x
  rw [ofBits_negInf]
  exact max_eq_right bot_le

section
variable (x0 : (⟨S100000x128, .f32⟩ : BufTy).Contents (Elt Ideal)) (x1 : (⟨S2x3200000, .i32⟩ : BufTy).Contents (Elt Ideal)) (x3 : (⟨S128x32, .f32⟩ : BufTy).Contents (Elt Ideal)) (x4 : (⟨S32, .f32⟩ : BufTy).Contents (Elt Ideal)) (x5 : (⟨S32x30, .f32⟩ : BufTy).Contents (Elt Ideal)) (x6 : (⟨S30, .f32⟩ : BufTy).Contents (Elt Ideal))

/-- The reference's row maximum at node n is the maximum of row n of its logits. -/
theorem ref_max (n : Fin 100000) :
    val_main_v93 (F := Ideal) x0 x1 x3 x4 x5 x6 (ix1 n) = Cert.Soft.mx (fun q => val_main_v90 (F := Ideal) x0 x1 x3 x4 x5 x6 (ix2 n q)) := by
  rw [val_main_v93_apply, val_main_v92_apply, val_main_cst_21_apply, max_negInf]
  unfold val_main_v91
  exact rowMax_apply _ _ _ n

/-- The reference's exponentials at (n, j): exp of the logit less its row's maximum. -/
theorem ref_ex (n : Fin 100000) (j : Fin 30) :
    val_main_v97 (F := Ideal) x0 x1 x3 x4 x5 x6 (ix2 n j) = Cert.Soft.ex (fun q => val_main_v90 (F := Ideal) x0 x1 x3 x4 x5 x6 (ix2 n q)) j := by
  have e : idx_main_v94 (idx_main_v95 (ix2 n j)) = ix1 n :=
    funext fun a => Fin.ext (by match a with | ⟨0, _⟩ => rfl)
  rw [val_main_v97_apply, val_main_v96_apply, val_main_v95_apply, val_main_v94_apply, e, ref_max]
  generalize val_main_v90 (F := Ideal) x0 x1 x3 x4 x5 x6 = y
  rfl

/-- The reference's softmax at (n, j) is the softmax entry of row n of its logits. -/
theorem ref_fx (n : Fin 100000) (j : Fin 30) :
    val_main_v101 (F := Ideal) x0 x1 x3 x4 x5 x6 (ix2 n j) = Cert.Soft.fx (fun q => val_main_v90 (F := Ideal) x0 x1 x3 x4 x5 x6 (ix2 n q)) j := by
  have e : idx_main_v99 (idx_main_v100 (ix2 n j)) = ix1 n :=
    funext fun a => Fin.ext (by match a with | ⟨0, _⟩ => rfl)
  have e2 : ∀ k : Fin 30, idx_main_v98 (ix1 n) k = ix2 n k := fun k =>
    funext fun a => Fin.ext (by match a with | ⟨0, _⟩ => rfl | ⟨1, _⟩ => rfl)
  rw [val_main_v101_apply, val_main_v100_apply, val_main_v99_apply, e, val_main_v98_apply, val_main_cst_22_apply, ref_ex]
  simp only [e2, ref_ex, Ideal.hostDivf_def, Ideal.ofBits_def, Ideal.ofBits_zero_f32, zero_add]
  generalize val_main_v90 (F := Ideal) x0 x1 x3 x4 x5 x6 = y
  rfl

/-- The reference's log (1 − softmax²) at (n, j). -/
theorem ref_nfx (n : Fin 100000) (j : Fin 30) :
    val_main_v121 (F := Ideal) x0 x1 x3 x4 x5 x6 (ix2 n j) = Cert.Soft.nfx (fun q => val_main_v90 (F := Ideal) x0 x1 x3 x4 x5 x6 (ix2 n q)) j := by
  rw [val_main_v121_apply, val_main_v120_apply, val_main_v119_apply, val_main_cst_28_apply, val_main_v118_apply, ref_fx]
  generalize val_main_v90 (F := Ideal) x0 x1 x3 x4 x5 x6 = y
  rfl

/-- The reference's column sum at j is the sum over the nodes of log (1 − softmax²) at (n, j). -/
theorem ref_sum (j : Fin 30) :
    val_main_v122 (F := Ideal) x0 x1 x3 x4 x5 x6 (ix1 j) = ∑ n : Fin 100000, Cert.Soft.nfx (fun q => val_main_v90 (F := Ideal) x0 x1 x3 x4 x5 x6 (ix2 n q)) j := by
  have e : ∀ k : Fin 100000, idx_main_v122 (ix1 j) k = ix2 k j := fun k =>
    funext fun a => Fin.ext (by match a with | ⟨0, _⟩ => rfl | ⟨1, _⟩ => rfl)
  rw [val_main_v122_apply, val_main_cst_29_apply]
  simp only [e, ref_nfx, Ideal.ofBits_def, Ideal.ofBits_zero_f32, zero_add]

end

end Cert.RefSoft

end
-- ==== Proof.HostB9.lean ====
/- The host stretch of the kernel program between its third and fourth kernels, read at the buffers that the
   fourth kernel and the last stretch take from it.

   The two gathered arrays are the rows of the third kernel's class probabilities at the normalised source and
   destination of every edge: the index columns are computed from the edge list by the same operations as in the
   reference program, and the rows of the edge list themselves are written once, before the first kernel, and never
   again. The target column is the argument vector reshaped. The regulariser is minus the sum over the thirty
   columns of log (κ − exp s), κ the single-precision constant nearest 1.0001 and s the column sums accumulated by the third kernel. -/
import proofs.«413779_j11321533792258_3_alg».proof.Proof.KDefs
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KV.HostB

open Idealize.ShloMosaic Idealize.ShloMosaic.TcCoe Idealize.SL.Sem Idealize.ShloMosaic.ValueIdx
open Cert.KernelIdeal Cert.KernelIdeal.Gen

section Index
variable {F : FTy → Type} [FloatOps F]

/-- Row 0 (the sources) and row 1 (the destinations) of the edge list, each as a vector of 3200000 entries. -/
def edgeRow0 (x : (⟨S2x3200000, .i32⟩ : BufTy).Contents (Elt F)) : (⟨S3200000, .i32⟩ : BufTy).Contents (Elt F) :=
  shapeCast S3200000 (extractStridedSlice S1x3200000 ![0, 0] x slices_S2x3200000_S1x3200000_0_0) shapeCasts_S1x3200000_S3200000
def edgeRow1 (x : (⟨S2x3200000, .i32⟩ : BufTy).Contents (Elt F)) : (⟨S3200000, .i32⟩ : BufTy).Contents (Elt F) :=
  shapeCast S3200000 (extractStridedSlice S1x3200000 ![1, 0] x slices_S2x3200000_S1x3200000_1_0) shapeCasts_S1x3200000_S3200000

/-- An index vector normalised (100000 is added to a negative entry) and set up as a column. -/
def normCol (v : (⟨S3200000, .i32⟩ : BufTy).Contents (Elt F)) : (⟨S3200000x1, .i32⟩ : BufTy).Contents (Elt F) :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The reference program normalises the two rows of the edge list by the same operations. -/
theorem ref_v107 (x : (⟨S2x3200000, .i32⟩ : BufTy).Contents (Elt F)) :
    Cert.ReferenceIdeal.Read.val_main_v107 (F := F) x = normCol (edgeRow0 x) := rfl
theorem ref_v114 (x : (⟨S2x3200000, .i32⟩ : BufTy).Contents (Elt F)) :
    Cert.ReferenceIdeal.Read.val_main_v114 (F := F) x = normCol (edgeRow1 x) := rfl

end Index

variable (m : (ℓ : Loc nD τ sig) → Buf (Elt Ideal) ℓ) (ρ : Dev nD → PrngReg) (c : Dev nD)

/-- The source row is written by the first host stretch and by nothing after it, up to the third kernel's exit. -/
theorem W8_v1 : W8 m ρ c (Proc.devRef .tc main_v1) = edgeRow0 (F := Ideal) (m ((c.tc : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = edgeRow0 (F := Ideal) (m ((c.tc : Thread nD τ).loc main_arg1)) := by
          show StableHlo.after hostOps0 _ (Proc.devRef .tc main_v1) = _
          after_results
          rfl

/-- The same for the destination row. -/
theorem W8_v3 : W8 m ρ c (Proc.devRef .tc main_v3) = edgeRow1 (F := Ideal) (m ((c.tc : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = edgeRow1 (F := Ideal) (m ((c.tc : Thread nD τ).loc main_arg1)) := by
          show StableHlo.after hostOps0 _ (Proc.devRef .tc main_v3) = _
          after_results
          rfl

/-- The targets are an argument: at the third kernel's exit they are as launched (they are as launched at the return,
    and nothing in between writes them). -/
theorem W8_arg2 : W8 m ρ c (Proc.devRef .tc main_arg2) = m ((c.tc : Thread nD τ).loc main_arg2) :=
  calc W8 m ρ c (Proc.devRef .tc main_arg2)
    _ = W9 m ρ c (Proc.devRef .tc main_arg2) := (StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W10 m ρ c (Proc.devRef .tc main_arg2) := (W10_of_ne m ρ c main_arg2 (by decide)).symm
    _ = W11 m ρ c (Proc.devRef .tc main_arg2) := (StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c.tc : Thread nD τ).loc main_arg2) := W11_main_arg2 m ρ c

/-- The regulariser: minus the sum over the thirty columns of log (κ − exp (accumulated column sum)), κ the single-precision constant nearest 1.0001. -/
theorem W9_v47 :
    (W9 m ρ c (Proc.devRef .tc main_v47) : S_.Idx → EReal) =
      Host.negf (F := Ideal) (Host.reduceAdd (F := Ideal)
        (Host.log (F := Ideal) (subf (F := Ideal) (s := S30) (φ := .f32)
          (broadcastInDim S30 ![] bcast_S_S30 (constant (F := Ideal) S_ .f32 0x3F800347#32))
          (Host.exp (F := Ideal) (shapeCast S30 (W8 m ρ c (Proc.devRef .tc main_v40_1) : S1x30.Idx → EReal) shapeCasts_S1x30_S30))))
        (constant (F := Ideal) S_ .f32 0x00000000#32) reducesTo_S30_S_d0 h_S_) := by
  show StableHlo.after hostOps3 _ (Proc.devRef .tc main_v47) = _
  after_results
  rfl

/-- The targets as a column: the argument vector under a change of shape. -/
theorem W9_v62_cast :
    (W9 m ρ c (Proc.devRef .tc main_v62) : S3200000x1.Idx → EReal) =
      shapeCast S3200000x1 (m ((c.tc : Thread nD τ).loc main_arg2) : S3200000.Idx → EReal) shapeCasts_S3200000_S3200000x1 := by
  rw [← W8_arg2 m ρ c]
  show StableHlo.after hostOps3 _ (Proc.devRef .tc main_v62) = _
  after_results
  rfl

/-- The class probabilities gathered at the normalised column of the source row as the third kernel leaves it. -/
theorem W9_v54_k :
    (W9 m ρ c (Proc.devRef .tc main_v54) : S3200000x30.Idx → EReal) =
      Host.gather gather_S100000x30_S3200000x1_S3200000x30_1_0_n_n_0_1_130
        (W8 m ρ c (Proc.devRef .tc main_v40_0) : S100000x30.Idx → EReal)
        (normCol (F := Ideal) (W8 m ρ c (Proc.devRef .tc main_v1))) := by
  show StableHlo.after hostOps3 _ (Proc.devRef .tc main_v54) = _
  after_results_simp
  rfl

/-- The same at the destination row. -/
theorem W9_v61_k :
    (W9 m ρ c (Proc.devRef .tc main_v61) : S3200000x30.Idx → EReal) =
      Host.gather gather_S100000x30_S3200000x1_S3200000x30_1_0_n_n_0_1_130
        (W8 m ρ c (Proc.devRef .tc main_v40_0) : S100000x30.Idx → EReal)
        (normCol (F := Ideal) (W8 m ρ c (Proc.devRef .tc main_v3))) := by
  show StableHlo.after hostOps3 _ (Proc.devRef .tc main_v61) = _
  after_results_simp
  rfl

/-- The fourth kernel's first operand: row e is the class-probability row of edge e's (normalised) source. -/
theorem W9_v54 :
    (W9 m ρ c (Proc.devRef .tc main_v54) : S3200000x30.Idx → EReal) =
      Host.gather gather_S100000x30_S3200000x1_S3200000x30_1_0_n_n_0_1_130
        (W8 m ρ c (Proc.devRef .tc main_v40_0) : S100000x30.Idx → EReal)
        (Cert.ReferenceIdeal.Read.val_main_v107 (F := Ideal) (x1 m c)) := by
  refine (W9_v54_k m ρ c).trans ?_
  rw [W8_v1 m ρ c, ref_v107]

/-- Its second operand: row e is the class-probability row of edge e's (normalised) destination. -/
theorem W9_v61 :
    (W9 m ρ c (Proc.devRef .tc main_v61) : S3200000x30.Idx → EReal) =
      Host.gather gather_S100000x30_S3200000x1_S3200000x30_1_0_n_n_0_1_130
        (W8 m ρ c (Proc.devRef .tc main_v40_0) : S100000x30.Idx → EReal)
        (Cert.ReferenceIdeal.Read.val_main_v114 (F := Ideal) (x1 m c)) := by
  refine (W9_v61_k m ρ c).trans ?_
  rw [W8_v3 m ρ c, ref_v114]

/-- Its third operand: entry e of the target column is the e-th target. -/
theorem W9_v62 (e : Fin 3200000) :
    (W9 m ρ c (Proc.devRef .tc main_v62) : S3200000x1.Idx → EReal) (ix2 e 0) = x2 m c (ix1 e) := by
  rw [W9_v62_cast]
  exact shapeCast_apply _ shapeCasts_S3200000_S3200000x1 (ix2 e 0) (ix1 e)
    (by rewrite [Shape.rowMajor_val_two, Shape.rowMajor_val_one]; show e.val = e.val * 1 + 0; omega)

end Cert.KV.HostB

end
-- ==== Proof.HostB11.lean ====
/- The last host stretch of the kernel program, read at the two result buffers.

   The class-probability array written by the third kernel is not written again before the return. The scalar result
   is the sum of all entries of the fourth kernel's accumulator block divided by 3.2e6, plus 0.01 times the
   regulariser computed before the fourth kernel was entered. -/
import proofs.«413779_j11321533792258_3_alg».proof.Proof.Gen.KernelIdeal.Frame
import Idealize.ShloMosaic.PureOps.Ideal
import Idealize.ShloMosaic.PureOps.Ideal.Laws

set_option maxRecDepth 16384

noncomputable section

namespace Cert.KV.HostB

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The class probabilities at the return are the third kernel's: neither later host stretch nor the fourth kernel
    writes that buffer. -/
theorem W11_v40_0 : W11 m ρ c (Proc.devRef .tc main_v40_0) = W8 m ρ c (Proc.devRef .tc main_v40_0) :=
  calc W11 m ρ c (Proc.devRef .tc main_v40_0)
    _ = W10 m ρ c (Proc.devRef .tc main_v40_0) := StableHlo.after_of_forall_not_mem (b := Proc.devRef .tc main_v40_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v40_0) := W10_of_ne m ρ c main_v40_0 (by decide)
    _ = W8 m ρ c (Proc.devRef .tc main_v40_0) := StableHlo.after_of_forall_not_mem (b := Proc.devRef .tc main_v40_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The regulariser is not written by the fourth kernel. -/
theorem W10_v47 : W10 m ρ c (Proc.devRef .tc main_v47) = W9 m ρ c (Proc.devRef .tc main_v47) :=
  W10_of_ne m ρ c main_v47 (by decide)

/-- The scalar result: the accumulator block summed and divided by 3.2e6, plus 0.01 times the regulariser. -/
theorem W11_v67 :
    (W11 m ρ c (Proc.devRef .tc main_v67) : S_.Idx → EReal) =
      addf (F := Ideal) (s := S_) (φ := .f32)
        (Host.divf (F := Ideal)
          (Host.reduceAdd (F := Ideal) (W10 m ρ c (Proc.devRef .tc main_v63) : S16x128.Idx → EReal)
            (constant (F := Ideal) S_ .f32 0x00000000#32) reducesTo_S16x128_S_d0_1 h_S_)
          (constant (F := Ideal) S_ .f32 0x4A435000#32))
        (mulf (F := Ideal) (s := S_) (φ := .f32) (constant (F := Ideal) S_ .f32 0x3C23D70A#32)
          (W9 m ρ c (Proc.devRef .tc main_v47) : S_.Idx → EReal)) := by
  rw [← W10_v47 m ρ c]
  show StableHlo.after hostOps4 _ (Proc.devRef .tc main_v67) = _
  after_results

end Cert.KV.HostB

end
-- ==== Proof.Chain3.lean ====
/- The softmax and the regulariser, kernel against reference.

   The third kernel forms node n's logits from its three input arrays; they are the reference's logits, so its softmax block
   rows are the reference's softmax rows, and its accumulator, the column sums of log (1 − entry²) over all nodes, is the
   reference's column sum. The host operations that turn the accumulator into the regulariser are the same in both programs. -/
import proofs.«413779_j11321533792258_3_alg».proof.Proof.Chain2
import proofs.«413779_j11321533792258_3_alg».proof.Proof.Reg2
import proofs.«413779_j11321533792258_3_alg».proof.Proof.RefSoft
import proofs.«413779_j11321533792258_3_alg».proof.Proof.HostB9
import proofs.«413779_j11321533792258_3_alg».proof.Proof.HostB11
import Idealize.ShloMosaic.Lib.ValueLayout

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

/-- The softmax array and the accumulator row, at the boundary after the third kernel. -/
abbrev FXk : S100000x30.Idx → EReal := W8 m ρ c (Proc.devRef .tc main_v40_0)
abbrev ACCk : S1x30.Idx → EReal := W8 m ρ c (Proc.devRef .tc main_v40_1)

theorem row_eq (n : Fin 100000) :
    Reg2.logitsRow (V7 m ρ) c n = fun q => val_main_v90 (F := Ideal) (x0 m c) (x1 m c) (x3 m c) (x4 m c) (x5 m c) (x6 m c) (ix2 n q) := by
  funext q
  unfold Reg2.logitsRow
  have es : Reg2.sclArr (V7 m ρ) c (ix2 n 0) = D m c n := HostA.W7_v15 m ρ c n
  have eb : Reg2.biasArr (V7 m ρ) c (ix2 0 q) = x6 m c (ix1 q) := HostA.W7_v39 m ρ c q
  rw [es, eb]
  exact logits_eq m ρ c n q

theorem FXk_eq (n : Fin 100000) (j : Fin 30) :
    FXk m ρ c (ix2 n j) = val_main_v101 (F := Ideal) (x0 m c) (x1 m c) (x3 m c) (x4 m c) (x5 m c) (x6 m c) (ix2 n j) := by
  have e : FXk m ρ c = Reg2.fxArr (V7 m ρ) c := W8_arr m ρ c 3
  rw [e, Reg2.reg2_fx, row_eq, ← Cert.RefSoft.ref_fx]

theorem FXk_fun : FXk m ρ c = val_main_v101 (F := Ideal) (x0 m c) (x1 m c) (x3 m c) (x4 m c) (x5 m c) (x6 m c) := by
  funext i
  obtain ⟨n, j, rfl⟩ : ∃ (n : Fin 100000) (j : Fin 30), i = ix2 n j := ⟨i 0, i 1, eq_ix2 i⟩
  exact FXk_eq m ρ c n j

theorem ACCk_eq (j : Fin 30) :
    ACCk m ρ c (ix2 0 j) = val_main_v122 (F := Ideal) (x0 m c) (x1 m c) (x3 m c) (x4 m c) (x5 m c) (x6 m c) (ix1 j) := by
  have e : ACCk m ρ c = Reg2.accArr (V7 m ρ) c := W8_arr m ρ c 4
  rw [e, Reg2.reg2_sum, Cert.RefSoft.ref_sum]
  exact Finset.sum_congr rfl fun n _ => by rw [row_eq]

/-- The program's first result. -/
theorem fx_result : (W11 m ρ c (Proc.devRef .tc main_v40_0) : S100000x30.Idx → EReal) = val_main_v101 (F := Ideal) (x0 m c) (x1 m c) (x3 m c) (x4 m c) (x5 m c) (x6 m c) :=
  (HostB.W11_v40_0 m ρ c).trans (FXk_fun m ρ c)

/-- The regulariser. -/
theorem preg_eq : (W9 m ρ c (Proc.devRef .tc main_v47) : S_.Idx → EReal) = val_main_v128 (F := Ideal) (x0 m c) (x1 m c) (x3 m c) (x4 m c) (x5 m c) (x6 m c) := by
  rw [HostB.W9_v47]
  have e : shapeCast S30 (ACCk m ρ c) shapeCasts_S1x30_S30 = val_main_v122 (F := Ideal) (x0 m c) (x1 m c) (x3 m c) (x4 m c) (x5 m c) (x6 m c) := by
    funext i
    obtain ⟨j, rfl⟩ : ∃ j : Fin 30, i = ix1 j := ⟨i 0, eq_ix1 i⟩
    rw [shapeCast_1a_a_apply]
    exact ACCk_eq m ρ c j
  rw [e]
  rfl

end Cert.KV

end
-- ==== Proof.Reg3.lean ====
/- The fourth kernel of the graph convolution, the squared edge error, as a function of the arrays it is entered with.

   The grid has 2 × 250 points, point t = core · 250 + tile. Each point reads 6400 consecutive edges: two [6400, 30] row
   blocks a, b and one [6400, 1] target block. Its partial is the sum over its 6400 edges of
   ((∑ over the 30 lanes of a · b) − target)². Each core keeps an [8, 128] block: zero at its first tile, and at
   every tile the partial times 2⁻⁷ is added to every lane of row 0. The block of core k becomes rows 8k … 8k + 7 of the
   [16, 128] result. Hence entry (r, l) of the result is, for r a multiple of 8, the sum over the 250 tiles of core r / 8
   of partial · 2⁻⁷, and 0 on the other rows (reg3_entries); and the sum of all its entries is the sum over all 3200000
   edges of the squared error (reg3_total), because 128 copies of p · 2⁻⁷ add up to p for every extended real p. -/
import proofs.«413779_j11321533792258_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KV.Reg3

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen

/-! ## What a point leaves in its core's block -/

theorem hz : (![0, 0] : Fin 2 → Nat) = fun _ => 0 := funext fun a => by fin_cases a <;> rfl

section Pieces
variable {F : FTy → Type} [FloatOps F]

/-- At a point that is not a core's first, the block left is the payload of the blocks read and the block found. -/
theorem out_B (c : Dev nD) (i : grid3.Coords) (a2 : Memref sig .tc .vmem S6400x30 .f32) (h2 : a2.IsWhole)
    (a3 : Memref sig .tc .vmem S6400x30 .f32) (h3 : a3.IsWhole) (a4 : Memref sig .tc .vmem S6400x1 .f32) (h4 : a4.IsWhole)
    (a5 : Memref sig .tc .vmem S8x128 .f32) (h5 : a5.IsWhole) (hc : ¬cond3_0 i)
    (x0 x1 : Vec F S6400x30 .f32) (x2 : Vec F S6400x1 .f32) (xo : Vec F S8x128 .f32) :
    out3_B_3 c i a2 h2 a3 h3 a4 h4 a5 h5 hc x0 x1 x2 xo = k3_pay2 x0 x1 x2 xo := by
  unfold out3_B_3
  rw [View.read_writes_eq_canon _ _ _ (cover3_B_3 c i a2 h2 a3 h3 a4 h4 a5 h5 hc x0 x1 x2 xo)]
  unfold kernelRun3_B
  dsimp only
  sl_unfold_words
  rw [View.canon_unit_zero hz]
  simp only [View.readAt_eq_ld, h2.read_unread, h3.read_unread, h4.read_unread, h5.read_unread,
    View.ld_unit_zero (S := S6400x30) hz, View.ld_unit_zero (S := S6400x1) hz, View.ld_unit_zero (S := S8x128) hz]

/-- At a core's first point the block is first set to zero, so the block left is the payload over the zero block. -/
theorem out_A (c : Dev nD) (i : grid3.Coords) (a2 : Memref sig .tc .vmem S6400x30 .f32) (h2 : a2.IsWhole)
    (a3 : Memref sig .tc .vmem S6400x30 .f32) (h3 : a3.IsWhole) (a4 : Memref sig .tc .vmem S6400x1 .f32) (h4 : a4.IsWhole)
    (a5 : Memref sig .tc .vmem S8x128 .f32) (h5 : a5.IsWhole) (hc : cond3_0 i)
    (x0 x1 : Vec F S6400x30 .f32) (x2 : Vec F S6400x1 .f32) :
    out3_A_3 c i a2 h2 a3 h3 a4 h4 a5 h5 hc x0 x1 x2 = k3_pay2 x0 x1 x2 (k3_pay1 (F := F)) := by
  unfold out3_A_3
  rw [View.read_writes_eq_canon _ _ _ (cover3_A_3 c i a2 h2 a3 h3 a4 h4 a5 h5 hc x0 x1 x2)]
  unfold kernelRun3_A
  dsimp only
  sl_unfold_words
  rw [View.canon_cons_unit_zero (S := S8x128) hz, View.readCov_unit_zero (S := S8x128) _ hz]
  simp only [View.readAt_eq_ld, h2.read_unread, h3.read_unread, h4.read_unread,
    View.ld_unit_zero (S := S6400x30) hz, View.ld_unit_zero (S := S6400x1) hz, View.ld_unit_zero (S := S8x128) hz]

end Pieces

/-! ## The block a point leaves, entry by entry -/

/-- An [a] array cast to [a, 1] reads, at (p, u), the operand at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The squared error of row e of a point's blocks. -/
def sqRow (x0 x1 : S6400x30.Idx → EReal) (x2 : S6400x1.Idx → EReal) (e : Fin 6400) : EReal :=
  ((∑ q : Fin 30, x0 (ix2 e q) * x1 (ix2 e q)) - x2 (ix2 e 0)) * ((∑ q : Fin 30, x0 (ix2 e q) * x1 (ix2 e q)) - x2 (ix2 e 0))

/-- Row sums over the 30 lanes. -/
theorem rowsum_apply (v : S6400x30.Idx → EReal) (h : S6400x30.Reduces [1] S6400) (hφ : FKind.Formats .f32)
    (hacc : (0x00000000#32 : BitVec 32) = FKind.add.neutral .f32 hφ) (e : Fin 6400) :
    multiReduction (F := Ideal) .add [1] S6400 v 0x00000000#32 h hφ hacc (ix1 e) = ∑ q : Fin 30, v (ix2 e q) := by
  refine (Ideal.multiReduction_add_single v 0x00000000#32 h hφ hacc (ix1 e)).trans ?_
  refine Finset.sum_congr rfl fun q _ => congrArg v ?_
  funext a
  match a with
  | ⟨0, _⟩ => rfl
  | ⟨1, _⟩ => rfl

/-- The column sum over the 6400 rows. -/
theorem colsum_apply (v : S6400x1.Idx → EReal) (h : S6400x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ e : Fin 6400, v (ix2 e 0) := by
  refine (Ideal.multiReduction_add_single v 0x00000000#32 h hφ hacc (ix1 0)).trans ?_
  refine Finset.sum_congr rfl fun e _ => congrArg v ?_
  funext a
  match a with
  | ⟨0, _⟩ => rfl
  | ⟨1, _⟩ => rfl

/-- The zero block. -/
theorem pay1_apply (r : Fin 8) (l : Fin 128) : (k3_pay1 (F := Ideal) : S8x128.Idx → EReal) (ix2 r l) = 0 :=
  Ideal.ofBits_zero_f32

/-- The block a point leaves: the old block plus, on row 0, the point's sum of squared errors times the scale word. -/
theorem pay2_apply (x0 x1 : S6400x30.Idx → EReal) (x2 : S6400x1.Idx → EReal) (xo : S8x128.Idx → EReal) (r : Fin 8) (l : Fin 128) :
    (k3_pay2 (F := Ideal) x0 x1 x2 xo : S8x128.Idx → EReal) (ix2 r l)
      = xo (ix2 r l) + (if r.val = 0 then (∑ e : Fin 6400, sqRow x0 x1 x2 e) * Ideal.ofBits .f32 0x3C000000#32 else 0) := by
  unfold k3_pay2
  dsimp only
  refine (addf_apply _ _ _).trans ?_
  refine congrArg₂ (· + ·) (congrFun (shapeCast_self xo _) (ix2 r l)) ?_
  by_cases hr : r.val = 0
  · rw [if_pos hr]
    refine (concatenate_pair_apply_left (t := S8x128) (s₁ := S1x128) (s₂ := S7x128) (0 : Fin 2) _ _ _ (ix2 r l) rfl (ix2 (0 : Fin 1) l) (fun b => ?_)).trans ?_
    · match b with
      | ⟨0, _⟩ => exact hr.symm
      | ⟨1, _⟩ => rfl
    refine (broadcastTo_apply (s := S1x1) (t := S1x128) _ _ (ix2 (0 : Fin 1) l) (ix2 (0 : Fin 1) (0 : Fin 1)) (fun a => ?_)).trans ?_
    · match a with
      | ⟨0, _⟩ => rfl
      | ⟨1, _⟩ => rfl
    refine (congrFun (shapeCast_self _ _) _).trans ?_
    refine (mulf_apply _ _ _).trans ?_
    refine congrArg₂ (· * ·) ?_ rfl
    refine (shapeCast_a_1a_apply _ _ (0 : Fin 1) (0 : Fin 1)).trans ?_
    refine (colsum_apply _ _ _ _).trans ?_
    refine Finset.sum_congr rfl fun e _ => ?_
    refine (mulf_apply _ _ _).trans ?_
    have hd : ∀ (u : Fin 1), (subf (F := Ideal) (shapeCast S6400x1 (multiReduction (F := Ideal) .add [1] S6400 (mulf (shapeCast S6400x30 x0 shapeCasts_S6400x30_S6400x30) (shapeCast S6400x30 x1 shapeCasts_S6400x30_S6400x30)) 0x00000000#32 reduces_S6400x30_S6400 (.inl rfl) rfl) shapeCasts_S6400_S6400x1) (shapeCast S6400x1 x2 shapeCasts_S6400x1_S6400x1) : S6400x1.Idx → EReal) (ix2 e u)
        = (∑ q : Fin 30, x0 (ix2 e q) * x1 (ix2 e q)) - x2 (ix2 e u) := fun u => by
      refine (subf_apply _ _ _).trans ?_
      refine congrArg₂ (· - ·) ?_ (congrFun (shapeCast_self x2 _) _)
      refine (shapeCast_a_a1_apply _ _ e u).trans ?_
      refine (rowsum_apply _ _ _ _ e).trans ?_
      refine Finset.sum_congr rfl fun q _ => ?_
      refine (mulf_apply _ _ _).trans ?_
      exact congrArg₂ (· * ·) (congrFun (shapeCast_self x0 _) _) (congrFun (shapeCast_self x1 _) _)
    exact congrArg₂ (· * ·) (hd 0) (hd 0)
  · rw [if_neg hr]
    have hr1 : 1 ≤ r.val := Nat.one_le_iff_ne_zero.mpr hr
    refine (concatenate_pair_apply_right (t := S8x128) (s₁ := S1x128) (s₂ := S7x128) (0 : Fin 2) _ _ _ (ix2 r l) rfl rfl
      (ix2 (⟨r.val - 1, by have := r.isLt; omega⟩ : Fin 7) l) (fun b hb => ?_) ?_).trans ?_
    · match b with
      | ⟨0, _⟩ => exact absurd rfl hb
      | ⟨1, _⟩ => rfl
    · show r.val - 1 + 1 = r.val
      omega
    exact Ideal.ofBits_zero_f32

/-! ## Arithmetic: the scale, the rows, the edges, the host's sum -/

/-- The word 0x3C000000 is 2⁻⁷. -/
theorem scale_word : Ideal.ofBits .f32 0x3C000000#32 = ((1 / 128 : ℝ) : EReal) := by
  simp [Ideal.ofBits, Ideal.ieee, -EReal.coe_mul]; norm_num

/-- 128 copies of p · 2⁻⁷ add up to p, for every extended real p. -/
theorem copies (p : EReal) : (128 : ℕ) • (p * ((1 / 128 : ℝ) : EReal)) = p := by
  rw [EReal.nsmul_eq_mul, mul_comm, mul_assoc]
  have h : ((1 / 128 : ℝ) : EReal) * ((128 : ℕ) : EReal) = 1 := by
    rw [show ((128 : ℕ) : EReal) = ((128 : ℝ) : EReal) by norm_cast, ← EReal.coe_mul]
    norm_num
  rw [h, mul_one]

/-- The sum over 16 rows of a quantity that lives on the rows divisible by 8. -/
theorem rows16 (f : ℕ → EReal) : (∑ r : Fin 16, if r.val % 8 = 0 then f (r.val / 8) else 0) = f 0 + f 1 := by
  rw [Fin.sum_univ_eq_sum_range (fun n => if n % 8 = 0 then f (n / 8) else 0) 16]
  simp [Finset.sum_range_succ]

/-- The 3200000 edges are the 500 points' 6400 edges each. -/
theorem sum_edges (g : Fin 3200000 → EReal) :
    ∑ e : Fin 3200000, g e = ∑ t : Fin 500, ∑ x : Fin 6400, g ⟨t.val * 6400 + x.val, by have := t.isLt; have := x.isLt; omega⟩ := by
  rw [← Equiv.sum_comp (finProdFinEquiv (m := 500) (n := 6400)) (g : Fin (500 * 6400) → EReal), Fintype.sum_prod_type]
  refine Finset.sum_congr rfl fun t _ => Finset.sum_congr rfl fun x _ => congrArg g (Fin.ext ?_)
  show x.val + 6400 * t.val = t.val * 6400 + x.val
  omega

/-- The host's sum over both axes of a [16, 128] array, from the zero word, is the double sum of its entries. -/
theorem total_sum (y : S16x128.Idx → EReal) :
    Host.reduceAdd (F := Ideal) y (constant (F := Ideal) S_ .f32 0x00000000#32) reducesTo_S16x128_S_d0_1 h_S_ ix0
      = ∑ r : Fin 16, ∑ l : Fin 128, y (ix2 r l) := by
  have h : Host.reduceAdd (F := Ideal) y (constant (F := Ideal) S_ .f32 0x00000000#32) reducesTo_S16x128_S_d0_1 h_S_ ix0
      = Ideal.ofBits .f32 0x00000000#32 + ∑ i : S16x128.Idx, y i := by
    simp only [Host.reduceAdd, Ideal.hostReduceAdd_def]
    exact Ideal.hostReduceAdd_total reducesTo_S16x128_S_d0_1 (fun b => b.elim0) y _ ix0
  rw [h, Ideal.ofBits_zero_f32, zero_add, sum_idx2]

/-! ## The arrays and the blocks the points read -/

variable (V : (c : Dev nD) → (b : Ref sig .tc) → Buf (Elt Ideal) ((c : Thread nD τ).loc b))

abbrev srcArr (c : Dev nD) : S3200000x30.Idx → EReal := V c main_v54
abbrev dstArr (c : Dev nD) : S3200000x30.Idx → EReal := V c main_v61
abbrev tgtArr (c : Dev nD) : S3200000x1.Idx → EReal := V c main_v62

/-- The blocks a point reads. -/
abbrev blk0 (c : Dev nD) (t : Fin cfg3.N) : S6400x30.Idx → EReal := iblk3 (F := Ideal) V c 0 t
abbrev blk1 (c : Dev nD) (t : Fin cfg3.N) : S6400x30.Idx → EReal := iblk3 (F := Ideal) V c 1 t
abbrev blk2 (c : Dev nD) (t : Fin cfg3.N) : S6400x1.Idx → EReal := iblk3 (F := Ideal) V c 2 t

/-- The windows' index maps over the grid: an input's block row is the point, the output's is the core. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val / 250 ∧ win3_3.index t (1 : Fin 2) = 0 :=
  (by decide +kernel : ∀ t : Fin grid3.N, _)

theorem lt500 (t : Fin cfg3.N) : t.val < 500 := lt_of_lt_of_eq t.isLt (show cfg3.N = 500 from N_3)

/-- Edge number (point · 6400 + row). -/
def edgeAt (t : ℕ) (ht : t < 500) (x : Fin 6400) : Fin 3200000 := ⟨t * 6400 + x.val, by have := x.isLt; omega⟩

theorem blk0_apply (c : Dev nD) (t : Fin cfg3.N) (e : Fin 6400) (q : Fin 30) :
    blk0 V c t (ix2 e q) = srcArr V c (ix2 (edgeAt t.val (lt500 t) e) q) := by
  obtain ⟨e0, e1, -⟩ := idx_facts t
  show V c main_v54 (((cfg3.win 0).blk t).view.emb (ix2 e q)) = V c main_v54 _
  refine congrArg _ (funext fun a => Fin.ext ?_)
  match a with
  | ⟨0, _⟩ => show win3_0.index t (0 : Fin 2) * 6400 + 1 * e.val = t.val * 6400 + e.val; omega
  | ⟨1, _⟩ => show win3_0.index t (1 : Fin 2) * 30 + 1 * q.val = q.val; omega

theorem blk1_apply (c : Dev nD) (t : Fin cfg3.N) (e : Fin 6400) (q : Fin 30) :
    blk1 V c t (ix2 e q) = dstArr V c (ix2 (edgeAt t.val (lt500 t) e) q) := by
  obtain ⟨-, -, e0, e1, -⟩ := idx_facts t
  show V c main_v61 (((cfg3.win 1).blk t).view.emb (ix2 e q)) = V c main_v61 _
  refine congrArg _ (funext fun a => Fin.ext ?_)
  match a with
  | ⟨0, _⟩ => show win3_1.index t (0 : Fin 2) * 6400 + 1 * e.val = t.val * 6400 + e.val; omega
  | ⟨1, _⟩ => show win3_1.index t (1 : Fin 2) * 30 + 1 * q.val = q.val; omega

theorem blk2_apply (c : Dev nD) (t : Fin cfg3.N) (e : Fin 6400) (u : Fin 1) :
    blk2 V c t (ix2 e u) = tgtArr V c (ix2 (edgeAt t.val (lt500 t) e) u) := by
  obtain ⟨-, -, -, -, e0, e1, -⟩ := idx_facts t
  show V c main_v62 (((cfg3.win 2).blk t).view.emb (ix2 e u)) = V c main_v62 _
  refine congrArg _ (funext fun a => Fin.ext ?_)
  match a with
  | ⟨0, _⟩ => show win3_2.index t (0 : Fin 2) * 6400 + 1 * e.val = t.val * 6400 + e.val; omega
  | ⟨1, _⟩ => show win3_2.index t (1 : Fin 2) * 1 + 1 * u.val = u.val; omega

/-! ## The invariant of the core's block -/

/-- The squared error of edge e: ((∑ over the 30 lanes of src · dst) − target)². -/
def sqErr (c : Dev nD) (e : Fin 3200000) : EReal :=
  ((∑ q : Fin 30, srcArr V c (ix2 e q) * dstArr V c (ix2 e q)) - tgtArr V c (ix2 e 0))
    * ((∑ q : Fin 30, srcArr V c (ix2 e q) * dstArr V c (ix2 e q)) - tgtArr V c (ix2 e 0))

/-- The partial of point n: the sum of the squared errors of its 6400 edges (0 past the grid). -/
def pAt (c : Dev nD) (n : ℕ) : EReal := if h : n < 500 then ∑ x : Fin 6400, sqErr V c (edgeAt n h x) else 0

/-- What point n adds to row r of its core's block. -/
def addend (c : Dev nD) (n : ℕ) (r : Fin 8) : EReal :=
  if r.val = 0 then pAt V c n * Ideal.ofBits .f32 0x3C000000#32 else 0

theorem point_addend (c : Dev nD) (t : Fin cfg3.N) (r : Fin 8) :
    (if r.val = 0 then (∑ e : Fin 6400, sqRow (blk0 V c t) (blk1 V c t) (blk2 V c t) e) * Ideal.ofBits .f32 0x3C000000#32 else 0)
      = addend V c t.val r := by
  unfold addend pAt
  rw [dif_pos (lt500 t)]
  refine if_congr Iff.rfl (congrArg (· * Ideal.ofBits .f32 0x3C000000#32) (Finset.sum_congr rfl fun e _ => ?_)) rfl
  have hs : (∑ q : Fin 30, blk0 V c t (ix2 e q) * blk1 V c t (ix2 e q))
      = ∑ q : Fin 30, srcArr V c (ix2 (edgeAt t.val (lt500 t) e) q) * dstArr V c (ix2 (edgeAt t.val (lt500 t) e) q) :=
    Finset.sum_congr rfl fun q _ => congrArg₂ (· * ·) (blk0_apply V c t e q) (blk1_apply V c t e q)
  have ht := blk2_apply V c t e 0
  unfold sqRow sqErr
  exact congrArg₂ (· * ·) (congrArg₂ (· - ·) hs ht) (congrArg₂ (· - ·) hs ht)

/-- After a core's first point its block holds that point's addend. -/
theorem outsAt_A (c : Dev nD) (t : Fin cfg3.N) (h0 : t.val % 250 = 0) (r : Fin 8) (l : Fin 128) :
    (outsAt3 (F := Ideal) V c t.val t.isLt : S8x128.Idx → EReal) (ix2 r l) = addend V c t.val r := by
  refine (congrFun (outsAt3_A V c t h0) (ix2 r l)).trans ?_
  refine (congrFun (out_A (F := Ideal) c (grid3.coords t) (ms3_0 t) (hs3_0 t) (ms3_1 t) (hs3_1 t) (ms3_2 t) (hs3_2 t) (ms3_3 t) (hs3_3 t)
    ((hcond3_0 t).mpr h0) (iblk3 V c 0 t) (iblk3 V c 1 t) (iblk3 V c 2 t)) (ix2 r l)).trans ?_
  refine (pay2_apply (blk0 V c t) (blk1 V c t) (blk2 V c t) (k3_pay1 (F := Ideal)) r l).trans ?_
  rw [pay1_apply, zero_add]
  exact point_addend V c t r

/-- After any other point it holds what the point before left plus the point's addend. -/
theorem outsAt_B (c : Dev nD) (t : Fin cfg3.N) (h0 : ¬t.val % 250 = 0) (r : Fin 8) (l : Fin 128) :
    (outsAt3 (F := Ideal) V c t.val t.isLt : S8x128.Idx → EReal) (ix2 r l)
      = (outsAt3 (F := Ideal) V c (t.val - 1) (Nat.lt_of_le_of_lt (Nat.sub_le _ _) t.isLt) : S8x128.Idx → EReal) (ix2 r l)
        + addend V c t.val r := by
  refine (congrFun (outsAt3_B V c t h0) (ix2 r l)).trans ?_
  refine (congrFun (out_B (F := Ideal) c (grid3.coords t) (ms3_0 t) (hs3_0 t) (ms3_1 t) (hs3_1 t) (ms3_2 t) (hs3_2 t) (ms3_3 t) (hs3_3 t)
    (fun h => h0 ((hcond3_0 t).mp h)) (iblk3 V c 0 t) (iblk3 V c 1 t) (iblk3 V c 2 t)
    (outsAt3 (F := Ideal) V c (t.val - 1) (Nat.lt_of_le_of_lt (Nat.sub_le _ _) t.isLt))) (ix2 r l)).trans ?_
  refine (pay2_apply (blk0 V c t) (blk1 V c t) (blk2 V c t)
    (outsAt3 (F := Ideal) V c (t.val - 1) (Nat.lt_of_le_of_lt (Nat.sub_le _ _) t.isLt)) r l).trans ?_
  exact congrArg (_ + ·) (point_addend V c t r)

theorem outsAt_congr (c : Dev nD) (a b : ℕ) (ha : a < cfg3.N) (hb : b < cfg3.N) (e : a = b) :
    outsAt3 (F := Ideal) V c a ha = outsAt3 (F := Ideal) V c b hb := by subst e; rfl

/-- THE INVARIANT: after point n a core's block holds, on row r, the addends of the points of n's core up to n. -/
theorem outsAt_eq (c : Dev nD) : ∀ (n : ℕ) (hn : n < cfg3.N) (r : Fin 8) (l : Fin 128),
    (outsAt3 (F := Ideal) V c n hn : S8x128.Idx → EReal) (ix2 r l)
      = ∑ s ∈ Finset.range (n % 250 + 1), addend V c (n - n % 250 + s) r
  | 0, hn, r, l => by
    refine (outsAt_A V c ⟨0, hn⟩ rfl r l).trans ?_
    show addend V c 0 r = _
    rw [Nat.zero_mod, Nat.zero_add, Finset.sum_range_one]
  | n + 1, hn, r, l => by
    by_cases h0 : (n + 1) % 250 = 0
    · refine (outsAt_A V c ⟨n + 1, hn⟩ h0 r l).trans ?_
      show addend V c (n + 1) r = _
      rw [h0, Nat.zero_add, Finset.sum_range_one, Nat.sub_zero, Nat.add_zero]
    · refine (outsAt_B V c ⟨n + 1, hn⟩ h0 r l).trans ?_
      have ih := outsAt_eq c n (Nat.lt_of_succ_lt hn) r l
      have e1 : (n + 1) % 250 = n % 250 + 1 := by omega
      have e2 : n + 1 - (n % 250 + 1) = n - n % 250 := by omega
      have e3 : n - n % 250 + (n % 250 + 1) = n + 1 := by omega
      rw [e1, e2, Finset.sum_range_succ, ← ih, e3]
      exact congrArg (· + addend V c (n + 1) r)
        (congrFun (outsAt_congr V c (n + 1 - 1) n _ _ (by omega)) (ix2 r l))

/-- At a core's last point: the whole core's sum on row 0, zero on the other rows. -/
theorem outsAt_last (c : Dev nD) (t : Fin cfg3.N) (h : t.val % 250 = 249) (r : Fin 8) (l : Fin 128) :
    (outsAt3 (F := Ideal) V c t.val t.isLt : S8x128.Idx → EReal) (ix2 r l)
      = if r.val = 0 then ∑ s : Fin 250, pAt V c (t.val / 250 * 250 + s.val) * Ideal.ofBits .f32 0x3C000000#32 else 0 := by
  refine (outsAt_eq V c t.val t.isLt r l).trans ?_
  rw [h, Finset.sum_range]
  unfold addend
  by_cases hr : r.val = 0
  · simp only [if_pos hr]
    refine Finset.sum_congr rfl fun s _ => ?_
    rw [show t.val - 249 + s.val = t.val / 250 * 250 + s.val by omega]
  · simp only [if_neg hr, Finset.sum_const_zero]

/-! ## From the blocks to the result array -/

/-- Entry ρ of a column of the result: on the rows divisible by 8, the sum over the core's 250 tiles. -/
def colAt (c : Dev nD) (ρ : ℕ) : EReal :=
  if ρ % 8 = 0 then ∑ s : Fin 250, pAt V c (ρ / 8 * 250 + s.val) * Ideal.ofBits .f32 0x3C000000#32 else 0

/-- The result array in closed form. -/
abbrev resArr (c : Dev nD) : S16x128.Idx → EReal := fun i => colAt V c (i 0).val

/-- What a core's last point writes back is its block of the closed form. -/
theorem flushed_eq (c : Dev nD) (t : Fin cfg3.N) (hf : (cfg3.win 3).flush t = true) :
    (dat3 (F := Ideal) V c).flushed 3 t = ((cfg3.win 3).blk t).view.read (Elt Ideal) (resArr V c) := by
  have hN := lt500 t
  have h249 : t.val % 250 = 249 := (flush3_3 t).mp hf
  obtain ⟨-, -, -, -, -, -, e6, e7⟩ := idx_facts t
  show (cfg3.win 3).cut (grid3.coords t) ((dat3 (F := Ideal) V c).after 3 t) = _
  rw [after3_3]
  refine funext fun (y : S8x128.Idx) => ?_
  obtain ⟨r, l, rfl⟩ : ∃ (r : Fin 8) (l : Fin 128), y = ix2 r l := ⟨y 0, y 1, eq_ix2 y⟩
  show (outsAt3 (F := Ideal) V c t.val t.isLt : S8x128.Idx → EReal) (ix2 r l) = colAt V c (win3_3.index t (0 : Fin 2) * 8 + 1 * r.val)
  refine (outsAt_last V c t h249 r l).trans ?_
  unfold colAt
  have hr := r.isLt
  rw [e6]
  by_cases h0 : r.val = 0
  · rw [if_pos h0, if_pos (by omega)]
    refine Finset.sum_congr rfl fun s _ => ?_
    rw [show (t.val / 250 * 8 + 1 * r.val) / 8 = t.val / 250 by omega]
  · rw [if_neg h0, if_neg (by omega)]

/-- An index of the result is in point t's block iff each coordinate is in the block's range. -/
theorem mem_blk (t : Fin cfg3.N) (i : S16x128.Idx) :
    i ∈ ((cfg3.win 3).blk t).view.set ↔ ∀ a : Fin 2, win3_3.index t a * S8x128.size a ≤ (i a).val ∧ (i a).val < win3_3.index t a * S8x128.size a + S8x128.size a := by
  show i ∈ ((View.whole main_v63).slice (win3_3.rect t)).set ↔ _
  rw [View.set_slice_whole, Rect.mem_set_unit]
  exact Iff.rfl

/-- THE RESULT ARRAY after the last point: rows 8k … 8k + 7 are written by core k's last point. -/
theorem final (c : Dev nD) : (dat3 (F := Ideal) V c).arrAt 3 cfg3.N = resArr V c :=
  (dat3 (F := Ideal) V c).arrAt_eq_of_cover 3 (resArr V c) (flushed_eq V c) fun i => by
    have hi0 : (i 0).val < 16 := idx2_lt0 i
    have hi1 : (i 1).val < 128 := idx2_lt1 i
    let t : Fin cfg3.N := ⟨(i 0).val / 8 * 250 + 249, by rw [show cfg3.N = 500 from N_3]; omega⟩
    have htv : t.val = (i 0).val / 8 * 250 + 249 := rfl
    obtain ⟨-, -, -, -, -, -, e6, e7⟩ := idx_facts t
    refine ⟨t, (flush3_3 t).mpr (by rw [htv]; omega), ?_⟩
    rw [mem_blk]
    intro a
    match a with
    | ⟨0, _⟩ => show win3_3.index t (0 : Fin 2) * 8 ≤ (i 0).val ∧ (i 0).val < win3_3.index t (0 : Fin 2) * 8 + 8; rw [e6, htv]; omega
    | ⟨1, _⟩ => show win3_3.index t (1 : Fin 2) * 128 ≤ (i 1).val ∧ (i 1).val < win3_3.index t (1 : Fin 2) * 128 + 128; rw [e7]; omega

/-! ## The deliverables -/

/-- The array the kernel writes, after its last point. -/
abbrev outArr (c : Dev nD) : S16x128.Idx → EReal := (dat3 (F := Ideal) V c).arrAt 3 cfg3.N

/-- Edge number (point · 6400 + row). -/
def edgeOf (t : Fin 500) (x : Fin 6400) : Fin 3200000 := ⟨t.val * 6400 + x.val, by have := t.isLt; have := x.isLt; omega⟩

/-- The partial of point t: the sum of the squared errors of its 6400 edges. -/
def partialAt (c : Dev nD) (t : Fin 500) : EReal := ∑ x : Fin 6400, sqErr V c (edgeOf t x)

theorem pAt_eq (c : Dev nD) (t : Fin 500) : pAt V c t.val = partialAt V c t := by
  unfold pAt partialAt
  rw [dif_pos t.isLt]
  rfl

/-- THE RESULT ARRAY IN CLOSED FORM: on the rows divisible by 8 the core's 250 partials times 2⁻⁷, zero elsewhere. -/
theorem reg3_entries (c : Dev nD) (r : Fin 16) (l : Fin 128) :
    outArr V c (ix2 r l) = if r.val % 8 = 0 then
        ∑ s : Fin 250, partialAt V c ⟨(r.val / 8) * 250 + s.val, by have := r.isLt; have := s.isLt; omega⟩ * ((1 / 128 : ℝ) : EReal)
      else 0 := by
  refine (congrFun (final V c) (ix2 r l)).trans ?_
  show colAt V c r.val = _
  unfold colAt
  refine if_congr Iff.rfl (Finset.sum_congr rfl fun s _ => ?_) rfl
  rw [scale_word]
  exact congrArg (· * ((1 / 128 : ℝ) : EReal))
    (pAt_eq V c ⟨(r.val / 8) * 250 + s.val, by have := r.isLt; have := s.isLt; omega⟩)

/-- A core's 128 lanes of its 250 scaled partials add up to its 250 partials. -/
theorem core_total (c : Dev nD) (k : ℕ) :
    (128 : ℕ) • (∑ s : Fin 250, pAt V c (k * 250 + s.val) * Ideal.ofBits .f32 0x3C000000#32) = ∑ s : Fin 250, pAt V c (k * 250 + s.val) := by
  rw [Finset.smul_sum]
  refine Finset.sum_congr rfl fun s _ => ?_
  rw [scale_word]
  exact copies _

/-- THE TOTAL: the sum of all entries of the result is the sum over all edges of the squared error. -/
theorem reg3_total (c : Dev nD) :
    Host.reduceAdd (F := Ideal) ((dat3 (F := Ideal) V c).arrAt 3 cfg3.N : S16x128.Idx → EReal) (constant (F := Ideal) S_ .f32 0x00000000#32) reducesTo_S16x128_S_d0_1 h_S_ ix0
      = ∑ e : Fin 3200000, sqErr V c e := by
  refine (total_sum (outArr V c)).trans ?_
  have hrow : ∀ r : Fin 16, (∑ l : Fin 128, outArr V c (ix2 r l))
      = if r.val % 8 = 0 then (∑ s : Fin 250, pAt V c (r.val / 8 * 250 + s.val)) else 0 := fun r => by
    have hl : ∀ l : Fin 128, outArr V c (ix2 r l) = colAt V c r.val :=
      fun l => congrFun (final V c) (ix2 r l)
    rw [Finset.sum_congr rfl fun l _ => hl l, Finset.sum_const, Finset.card_univ, Fintype.card_fin]
    unfold colAt
    by_cases h8 : r.val % 8 = 0
    · rw [if_pos h8, if_pos h8]; exact core_total V c (r.val / 8)
    · rw [if_neg h8, if_neg h8, smul_zero]
  rw [Finset.sum_congr rfl fun r _ => hrow r, rows16 (fun k => ∑ s : Fin 250, pAt V c (k * 250 + s.val))]
  rw [sum_edges (sqErr V c)]
  have hp : ∀ t : Fin 500, (∑ x : Fin 6400, sqErr V c ⟨t.val * 6400 + x.val, by have := t.isLt; have := x.isLt; omega⟩) = pAt V c t.val :=
    fun t => by unfold pAt; rw [dif_pos t.isLt]; rfl
  rw [Finset.sum_congr rfl fun t _ => hp t, Fin.sum_univ_eq_sum_range (fun n => pAt V c n) 500,
    Fin.sum_univ_eq_sum_range (fun n => pAt V c (0 * 250 + n)) 250, Fin.sum_univ_eq_sum_range (fun n => pAt V c (1 * 250 + n)) 250,
    show (500 : ℕ) = 250 + 250 from rfl, Finset.sum_range_add]
  simp only [Nat.zero_mul, Nat.zero_add, Nat.one_mul]

end Cert.KV.Reg3

end
-- ==== Proof.Chain4.lean ====
/- The squared-error term and the loss, kernel against reference.

   The fourth kernel's two gathered inputs are rows of the softmax array at the normalised edge endpoints, the reference's two
   gathers of the same array; the whole-array sum of its output is the sum over all edges of the squared errors, which is the
   reference's sum; the closing host operations are the same in both programs. -/
import proofs.«413779_j11321533792258_3_alg».proof.Proof.Chain3
import proofs.«413779_j11321533792258_3_alg».proof.Proof.Reg3
import Idealize.ShloMosaic.Lib.ValueIdxRank1

noncomputable section

namespace Cert.KV

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg) (c : Dev nD)

theorem src_eq : Reg3.srcArr (V9 m ρ) c = val_main_v108 (F := Ideal) (x0 m c) (x1 m c) (x3 m c) (x4 m c) (x5 m c) (x6 m c) := by
  have h : Reg3.srcArr (V9 m ρ) c = Host.gather Cert.ReferenceIdeal.gather_S100000x30_S3200000x1_S3200000x30_1_0_n_n_0_1_130 (FXk m ρ c) (val_main_v107 (F := Ideal) (x1 m c)) :=
    HostB.W9_v54 m ρ c
  rw [h, FXk_fun]
  rfl

theorem dst_eq : Reg3.dstArr (V9 m ρ) c = val_main_v115 (F := Ideal) (x0 m c) (x1 m c) (x3 m c) (x4 m c) (x5 m c) (x6 m c) := by
  have h : Reg3.dstArr (V9 m ρ) c = Host.gather Cert.ReferenceIdeal.gather_S100000x30_S3200000x1_S3200000x30_1_0_n_n_0_1_130 (FXk m ρ c) (val_main_v114 (F := Ideal) (x1 m c)) :=
    HostB.W9_v61 m ρ c
  rw [h, FXk_fun]
  rfl

theorem sqErr_eq (e : Fin 3200000) :
    Reg3.sqErr (V9 m ρ) c e = val_main_v130 (F := Ideal) (x0 m c) (x1 m c) (x2 m c) (x3 m c) (x4 m c) (x5 m c) (x6 m c) (ix1 e) := by
  unfold Reg3.sqErr
  have et : Reg3.tgtArr (V9 m ρ) c (ix2 e 0) = x2 m c (ix1 e) := HostB.W9_v62 m ρ c e
  rw [src_eq, dst_eq, et, val_main_v130_apply, val_main_v129_apply, val_main_v117_apply, val_main_cst_27_apply]
  rw [show FloatOps.ofBits (F := Ideal) .f32 0x00000000#32 = (0 : EReal) from Ideal.ofBits_zero_f32, zero_add]
  have es : (∑ k : Fin 30, val_main_v116 (F := Ideal) (x0 m c) (x1 m c) (x3 m c) (x4 m c) (x5 m c) (x6 m c) (idx_main_v117 (ix1 e) k))
      = ∑ q : Fin 30, val_main_v108 (F := Ideal) (x0 m c) (x1 m c) (x3 m c) (x4 m c) (x5 m c) (x6 m c) (ix2 e q) * val_main_v115 (F := Ideal) (x0 m c) (x1 m c) (x3 m c) (x4 m c) (x5 m c) (x6 m c) (ix2 e q) :=
    Finset.sum_congr rfl fun q _ => by
      have ei : idx_main_v117 (ix1 e) q = ix2 e q := funext fun a => Fin.ext (by match a with | ⟨0, _⟩ => rfl | ⟨1, _⟩ => rfl)
      rw [ei, val_main_v116_apply]; rfl
  rw [es]
  rfl

/-- The whole-array sum of the fourth kernel's output is the reference's sum of squared errors. -/
theorem total_eq :
    Host.reduceAdd (F := Ideal) (W10 m ρ c (Proc.devRef .tc main_v63) : S16x128.Idx → EReal) (constant (F := Ideal) S_ .f32 0x00000000#32) reducesTo_S16x128_S_d0_1 h_S_
      = val_main_v131 (F := Ideal) (x0 m c) (x1 m c) (x2 m c) (x3 m c) (x4 m c) (x5 m c) (x6 m c) := by
  funext i
  obtain rfl : i = ix0 := eq_ix0 i
  have e : (W10 m ρ c (Proc.devRef .tc main_v63) : S16x128.Idx → EReal) = Reg3.outArr (V9 m ρ) c := W10_arr m ρ c 3
  rw [e]
  refine (Reg3.reg3_total (V9 m ρ) c).trans ?_
  rw [val_main_v131_apply, val_main_cst_32_apply]
  rw [show FloatOps.ofBits (F := Ideal) .f32 0x00000000#32 = (0 : EReal) from Ideal.ofBits_zero_f32, zero_add]
  rw [← Equiv.sum_comp (idxEquiv1 (n := 3200000)).symm]
  exact Finset.sum_congr rfl fun e _ => sqErr_eq m ρ c e

/-- The program's second result. -/
theorem loss_result : (W11 m ρ c (Proc.devRef .tc main_v67) : S_.Idx → EReal) = val_main_v134 (F := Ideal) (x0 m c) (x1 m c) (x2 m c) (x3 m c) (x4 m c) (x5 m c) (x6 m c) := by
  rw [HostB.W11_v67, total_eq, preg_eq]
  rfl

end Cert.KV

end
-- ==== Proof.lean ====
/- A two-layer graph convolution with a clustering regulariser, as four tiled kernels among host gathers and segment sums,
   against its plain reference: the two programs agree over the extended reals.

   The kernel program scales each layer's product rows by the node scale before the gather and scales each segment sum by
   the node scale after the scatter; the reference scales every edge's row by the product of its endpoints' scales. A row
   lands in segment n only if its destination is n, so the second factor is constant on a segment, and multiplying a finite sum
   of extended reals by a nonnegative finite number distributes: the two aggregations agree (Proof/AggScale.lean). The softmax
   rows and the column sums of log (1 − entry²) are the same functions of the same logits, computed block by block in the
   kernel (Proof/Reg2.lean) and over the whole array in the reference (Proof/RefSoft.lean). The squared-error sum is spread over
   128 lanes with the factor 2⁻⁷ and summed back (Proof/Reg3.lean). Proof/Chain1–4.lean carry each array of the kernel program
   to the reference's stage of the same name; the three frames are the generated certificates. -/
import proofs.«413779_j11321533792258_3_alg».proof.Defs
import proofs.«413779_j11321533792258_3_alg».proof.Proof.Gen.Kernel
import proofs.«413779_j11321533792258_3_alg».proof.Proof.Gen.Kernel.Frame
import proofs.«413779_j11321533792258_3_alg».proof.Proof.Gen.KernelIdeal
import proofs.«413779_j11321533792258_3_alg».proof.Proof.Gen.KernelIdeal.Frame
import proofs.«413779_j11321533792258_3_alg».proof.Proof.Gen.ReferenceIdeal
import proofs.«413779_j11321533792258_3_alg».proof.Proof.Gen.Pre_finite_inputs
import proofs.«413779_j11321533792258_3_alg».proof.Proof.RefRun
import proofs.«413779_j11321533792258_3_alg».proof.Proof.RefRead
import proofs.«413779_j11321533792258_3_alg».proof.Proof.KernelRun
import proofs.«413779_j11321533792258_3_alg».proof.Proof.Chain4
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both programs end with the softmax array and the loss at the reference's stages of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v101 (F := Ideal) (Cert.KV.x0 m c) (Cert.KV.x1 m c) (Cert.KV.x3 m c) (Cert.KV.x4 m c) (Cert.KV.x5 m c) (Cert.KV.x6 m c),
    fun c => Cert.ReferenceIdeal.Read.val_main_v134 (F := Ideal) (Cert.KV.x0 m c) (Cert.KV.x1 m c) (Cert.KV.x2 m c) (Cert.KV.x3 m c) (Cert.KV.x4 m c) (Cert.KV.x5 m c) (Cert.KV.x6 m c), ?_, ?_⟩
  · exact (θ_run Cert.KernelIdeal.defs _ _).mono
      (fun _ h c => ⟨(h c).1.trans (Cert.KV.fx_result m ρ c), (h c).2.1.trans (Cert.KV.loss_result m ρ c), (h c).2.2⟩)
      (Cert.KV.Run.run (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v101_eq, (hagree c).1, (hagree c).2.1, (hagree c).2.2.2.1,
        (hagree c).2.2.2.2.1, (hagree c).2.2.2.2.2.1, (hagree c).2.2.2.2.2.2]
    · rw [(h c).2.1, Cert.ReferenceIdeal.Read.val_main_v134_eq, (hagree c).1, (hagree c).2.1, (hagree c).2.2.1, (hagree c).2.2.2.1,
        (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
